-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.truncf_extf.Statement Cert.KernelIdeal.S4000x512 .f32 .bf16
  ∧ IdealRules.truncf_extf.Statement Cert.KernelIdeal.S4000x512 .f32 .bf16
  ∧ IdealRules.truncf_extf.Statement Cert.KernelIdeal.S4000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128 : Shape := ⟨1, ![128]⟩
abbrev S128x512 : Shape := ⟨2, ![128, 512]⟩
abbrev S512 : Shape := ⟨1, ![512]⟩
abbrev S512x512 : Shape := ⟨2, ![512, 512]⟩
abbrev S1 : Shape := ⟨1, ![1]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1 : S_.BroadcastsInDim S1 (![] : Fin 0 → Fin S1.rank)
  reducesTo_S1_S_d0 : S1.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S256x10 .f32) (main_arg21 : FVec F S10 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x10 .f32 := Host.absf main_arg20
  let main_cst_34 : FVec F S_ .f32 := constant S_ .f32 0x7F800000#32
  let main_v90 : FVec F S256x10 .f32 := broadcastInDim S256x10 ![] bcast_S_S256x10 main_cst_34
  let main_v91 : IVec S256x10 1 := cmpf .olt main_v89 main_v90
  let main_c_35 : IVec S_ 1 := constantI S_ 1 1#1
  let main_v92 : IVec S_ 1 := (fun x v => Host.reduce IntOp.andi x v reducesTo_S256x10_S_d0_1 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg16 : FVec F S512x512 .f32) (main_arg17 : FVec F S512 .f32) (main_arg18 : FVec F S512x256 .f32) (main_arg19 : FVec F S256 .f32) (main_arg20 : FVec F S256x10 .f32) (main_arg21 : FVec F S10 .f32) (main_v63 : IVec S_ 1) (main_v67 : IVec S_ 1) : IVec S_ 1 :=
  let main_v68 : IVec S_ 1 := andi main_v63 main_v67
  let main_v69 : FVec F S512x512 .f32 := Host.absf main_arg16
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x256 .f32 := Host.absf main_arg18
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S512 .f32) (main_arg14 : FVec F S512 .f32) (main_arg15 : FVec F S1 .f32) (main_arg16 : FVec F S512x512 .f32) (main_arg17 : FVec F S512 .f32) (main_arg18 : FVec F S512x256 .f32) (main_arg19 : FVec F S256 .f32) (main_arg20 : FVec F S256x10 .f32) (main_arg21 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_arg17 main_arg18 main_arg19 main_arg20 main_arg21 main_v63 main_v67

def fn_part2 {F : FTy → Type} [FloatOps F] (main_arg9 : FVec F S512x512 .f32) (main_arg10 : FVec F S512 .f32) (main_arg11 : FVec F S512x512 .f32) (main_arg12 : FVec F S512 .f32) (main_arg13 : FVec F S512 .f32) (main_arg14 : FVec F S512 .f32) (main_arg15 : FVec F S1 .f32) (main_arg16 : FVec F S512x512 .f32) (main_arg17 : FVec F S512 .f32) (main_arg18 : FVec F S512x256 .f32) (main_arg19 : FVec F S256 .f32) (main_arg20 : FVec F S256x10 .f32) (main_arg21 : FVec F S10 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg11
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_arg15 : FVec F S1 .f32) (main_arg16 : FVec F S512x512 .f32) (main_arg17 : FVec F S512 .f32) (main_arg18 : FVec F S512x256 .f32) (main_arg19 : FVec F S256 .f32) (main_arg20 : FVec F S256x10 .f32) (main_arg21 : FVec F S10 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x3200000 32) (main_arg2 : IVec S100000 32) (main_arg3 : FVec F S128 .f32) (main_arg4 : FVec F S128 .f32) (main_arg5 : FVec F S128x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_arg15 : FVec F S1 .f32) (main_arg16 : FVec F S512x512 .f32) (main_arg17 : FVec F S512 .f32) (main_arg18 : FVec F S512x256 .f32) (main_arg19 : FVec F S256 .f32) (main_arg20 : FVec F S256x10 .f32) (main_arg21 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128 : Shape := ⟨1, ![128]⟩
abbrev S128x512 : Shape := ⟨2, ![128, 512]⟩
abbrev S512 : Shape := ⟨1, ![512]⟩
abbrev S512x512 : Shape := ⟨2, ![512, 512]⟩
abbrev S1 : Shape := ⟨1, ![1]⟩
abbrev S512x256 : Shape := ⟨2, ![512, 256]⟩
abbrev S256 : Shape := ⟨1, ![256]⟩
abbrev S256x10 : Shape := ⟨2, ![256, 10]⟩
abbrev S10 : Shape := ⟨1, ![10]⟩
abbrev S10x1x128 : Shape := ⟨3, ![10, 1, 128]⟩
abbrev S10000x128 : Shape := ⟨2, ![10000, 128]⟩
abbrev S1x1x128 : Shape := ⟨3, ![1, 1, 128]⟩
abbrev S1x128 : Shape := ⟨2, ![1, 128]⟩
abbrev S_ : Shape := ⟨0, ![]⟩
abbrev S1x512 : Shape := ⟨2, ![1, 512]⟩
abbrev S100000x512 : Shape := ⟨2, ![100000, 512]⟩
abbrev S25x1x512 : Shape := ⟨3, ![25, 1, 512]⟩
abbrev S4000x128 : Shape := ⟨2, ![4000, 128]⟩
abbrev S4000x512 : Shape := ⟨2, ![4000, 512]⟩
abbrev S1x1x512 : Shape := ⟨3, ![1, 1, 512]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S25x64x512 : Shape := ⟨3, ![25, 64, 512]⟩
abbrev S4000x64 : Shape := ⟨2, ![4000, 64]⟩
abbrev S1x64x512 : Shape := ⟨3, ![1, 64, 512]⟩
abbrev S64x512 : Shape := ⟨2, ![64, 512]⟩
abbrev S64x1 : Shape := ⟨2, ![64, 1]⟩
abbrev S1x1 : Shape := ⟨2, ![1, 1]⟩
abbrev S64x256 : Shape := ⟨2, ![64, 256]⟩
abbrev S1x256 : Shape := ⟨2, ![1, 256]⟩
abbrev S64x10 : Shape := ⟨2, ![64, 10]⟩
abbrev S1x10 : Shape := ⟨2, ![1, 10]⟩

abbrev nBuf : Space → Nat
  | .hbm => 163
  | .vmem => 52
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128, .f32⟩
  | 4 => ⟨S128, .f32⟩
  | 5 => ⟨S128x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512, .f32⟩
  | 14 => ⟨S512, .f32⟩
  | 15 => ⟨S1, .f32⟩
  | 16 => ⟨S512x512, .f32⟩
  | 17 => ⟨S512, .f32⟩
  | 18 => ⟨S512x256, .f32⟩
  | 19 => ⟨S256, .f32⟩
  | 20 => ⟨S256x10, .f32⟩
  | 21 => ⟨S10, .f32⟩
  | 22 => ⟨S10x1x128, .f32⟩
  | 23 => ⟨S10x1x128, .f32⟩
  | 24 => ⟨S_, .f32⟩
  | 25 => ⟨S1x128, .f32⟩
  | 26 => ⟨S_, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S1x128, .f32⟩
  | 41 => ⟨S128x512, .bf16⟩
  | 42 => ⟨S1x512, .f32⟩
  | 43 => ⟨S512x512, .bf16⟩
  | 44 => ⟨S1x512, .f32⟩
  | 45 => ⟨S100000x512, .bf16⟩
  | 46 => ⟨S25x1x512, .f32⟩
  | 47 => ⟨S25x1x512, .f32⟩
  | 48 => ⟨S_, .f32⟩
  | 49 => ⟨S1x512, .f32⟩
  | 50 => ⟨S_, .f32⟩
  | 51 => ⟨S1x512, .f32⟩
  | 52 => ⟨S_, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S1x512, .f32⟩
  | 65 => ⟨S512x512, .bf16⟩
  | 66 => ⟨S1x512, .f32⟩
  | 67 => ⟨S100000x512, .bf16⟩
  | 68 => ⟨S25x1x512, .f32⟩
  | 69 => ⟨S25x1x512, .f32⟩
  | 70 => ⟨S_, .f32⟩
  | 71 => ⟨S1x512, .f32⟩
  | 72 => ⟨S_, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S512x512, .bf16⟩
  | 86 => ⟨S1x512, .f32⟩
  | 87 => ⟨S100000x1, .i32⟩
  | 88 => ⟨S64, .i32⟩
  | 89 => ⟨S1x64, .i32⟩
  | 90 => ⟨S100000x64, .i32⟩
  | 91 => ⟨S100000x64, .i32⟩
  | 92 => ⟨S100000x64, .i1⟩
  | 93 => ⟨S100000x64, .bf16⟩
  | 94 => ⟨S25x1x512, .f32⟩
  | 95 => ⟨S25x1x512, .f32⟩
  | 96 => ⟨S25x64x512, .f32⟩
  | 97 => ⟨S_, .f32⟩
  | 98 => ⟨S1x512, .f32⟩
  | 99 => ⟨S_, .f32⟩
  | 100 => ⟨S1x512, .f32⟩
  | 101 => ⟨S_, .f32⟩
  | 102 => ⟨S64x512, .f32⟩
  | 103 => ⟨S_, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S_, .f32⟩
  | 115 => ⟨S100000, .f32⟩
  | 116 => ⟨S_, .f32⟩
  | 117 => ⟨S64, .f32⟩
  | 118 => ⟨S100000x1, .i32⟩
  | 119 => ⟨S64, .f32⟩
  | 120 => ⟨S64x1, .f32⟩
  | 121 => ⟨S_, .f32⟩
  | 122 => ⟨S1x512, .f32⟩
  | 123 => ⟨S1x512, .f32⟩
  | 124 => ⟨S1x512, .f32⟩
  | 125 => ⟨S1x512, .f32⟩
  | 126 => ⟨S64x512, .f32⟩
  | 127 => ⟨S64x512, .f32⟩
  | _ => ⟨S100000x128, .f32⟩

abbrev hbmTy0_1 (i : Nat) : BufTy := match i % 128 with
  | 0 => ⟨S64x512, .f32⟩
  | 1 => ⟨S64x512, .f32⟩
  | 2 => ⟨S64x512, .f32⟩
  | 3 => ⟨S64x512, .f32⟩
  | 4 => ⟨S64x512, .f32⟩
  | 5 => ⟨S64x512, .f32⟩
  | 6 => ⟨S64x512, .f32⟩
  | 7 => ⟨S64x512, .f32⟩
  | 8 => ⟨S64x512, .f32⟩
  | 9 => ⟨S1x512, .f32⟩
  | 10 => ⟨S64x512, .f32⟩
  | 11 => ⟨S64x512, .f32⟩
  | 12 => ⟨S_, .f32⟩
  | 13 => ⟨S64x512, .f32⟩
  | 14 => ⟨S64x512, .i1⟩
  | 15 => ⟨S1x1, .f32⟩
  | 16 => ⟨S64x512, .f32⟩
  | 17 => ⟨S64x512, .f32⟩
  | 18 => ⟨S64x512, .f32⟩
  | 19 => ⟨S64x256, .f32⟩
  | 20 => ⟨S1x256, .f32⟩
  | 21 => ⟨S64x256, .f32⟩
  | 22 => ⟨S64x256, .f32⟩
  | 23 => ⟨S64x256, .f32⟩
  | 24 => ⟨S64x256, .f32⟩
  | 25 => ⟨S_, .f32⟩
  | 26 => ⟨S64x256, .f32⟩
  | 27 => ⟨S64x256, .f32⟩
  | 28 => ⟨S_, .f32⟩
  | 29 => ⟨S64x256, .f32⟩
  | 30 => ⟨S64x256, .f32⟩
  | 31 => ⟨S64x10, .f32⟩
  | 32 => ⟨S1x10, .f32⟩
  | 33 => ⟨S64x10, .f32⟩
  | 34 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S4000x128, .f32⟩
  | .local _ .vmem, ⟨7, _⟩ => ⟨S4000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S4000x512, .bf16⟩
  | .local _ .vmem, ⟨17, _⟩ => ⟨S4000x512, .bf16⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S4000x512, .bf16⟩
  | .local _ .vmem, ⟨23, _⟩ => ⟨S4000x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x512, .bf16⟩
  | .local _ .vmem, ⟨29, _⟩ => ⟨S1x512, .f32⟩
  | .local _ .vmem, ⟨30, _⟩ => ⟨S4000x512, .bf16⟩
  | .local _ .vmem, ⟨31, _⟩ => ⟨S4000x512, .bf16⟩
  | .local _ .vmem, ⟨32, _⟩ => ⟨S1x1x512, .f32⟩
  | .local _ .vmem, ⟨33, _⟩ => ⟨S1x1x512, .f32⟩
  | .local _ .vmem, ⟨34, _⟩ => ⟨S1x1x512, .f32⟩
  | .local _ .vmem, ⟨35, _⟩ => ⟨S1x1x512, .f32⟩
  | .local _ .vmem, ⟨36, _⟩ => ⟨S4000x512, .bf16⟩
  | .local _ .vmem, ⟨37, _⟩ => ⟨S4000x512, .bf16⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S512x512, .bf16⟩
  | .local _ .vmem, ⟨43, _⟩ => ⟨S1x512, .f32⟩
  | .local _ .vmem, ⟨44, _⟩ => ⟨S4000x64, .bf16⟩
  | .local _ .vmem, ⟨45, _⟩ => ⟨S4000x64, .bf16⟩
  | .local _ .vmem, ⟨46, _⟩ => ⟨S1x1x512, .f32⟩
  | .local _ .vmem, ⟨47, _⟩ => ⟨S1x1x512, .f32⟩
  | .local _ .vmem, ⟨48, _⟩ => ⟨S1x1x512, .f32⟩
  | .local _ .vmem, ⟨49, _⟩ => ⟨S1x1x512, .f32⟩
  | .local _ .vmem, ⟨50, _⟩ => ⟨S1x64x512, .f32⟩
  | .local _ .vmem, ⟨51, _⟩ => ⟨S1x64x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_cst : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev main_cst_4 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_cst_6 : Ref sig .tc := ⟨.hbm, 52, rfl⟩
abbrev main_v20 : Ref sig .tc := ⟨.hbm, 53, rfl⟩
abbrev main_v21 : Ref sig .tc := ⟨.hbm, 54, rfl⟩
abbrev main_cst_7 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_8 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32_0 : Ref sig .tc := ⟨.hbm, 67, rfl⟩
abbrev main_v32_1 : Ref sig .tc := ⟨.hbm, 68, rfl⟩
abbrev main_v32_2 : Ref sig .tc := ⟨.hbm, 69, rfl⟩
abbrev main_cst_9 : Ref sig .tc := ⟨.hbm, 70, rfl⟩
abbrev main_v33 : Ref sig .tc := ⟨.hbm, 71, rfl⟩
abbrev main_cst_10 : Ref sig .tc := ⟨.hbm, 72, rfl⟩
abbrev main_v34 : Ref sig .tc := ⟨.hbm, 73, rfl⟩
abbrev main_cst_11 : Ref sig .tc := ⟨.hbm, 74, rfl⟩
abbrev main_v35 : Ref sig .tc := ⟨.hbm, 75, rfl⟩
abbrev main_v36 : Ref sig .tc := ⟨.hbm, 76, rfl⟩
abbrev main_cst_12 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_13 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52_0 : Ref sig .tc := ⟨.hbm, 94, rfl⟩
abbrev main_v52_1 : Ref sig .tc := ⟨.hbm, 95, rfl⟩
abbrev main_v52_2 : Ref sig .tc := ⟨.hbm, 96, rfl⟩
abbrev main_cst_14 : Ref sig .tc := ⟨.hbm, 97, rfl⟩
abbrev main_v53 : Ref sig .tc := ⟨.hbm, 98, rfl⟩
abbrev main_cst_15 : Ref sig .tc := ⟨.hbm, 99, rfl⟩
abbrev main_v54 : Ref sig .tc := ⟨.hbm, 100, rfl⟩
abbrev main_cst_16 : Ref sig .tc := ⟨.hbm, 101, rfl⟩
abbrev main_v55 : Ref sig .tc := ⟨.hbm, 102, rfl⟩
abbrev main_cst_17 : Ref sig .tc := ⟨.hbm, 103, rfl⟩
abbrev main_v56 : Ref sig .tc := ⟨.hbm, 104, rfl⟩
abbrev main_v57 : Ref sig .tc := ⟨.hbm, 105, rfl⟩
abbrev main_cst_18 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_19 : Ref sig .tc := ⟨.hbm, 111, rfl⟩
abbrev main_v62 : Ref sig .tc := ⟨.hbm, 112, rfl⟩
abbrev main_v63 : Ref sig .tc := ⟨.hbm, 113, rfl⟩
abbrev main_cst_20 : Ref sig .tc := ⟨.hbm, 114, rfl⟩
abbrev main_v64 : Ref sig .tc := ⟨.hbm, 115, rfl⟩
abbrev main_cst_21 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_22 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_23 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_24 : Ref sig .tc := ⟨.hbm, 153, rfl⟩
abbrev main_v99 : Ref sig .tc := ⟨.hbm, 154, rfl⟩
abbrev main_v100 : Ref sig .tc := ⟨.hbm, 155, rfl⟩
abbrev main_cst_25 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem10_1 : DmaSem sig := 19
abbrev cc1_sem11_0 : DmaSem sig := 20
abbrev cc1_sem11_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45
abbrev cc3_sem8_0 : DmaSem sig := 46
abbrev cc3_sem8_1 : DmaSem sig := 47
abbrev cc3_sem9_0 : DmaSem sig := 48
abbrev cc3_sem9_1 : DmaSem sig := 49
abbrev cc3_sem10_0 : DmaSem sig := 50
abbrev cc3_sem10_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x64x512 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S1x128_d0 : S10x1x128.ReducesTo [0] S1x128
  h_S_ : 0 < S_.numel
  bcast_S_S1x128 : S_.BroadcastsInDim S1x128 (![] : Fin 0 → Fin S1x128.rank)
  bitsLt_bf16_f32 : FTy.bits .bf16 < FTy.bits .f32
  shapeCasts_S512_S1x512 : S512.ShapeCasts S1x512
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4000x512_S4000x512_0_0 : ∀ a, (![0, 0] : Fin 2 → Nat) a + S4000x512.size a ≤ S4000x512.size a
  h_S4000x512 : 0 < S4000x512.numel
  packedbf16_S4000x512_S4000x512_0_0 : (Rect.unit (s := S4000x512) ![0, 0] S4000x512.size inb_S4000x512_S4000x512_0_0).PackedRows (EltTy.packing .bf16)
  reduces_S4000x512_S512 : S4000x512.Reduces [0] S512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  reducesTo_S25x1x512_S1x512_d0 : S25x1x512.ReducesTo [0] S1x512
  bcast_S_S1x512 : S_.BroadcastsInDim S1x512 (![] : Fin 0 → Fin S1x512.rank)
  shapeCasts_S4000x512_S4000x512 : S4000x512.ShapeCasts S4000x512
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  shapeCasts_S64x512_S1x64x512 : S64x512.ShapeCasts S1x64x512
  inb_S1x64x512_S1x64x512_0_0_0 : ∀ a, (![0, 0, 0] : Fin 3 → Nat) a + S1x64x512.size a ≤ S1x64x512.size a
  h_S1x64x512 : 0 < S1x64x512.numel
  reducesTo_S25x64x512_S64x512_d0 : S25x64x512.ReducesTo [0] S64x512
  bcast_S_S100000 : S_.BroadcastsInDim S100000 (![] : Fin 0 → Fin S100000.rank)
  bcast_S_S64 : S_.BroadcastsInDim S64 (![] : Fin 0 → Fin S64.rank)
  shapeCasts_S64_S64x1 : S64.ShapeCasts S64x1
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S512_S1x512_1 : S512.BroadcastsInDim S1x512 (![1] : Fin 1 → Fin S1x512.rank)
  bcast_S_S64x512 : S_.BroadcastsInDim S64x512 (![] : Fin 0 → Fin S64x512.rank)
  bcast_S1_S1x1_1 : S1.BroadcastsInDim S1x1 (![1] : Fin 1 → Fin S1x1.rank)
  bcast_S1x1_S64x512_0_1 : S1x1.BroadcastsInDim S64x512 (![0, 1] : Fin 2 → Fin S64x512.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S4000x128_S128x512_S4000x512_1_0_0_1_n_n_wf : DotDims.WF S4000x128 S128x512 S4000x512 [1] [0] [0] [1] [] []
  dot_S4000x512_S512x512_S4000x512_1_0_0_1_n_n_wf : DotDims.WF S4000x512 S512x512 S4000x512 [1] [0] [0] [1] [] []
  dot_S4000x64_S4000x512_S64x512_0_0_1_1_n_n_wf : DotDims.WF S4000x64 S4000x512 S64x512 [0] [0] [1] [1] [] []
  scatter_S64_S100000x1_S100000_n_0_0_1_wf : ScatterDims.WF S64 S100000x1 S100000 [] [0] [0] 1
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S10x1x128.size a
  hwx0_1 : ∀ i : grid0.Coords, EltTy.bits .f32 = 32 ∨ (Rect.block (s := S10x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S10x1x128.size a
  hwx0_2 : ∀ i : grid0.Coords, EltTy.bits .f32 = 32 ∨ (Rect.block (s := S10x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .bf16 = 32 ∨ (Rect.block (s := S128x512) S128x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .bf16 = 32 ∨ (Rect.block (s := S512x512) S512x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x512.size a ≤ S100000x512.size a
  hwx1_9 : ∀ i : grid1.Coords, EltTy.bits .bf16 = 32 ∨ (Rect.block (s := S100000x512) S4000x512.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x512.size a ≤ S25x1x512.size a
  hwx1_10 : ∀ i : grid1.Coords, EltTy.bits .f32 = 32 ∨ (Rect.block (s := S25x1x512) S1x1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x512.size a ≤ S25x1x512.size a
  hwx1_11 : ∀ i : grid1.Coords, EltTy.bits .f32 = 32 ∨ (Rect.block (s := S25x1x512) S1x1x512.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x512.size a ≤ S100000x512.size a
  hwx2_0 : ∀ i : grid2.Coords, EltTy.bits .bf16 = 32 ∨ (Rect.block (s := S100000x512) S4000x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .bf16 = 32 ∨ (Rect.block (s := S512x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x512.size a ≤ S100000x512.size a
  hwx2_7 : ∀ i : grid2.Coords, EltTy.bits .bf16 = 32 ∨ (Rect.block (s := S100000x512) S4000x512.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x512.size a ≤ S25x1x512.size a
  hwx2_8 : ∀ i : grid2.Coords, EltTy.bits .f32 = 32 ∨ (Rect.block (s := S25x1x512) S1x1x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x512.size a ≤ S25x1x512.size a
  hwx2_9 : ∀ i : grid2.Coords, EltTy.bits .f32 = 32 ∨ (Rect.block (s := S25x1x512) S1x1x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x512.size a ≤ S100000x512.size a
  hwx3_0 : ∀ i : grid3.Coords, EltTy.bits .bf16 = 32 ∨ (Rect.block (s := S100000x512) S4000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .bf16 = 32 ∨ (Rect.block (s := S512x512) S512x512.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S100000x64.size a
  hwx3_7 : ∀ i : grid3.Coords, EltTy.bits .bf16 = 32 ∨ (Rect.block (s := S100000x64) S4000x64.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x512.size a ≤ S25x1x512.size a
  hwx3_8 : ∀ i : grid3.Coords, EltTy.bits .f32 = 32 ∨ (Rect.block (s := S25x1x512) S1x1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1x512.size a ≤ S25x1x512.size a
  hwx3_9 : ∀ i : grid3.Coords, EltTy.bits .f32 = 32 ∨ (Rect.block (s := S25x1x512) S1x1x512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x64x512.size a ≤ S25x64x512.size a
  hwx3_10 : ∀ i : grid3.Coords, EltTy.bits .f32 = 32 ∨ (Rect.block (s := S25x64x512) S1x64x512.size (cc3_transform_10 i) (hinb3_10 i)).WholeWords (EltTy.packing .f32)

variable [Facts₀]

def dot_S4000x128_S128x512_S4000x512_1_0_0_1_n_n : DotDims S4000x128 S128x512 S4000x512 where
  lhsContracting := [1]
  rhsContracting := [0]
  lhsNonContracting := [0]
  rhsNonContracting := [1]
  lhsBatch := []
  rhsBatch := []
  wf := dot_S4000x128_S128x512_S4000x512_1_0_0_1_n_n_wf
def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def dot_S4000x64_S4000x512_S64x512_0_0_1_1_n_n : DotDims S4000x64 S4000x512 S64x512 where
  lhsContracting := [0]
  rhsContracting := [0]
  lhsNonContracting := [1]
  rhsNonContracting := [1]
  lhsBatch := []
  rhsBatch := []
  wf := dot_S4000x64_S4000x512_S64x512_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17_0) S4000x512.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v17_1) S1x1x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v17_2) S1x1x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v17_0) S4000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32_0) S4000x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v32_1) S1x1x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v32_2) S1x1x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v32_0) S4000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S4000x64.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v52_0) S1x1x512.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v52_1) S1x1x512.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v52_2) S1x64x512.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128 : Shape := ⟨1, ![128]⟩
abbrev S128x512 : Shape := ⟨2, ![128, 512]⟩
abbrev S512 : Shape := ⟨1, ![512]⟩
abbrev S512x512 : Shape := ⟨2, ![512, 512]⟩
abbrev S1 : Shape := ⟨1, ![1]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩
abbrev S1x128 : Shape := ⟨2, ![1, 128]⟩
abbrev S100000x512 : Shape := ⟨2, ![100000, 512]⟩
abbrev S1x512 : Shape := ⟨2, ![1, 512]⟩
abbrev S64x512 : Shape := ⟨2, ![64, 512]⟩
abbrev S100000x1 : Shape := ⟨2, ![100000, 1]⟩
abbrev S1x1 : Shape := ⟨2, ![1, 1]⟩
abbrev S64x256 : Shape := ⟨2, ![64, 256]⟩
abbrev S1x256 : Shape := ⟨2, ![1, 256]⟩
abbrev S64x10 : Shape := ⟨2, ![64, 10]⟩
abbrev S1x10 : Shape := ⟨2, ![1, 10]⟩

abbrev nBuf : Space → Nat
  | .hbm => 257
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128, .f32⟩
  | 4 => ⟨S128, .f32⟩
  | 5 => ⟨S128x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512, .f32⟩
  | 14 => ⟨S512, .f32⟩
  | 15 => ⟨S1, .f32⟩
  | 16 => ⟨S512x512, .f32⟩
  | 17 => ⟨S512, .f32⟩
  | 18 => ⟨S512x256, .f32⟩
  | 19 => ⟨S256, .f32⟩
  | 20 => ⟨S256x10, .f32⟩
  | 21 => ⟨S10, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S100000x512, .f32⟩
  | 67 => ⟨S1x512, .f32⟩
  | 68 => ⟨S100000x512, .f32⟩
  | 69 => ⟨S100000x512, .f32⟩
  | 70 => ⟨S_, .f32⟩
  | 71 => ⟨S100000x512, .f32⟩
  | 72 => ⟨S100000x512, .f32⟩
  | 73 => ⟨S100000x512, .f32⟩
  | 74 => ⟨S1x512, .f32⟩
  | 75 => ⟨S100000x512, .f32⟩
  | 76 => ⟨S100000x512, .f32⟩
  | 77 => ⟨S_, .f32⟩
  | 78 => ⟨S100000x512, .f32⟩
  | 79 => ⟨S100000x512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S100000x512, .f32⟩
  | 93 => ⟨S100000x512, .f32⟩
  | 94 => ⟨S100000x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S100000x512, .f32⟩
  | 110 => ⟨S100000x512, .f32⟩
  | 111 => ⟨S_, .f32⟩
  | 112 => ⟨S512, .f32⟩
  | 113 => ⟨S512, .f32⟩
  | 114 => ⟨S512, .f32⟩
  | 115 => ⟨S1x512, .f32⟩
  | 116 => ⟨S100000x512, .f32⟩
  | 117 => ⟨S100000x512, .f32⟩
  | 118 => ⟨S1x512, .f32⟩
  | 119 => ⟨S100000x512, .f32⟩
  | 120 => ⟨S100000x512, .f32⟩
  | 121 => ⟨S1x512, .f32⟩
  | 122 => ⟨S100000x512, .f32⟩
  | 123 => ⟨S100000x512, .f32⟩
  | 124 => ⟨S100000x512, .f32⟩
  | 125 => ⟨S1x512, .f32⟩
  | 126 => ⟨S100000x512, .f32⟩
  | 127 => ⟨S100000x512, .f32⟩
  | _ => ⟨S100000x128, .f32⟩

abbrev hbmTy0_1 (i : Nat) : BufTy := match i % 128 with
  | 0 => ⟨S_, .f32⟩
  | 1 => ⟨S100000x512, .f32⟩
  | 2 => ⟨S100000x512, .f32⟩
  | 3 => ⟨S_, .f32⟩
  | 4 => ⟨S512, .f32⟩
  | 5 => ⟨S_, .f32⟩
  | 6 => ⟨S512, .f32⟩
  | 7 => ⟨S512, .f32⟩
  | 8 => ⟨S_, .i32⟩
  | 9 => ⟨S_, .f32⟩
  | 10 => ⟨S512, .f32⟩
  | 11 => ⟨S1x512, .f32⟩
  | 12 => ⟨S_, .f32⟩
  | 13 => ⟨S1x512, .f32⟩
  | 14 => ⟨S1x512, .f32⟩
  | 15 => ⟨S100000x512, .f32⟩
  | 16 => ⟨S100000x512, .f32⟩
  | 17 => ⟨S100000x512, .f32⟩
  | 18 => ⟨S_, .f32⟩
  | 19 => ⟨S_, .f32⟩
  | 20 => ⟨S_, .f32⟩
  | 21 => ⟨S_, .f32⟩
  | 22 => ⟨S512, .f32⟩
  | 23 => ⟨S512, .f32⟩
  | 24 => ⟨S512, .f32⟩
  | 25 => ⟨S_, .f32⟩
  | 26 => ⟨S_, .i1⟩
  | 27 => ⟨S_, .f32⟩
  | 28 => ⟨S_, .f32⟩
  | 29 => ⟨S512, .f32⟩
  | 30 => ⟨S512, .f32⟩
  | 31 => ⟨S1x512, .f32⟩
  | 32 => ⟨S100000x512, .f32⟩
  | 33 => ⟨S100000x512, .f32⟩
  | 34 => ⟨S_, .f32⟩
  | 35 => ⟨S512, .f32⟩
  | 36 => ⟨S512, .f32⟩
  | 37 => ⟨S512, .f32⟩
  | 38 => ⟨S1x512, .f32⟩
  | 39 => ⟨S100000x512, .f32⟩
  | 40 => ⟨S100000x512, .f32⟩
  | 41 => ⟨S1x512, .f32⟩
  | 42 => ⟨S100000x512, .f32⟩
  | 43 => ⟨S100000x512, .f32⟩
  | 44 => ⟨S1x512, .f32⟩
  | 45 => ⟨S100000x512, .f32⟩
  | 46 => ⟨S100000x512, .f32⟩
  | 47 => ⟨S100000x512, .f32⟩
  | 48 => ⟨S1x512, .f32⟩
  | 49 => ⟨S100000x512, .f32⟩
  | 50 => ⟨S100000x512, .f32⟩
  | 51 => ⟨S_, .f32⟩
  | 52 => ⟨S100000x512, .f32⟩
  | 53 => ⟨S100000x512, .f32⟩
  | 54 => ⟨S_, .f32⟩
  | 55 => ⟨S512, .f32⟩
  | 56 => ⟨S_, .f32⟩
  | 57 => ⟨S512, .f32⟩
  | 58 => ⟨S512, .f32⟩
  | 59 => ⟨S_, .i32⟩
  | 60 => ⟨S_, .f32⟩
  | 61 => ⟨S512, .f32⟩
  | 62 => ⟨S1x512, .f32⟩
  | 63 => ⟨S_, .f32⟩
  | 64 => ⟨S1x512, .f32⟩
  | 65 => ⟨S1x512, .f32⟩
  | 66 => ⟨S100000x512, .f32⟩
  | 67 => ⟨S100000x512, .f32⟩
  | 68 => ⟨S100000x512, .f32⟩
  | 69 => ⟨S_, .f32⟩
  | 70 => ⟨S_, .f32⟩
  | 71 => ⟨S_, .f32⟩
  | 72 => ⟨S_, .f32⟩
  | 73 => ⟨S512, .f32⟩
  | 74 => ⟨S512, .f32⟩
  | 75 => ⟨S512, .f32⟩
  | 76 => ⟨S_, .f32⟩
  | 77 => ⟨S_, .i1⟩
  | 78 => ⟨S_, .f32⟩
  | 79 => ⟨S_, .f32⟩
  | 80 => ⟨S512, .f32⟩
  | 81 => ⟨S512, .f32⟩
  | 82 => ⟨S1x512, .f32⟩
  | 83 => ⟨S100000x512, .f32⟩
  | 84 => ⟨S100000x512, .f32⟩
  | 85 => ⟨S_, .f32⟩
  | 86 => ⟨S512, .f32⟩
  | 87 => ⟨S512, .f32⟩
  | 88 => ⟨S512, .f32⟩
  | 89 => ⟨S1x512, .f32⟩
  | 90 => ⟨S100000x512, .f32⟩
  | 91 => ⟨S100000x512, .f32⟩
  | 92 => ⟨S1x512, .f32⟩
  | 93 => ⟨S100000x512, .f32⟩
  | 94 => ⟨S100000x512, .f32⟩
  | 95 => ⟨S1x512, .f32⟩
  | 96 => ⟨S100000x512, .f32⟩
  | 97 => ⟨S100000x512, .f32⟩
  | 98 => ⟨S_, .f32⟩
  | 99 => ⟨S64x512, .f32⟩
  | 100 => ⟨S100000x1, .i32⟩
  | 101 => ⟨S64x512, .f32⟩
  | 102 => ⟨S64x512, .f32⟩
  | 103 => ⟨S1x512, .f32⟩
  | 104 => ⟨S64x512, .f32⟩
  | 105 => ⟨S64x512, .f32⟩
  | 106 => ⟨S_, .f32⟩
  | 107 => ⟨S64x512, .f32⟩
  | 108 => ⟨S64x512, .i1⟩
  | 109 => ⟨S1x1, .f32⟩
  | 110 => ⟨S64x512, .f32⟩
  | 111 => ⟨S64x512, .f32⟩
  | 112 => ⟨S64x512, .f32⟩
  | 113 => ⟨S64x256, .f32⟩
  | 114 => ⟨S1x256, .f32⟩
  | 115 => ⟨S64x256, .f32⟩
  | 116 => ⟨S64x256, .f32⟩
  | 117 => ⟨S64x256, .f32⟩
  | 118 => ⟨S64x256, .f32⟩
  | 119 => ⟨S_, .f32⟩
  | 120 => ⟨S64x256, .f32⟩
  | 121 => ⟨S64x256, .f32⟩
  | 122 => ⟨S_, .f32⟩
  | 123 => ⟨S64x256, .f32⟩
  | 124 => ⟨S64x256, .f32⟩
  | 125 => ⟨S64x10, .f32⟩
  | 126 => ⟨S1x10, .f32⟩
  | 127 => ⟨S64x10, .f32⟩
  | _ => ⟨S100000x128, .f32⟩

abbrev hbmTy0_2 (i : Nat) : BufTy := match i % 128 with
  | 0 => ⟨S64x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_call1_cst : Ref sig .tc := ⟨.hbm, 70, rfl⟩
abbrev main_call1_v0 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_call2_cst : Ref sig .tc := ⟨.hbm, 77, rfl⟩
abbrev main_call2_v0 : Ref sig .tc := ⟨.hbm, 78, rfl⟩
abbrev main_v28 : Ref sig .tc := ⟨.hbm, 79, rfl⟩
abbrev main_cst_2 : Ref sig .tc := ⟨.hbm, 80, rfl⟩
abbrev main_v29 : Ref sig .tc := ⟨.hbm, 81, rfl⟩
abbrev main_cst_3 : Ref sig .tc := ⟨.hbm, 82, rfl⟩
abbrev main_v30 : Ref sig .tc := ⟨.hbm, 83, rfl⟩
abbrev main_v31 : Ref sig .tc := ⟨.hbm, 84, rfl⟩
abbrev main_c_4 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_cst_2 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_cst_3 : Ref sig .tc := ⟨.hbm, 102, rfl⟩
abbrev main_call3_v12 : Ref sig .tc := ⟨.hbm, 103, rfl⟩
abbrev main_call3_cst_4 : Ref sig .tc := ⟨.hbm, 104, rfl⟩
abbrev main_call3_call0_v0 : Ref sig .tc := ⟨.hbm, 105, rfl⟩
abbrev main_call3_call0_v1 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_cst_5 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_call4_cst : Ref sig .tc := ⟨.hbm, 128, rfl⟩
abbrev main_call4_v0 : Ref sig .tc := ⟨.hbm, 129, rfl⟩
abbrev main_v52 : Ref sig .tc := ⟨.hbm, 130, rfl⟩
abbrev main_cst_6 : Ref sig .tc := ⟨.hbm, 131, rfl⟩
abbrev main_v53 : Ref sig .tc := ⟨.hbm, 132, rfl⟩
abbrev main_cst_7 : Ref sig .tc := ⟨.hbm, 133, rfl⟩
abbrev main_v54 : Ref sig .tc := ⟨.hbm, 134, rfl⟩
abbrev main_v55 : Ref sig .tc := ⟨.hbm, 135, rfl⟩
abbrev main_c_8 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_cst_3 : Ref sig .tc := ⟨.hbm, 153, rfl⟩
abbrev main_call5_v12 : Ref sig .tc := ⟨.hbm, 154, rfl⟩
abbrev main_call5_cst_4 : Ref sig .tc := ⟨.hbm, 155, rfl⟩
abbrev main_call5_call0_v0 : Ref sig .tc := ⟨.hbm, 156, rfl⟩
abbrev main_call5_call0_v1 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_cst_9 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_call6_cst : Ref sig .tc := ⟨.hbm, 179, rfl⟩
abbrev main_call6_v0 : Ref sig .tc := ⟨.hbm, 180, rfl⟩
abbrev main_v76 : Ref sig .tc := ⟨.hbm, 181, rfl⟩
abbrev main_cst_10 : Ref sig .tc := ⟨.hbm, 182, rfl⟩
abbrev main_v77 : Ref sig .tc := ⟨.hbm, 183, rfl⟩
abbrev main_cst_11 : Ref sig .tc := ⟨.hbm, 184, rfl⟩
abbrev main_v78 : Ref sig .tc := ⟨.hbm, 185, rfl⟩
abbrev main_v79 : Ref sig .tc := ⟨.hbm, 186, rfl⟩
abbrev main_c_12 : Ref sig .tc := ⟨.hbm, 187, rfl⟩
abbrev main_call7_cst : Ref sig .tc := ⟨.hbm, 188, rfl⟩
abbrev main_call7_v0 : Ref sig .tc := ⟨.hbm, 189, rfl⟩
abbrev main_call7_v1 : Ref sig .tc := ⟨.hbm, 190, rfl⟩
abbrev main_call7_cst_0 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_v6 : Ref sig .tc := ⟨.hbm, 196, rfl⟩
abbrev main_call7_v7 : Ref sig .tc := ⟨.hbm, 197, rfl⟩
abbrev main_call7_cst_1 : Ref sig .tc := ⟨.hbm, 198, rfl⟩
abbrev main_call7_v8 : Ref sig .tc := ⟨.hbm, 199, rfl⟩
abbrev main_call7_cst_2 : Ref sig .tc := ⟨.hbm, 200, rfl⟩
abbrev main_call7_v9 : Ref sig .tc := ⟨.hbm, 201, rfl⟩
abbrev main_call7_v10 : Ref sig .tc := ⟨.hbm, 202, rfl⟩
abbrev main_call7_v11 : Ref sig .tc := ⟨.hbm, 203, rfl⟩
abbrev main_call7_cst_3 : Ref sig .tc := ⟨.hbm, 204, rfl⟩
abbrev main_call7_v12 : Ref sig .tc := ⟨.hbm, 205, rfl⟩
abbrev main_call7_cst_4 : Ref sig .tc := ⟨.hbm, 206, rfl⟩
abbrev main_call7_call0_v0 : Ref sig .tc := ⟨.hbm, 207, rfl⟩
abbrev main_call7_call0_v1 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_cst_13 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_cst_14 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_cst_15 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_cst_16 : Ref sig .tc := ⟨.hbm, 247, rfl⟩
abbrev main_v115 : Ref sig .tc := ⟨.hbm, 248, rfl⟩
abbrev main_v116 : Ref sig .tc := ⟨.hbm, 249, rfl⟩
abbrev main_cst_17 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  reducesTo_S100000x512_S512_d0 : S100000x512.ReducesTo [0] S512
  bcast_S_S512 : S_.BroadcastsInDim S512 (![] : Fin 0 → Fin S512.rank)
  bcast_S_S1x512 : S_.BroadcastsInDim S1x512 (![] : Fin 0 → Fin S1x512.rank)
  bcast_S_S64x512 : S_.BroadcastsInDim S64x512 (![] : Fin 0 → Fin S64x512.rank)
  bcast_S100000_S100000x1_0 : S100000.BroadcastsInDim S100000x1 (![0] : Fin 1 → Fin S100000x1.rank)
  bcast_S1x512_S64x512_0_1 : S1x512.BroadcastsInDim S64x512 (![0, 1] : Fin 2 → Fin S64x512.rank)
  bcast_S1_S1x1_1 : S1.BroadcastsInDim S1x1 (![1] : Fin 1 → Fin S1x1.rank)
  bcast_S1x1_S64x512_0_1 : S1x1.BroadcastsInDim S64x512 (![0, 1] : Fin 2 → Fin S64x512.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x512_S100000x512_1_0_0_1_n_n_wf : DotDims.WF S100000x128 S128x512 S100000x512 [1] [0] [0] [1] [] []
  dot_S100000x512_S512x512_S100000x512_1_0_0_1_n_n_wf : DotDims.WF S100000x512 S512x512 S100000x512 [1] [0] [0] [1] [] []
  scatter_S64x512_S100000x1_S100000x512_1_0_0_1_wf : ScatterDims.WF S64x512 S100000x1 S100000x512 [1] [0] [0] 1
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []
  dot_S64x256_S256x10_S64x10_1_0_0_1_n_n_wf : DotDims.WF S64x256 S256x10 S64x10 [1] [0] [0] [1] [] []

variable [Facts₀]

def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Consts.lean ====
/-
  The float words both programs spell, as the extended reals they denote: zero, one, the row count 100000, and
  BatchNorm's epsilon, the single-precision number nearest 1e-5, which is the positive rational 2748779 / 2^38.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_rows : Ideal.ofBits .f32 0x47C35000#32 = ((100000 : ℝ) : EReal) := by
  simp [Ideal.ofBits, Ideal.ieee, -EReal.coe_mul]; norm_num

theorem ofBits_eps : Ideal.ofBits .f32 0x3727C5AC#32 = ((2748779 / 274877906944 : ℝ) : EReal) := by
  simp [Ideal.ofBits, Ideal.ieee, -EReal.coe_mul]; norm_num

end Cert.Consts

end
-- ==== Proof.Spec.lean ====
/-
  The mathematics both programs compute, over the extended reals, with no program in sight.

  A matrix is a function of a row and a column. BatchNorm over the rows: each column's mean is its sum divided by the
  row count; one program takes the variance as the mean of squares minus the squared mean, clamped at zero, the other
  as the mean of the squared deviations; the normalised entry is (h - mean) * rsqrt(var + eps) * gamma + beta. A layer
  is relu(h @ w + bias). The pooled value sums, per segment, the rows whose segment id is that segment.
-/
import Idealize.ShloMosaic.PureOps.Ideal
import Idealize.ShloMosaic.PureOps.Ideal.Laws
import Idealize.ShloMosaic.Lib.ValueIdx
import proofs.«412217_j43164421324860_3_alg».proof.Proof.Consts

noncomputable section

open scoped BigOperators

namespace Cert.Spec

open Idealize.ShloMosaic Idealize.ShloMosaic.ValueIdx

abbrev Mat (n a : ℕ) := Fin n → Fin a → EReal
abbrev Row (a : ℕ) := Fin a → EReal

/-- BatchNorm's epsilon, the single-precision word both programs carry. -/
def eps : EReal := Ideal.ofBits .f32 0x3727C5AC#32
/-- The row count 100000 as the single-precision word both programs divide by. -/
def rows : EReal := Ideal.ofBits .f32 0x47C35000#32

/-! ## Reading an array of a literal shape as a matrix or a row -/

def mat2 {n a : ℕ} (f : (⟨2, ![n, a]⟩ : Shape).Idx → EReal) : Mat n a := fun i d => f (ix2 i d)
def row2 {a : ℕ} (f : (⟨2, ![1, a]⟩ : Shape).Idx → EReal) : Row a := fun d => f (ix2 0 d)
def row1 {a : ℕ} (f : (⟨1, ![a]⟩ : Shape).Idx → EReal) : Row a := fun d => f (ix1 d)

section Stages

variable {n a b G : ℕ}

def colSum (h : Mat n a) : Row a := fun d => ∑ i, h i d
def colSumSq (h : Mat n a) : Row a := fun d => ∑ i, h i d * h i d
def mean (h : Mat n a) : Row a := fun d => Ideal.div (colSum h d) rows
/-- The variance as mean of squares minus squared mean, clamped at zero. -/
def varK (h : Mat n a) : Row a := fun d => max (Ideal.div (colSumSq h d) rows - mean h d * mean h d) 0
/-- The variance as the mean of the squared deviations from the mean. -/
def varR (h : Mat n a) : Row a := fun d => Ideal.div (∑ i, (h i d - mean h d) * (h i d - mean h d)) rows
def bn (h : Mat n a) (mu va gam bet : Row a) : Mat n a :=
  fun i d => (h i d - mu d) * Ideal.rsqrt (va d + eps) * gam d + bet d
def lin (h : Mat n a) (w : Mat a b) (bias : Row b) : Mat n b :=
  fun i d => max ((∑ k, h i k * w k d) + bias d) 0

/-- The rows of `h` whose segment id is `g`, summed column by column. -/
def segSum (seg : Fin n → ℤ) (h : Mat n a) : Mat G a :=
  fun g d => ∑ i, if seg i = (g.val : ℤ) then h i d else 0
/-- How many rows carry segment id `g`. -/
def segCnt (seg : Fin n → ℤ) : Fin G → EReal :=
  fun g => ∑ i, if seg i = (g.val : ℤ) then (1 : EReal) else 0

/-- BatchNorm's affine map carried through the segment sum: scale * (sum - count * mean) + count * beta. -/
def pooledK (seg : Fin n → ℤ) (h : Mat n a) (gam bet : Row a) : Mat G a := fun g d =>
  (segSum seg h g d - segCnt seg g * mean h d) * (Ideal.rsqrt (varK h d + eps) * gam d) + segCnt seg g * bet d
/-- The segment sum of the normalised rows. -/
def pooledR (seg : Fin n → ℤ) (h : Mat n a) (gam bet : Row a) : Mat G a :=
  segSum seg (bn h (mean h) (varR h) gam bet)

end Stages

/-! ## The two networks up to the pooled value -/

/-- The learned parameters up to the pooling, as matrices and rows. -/
structure Params where
  g1 : Row 128
  b1 : Row 128
  w0 : Mat 128 512
  b0 : Row 512
  w1 : Mat 512 512
  bb1 : Row 512
  w2 : Mat 512 512
  bb2 : Row 512
  w3 : Mat 512 512
  bb3 : Row 512
  g3 : Row 512
  b3 : Row 512

/-- Every parameter is a real number. -/
def Params.Real (p : Params) : Prop :=
  (∀ d, ∃ r : ℝ, p.g1 d = r) ∧ (∀ d, ∃ r : ℝ, p.b1 d = r) ∧ (∀ k d, ∃ r : ℝ, p.w0 k d = r) ∧ (∀ d, ∃ r : ℝ, p.b0 d = r)
  ∧ (∀ k d, ∃ r : ℝ, p.w1 k d = r) ∧ (∀ d, ∃ r : ℝ, p.bb1 d = r) ∧ (∀ k d, ∃ r : ℝ, p.w2 k d = r) ∧ (∀ d, ∃ r : ℝ, p.bb2 d = r)
  ∧ (∀ k d, ∃ r : ℝ, p.w3 k d = r) ∧ (∀ d, ∃ r : ℝ, p.bb3 d = r) ∧ (∀ d, ∃ r : ℝ, p.g3 d = r) ∧ (∀ d, ∃ r : ℝ, p.b3 d = r)

section Net
variable {n : ℕ} (x : Mat n 128) (p : Params)

/-- One program's hidden layers: every variance is mean of squares minus squared mean. -/
def h1K : Mat n 512 := lin (lin (bn x (mean x) (varK x) p.g1 p.b1) p.w0 p.b0) p.w1 p.bb1
def h2K : Mat n 512 := lin (bn (h1K x p) (mean (h1K x p)) (varK (h1K x p)) p.g3 p.b3) p.w2 p.bb2
def h3K : Mat n 512 := lin (bn (h2K x p) (mean (h2K x p)) (varK (h2K x p)) p.g3 p.b3) p.w3 p.bb3
/-- The other program's hidden layers: every variance is the mean squared deviation. -/
def h1R : Mat n 512 := lin (lin (bn x (mean x) (varR x) p.g1 p.b1) p.w0 p.b0) p.w1 p.bb1
def h2R : Mat n 512 := lin (bn (h1R x p) (mean (h1R x p)) (varR (h1R x p)) p.g3 p.b3) p.w2 p.bb2
def h3R : Mat n 512 := lin (bn (h2R x p) (mean (h2R x p)) (varR (h2R x p)) p.g3 p.b3) p.w3 p.bb3

def netK (seg : Fin n → ℤ) : Mat 64 512 := pooledK seg (h3K x p) p.g3 p.b3
def netR (seg : Fin n → ℤ) : Mat 64 512 := pooledR seg (h3R x p) p.g3 p.b3
end Net

/-! ## The two constants as reals -/

theorem rows_eq : rows = ((100000 : ℝ) : EReal) := Cert.Consts.ofBits_rows
theorem eps_eq : eps = ((2748779 / 274877906944 : ℝ) : EReal) := Cert.Consts.ofBits_eps

/-- Every entry of a matrix is a real number. -/
def Mat.Real {n a : ℕ} (h : Mat n a) : Prop := ∀ i d, ∃ r : ℝ, h i d = r
/-- Every entry of a row is a real number. -/
def Row.Real {a : ℕ} (v : Row a) : Prop := ∀ d, ∃ r : ℝ, v d = r

end Cert.Spec

end
-- ==== Proof.KAcc.lean ====
/-
  Reading the kernel program's buffers as the matrices and rows of the specification: the input, the segment ids, and
  the parameters, out of a valuation of the TensorCore's buffers; and a [T, 1, a] array of per-block partial results
  as T rows.
-/
import proofs.«412217_j43164421324860_3_alg».proof.KernelIdeal
import proofs.«412217_j43164421324860_3_alg».proof.Proof.Spec

noncomputable section

namespace Cert.KernelIdeal.Acc

open Cert.KernelIdeal Cert.Spec Idealize.ShloMosaic Idealize.ShloMosaic.ValueIdx

/-- The TensorCore's buffer contents at a boundary of @main, at the exact instance. -/
abbrev Val := Valuation τ sig (Elt Ideal)

/-- A [T, 1, a] array of per-block rows, block by block. -/
def part3 {T a : ℕ} (f : (⟨3, ![T, 1, a]⟩ : Shape).Idx → EReal) : Fin T → Row a := fun t d => f (ix3 t 0 d)
/-- A [T, G, a] array of per-block matrices, block by block. -/
def part3m {T G a : ℕ} (f : (⟨3, ![T, G, a]⟩ : Shape).Idx → EReal) : Fin T → Mat G a := fun t g d => f (ix3 t g d)

def xOf (W : Val) : Mat 100000 128 := mat2 (n := 100000) (a := 128) (W (Proc.devRef .tc main_arg0))
def segOf (W : Val) : Fin 100000 → ℤ := fun i => ((W (Proc.devRef .tc main_arg2) : S100000.Idx → BitVec 32) (ix1 i)).toInt

def paramsOf (W : Val) : Params where
  g1 := row1 (a := 128) (W (Proc.devRef .tc main_arg3))
  b1 := row1 (a := 128) (W (Proc.devRef .tc main_arg4))
  w0 := mat2 (n := 128) (a := 512) (W (Proc.devRef .tc main_arg5))
  b0 := row1 (a := 512) (W (Proc.devRef .tc main_arg6))
  w1 := mat2 (n := 512) (a := 512) (W (Proc.devRef .tc main_arg7))
  bb1 := row1 (a := 512) (W (Proc.devRef .tc main_arg8))
  w2 := mat2 (n := 512) (a := 512) (W (Proc.devRef .tc main_arg9))
  bb2 := row1 (a := 512) (W (Proc.devRef .tc main_arg10))
  w3 := mat2 (n := 512) (a := 512) (W (Proc.devRef .tc main_arg11))
  bb3 := row1 (a := 512) (W (Proc.devRef .tc main_arg12))
  g3 := row1 (a := 512) (W (Proc.devRef .tc main_arg13))
  b3 := row1 (a := 512) (W (Proc.devRef .tc main_arg14))

/-- The program's argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

end Cert.KernelIdeal.Acc

end
-- ==== Proof.Region0.lean ====
/-
  Region 0: per block of 10000 rows, the column sums of x and of its squares.

  The body loads one [10000,128] block of x, sums it over its rows (and the same of its entrywise square), and stores
  each [128] row of sums, cast to [1,1,128], as the whole block of an output. Point t of the ten reads row block t of x
  and writes block (t, 0, 0) of each [10,1,128] output; the ten blocks tile the output, so entry (t, 0, d) of the first
  output is the sum of column d of x over rows 10000 t … 10000 t + 9999, and of the second the sum of their squares.
-/
import proofs.«412217_j43164421324860_3_alg».proof.Proof.Gen.KernelIdeal.Frame
import proofs.«412217_j43164421324860_3_alg».proof.Proof.KAcc
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.Acc Cert.Spec
open Idealize.ShloMosaic Idealize.ShloMosaic.TcCoe Idealize.ShloMosaic.ValueIdx Idealize.SL.Sem

/-! ## The body's two payloads at an index -/

/-- Summing a [10000,128] block over its rows: the reduced index `d` with row `r` put back is `(r, d)`. -/
theorem lift_row (h : S10000x128.Reduces [0] S128) (d : Fin 128) (r : Fin (S10000x128.size 0)) :
    h.lift (ix1 d) r = ix2 (⟨r.val, r.isLt⟩ : Fin 10000) d := by
  funext a; apply Fin.ext
  fin_cases a <;> rfl

/-- The sum over axis 0 of a [10000,128] block, read at column `d`, is the sum of that column over the 10000 rows. -/
theorem rowsum_apply (x : FVec Ideal S10000x128 .f32) (h : S10000x128.Reduces [0] S128) (hφ : FKind.Formats FTy.f32)
    (hacc : (0x00000000#32 : BitVec 32) = FKind.add.neutral .f32 hφ) (d : Fin 128) :
    multiReduction (F := Ideal) .add [0] S128 x 0x00000000#32 h hφ hacc (ix1 d) = ∑ r : Fin 10000, x (ix2 r d) := by
  refine (Ideal.multiReduction_add_single x 0x00000000#32 h hφ hacc (ix1 d)).trans ?_
  show ∑ r : Fin 10000, x (h.lift (ix1 d) r) = _
  exact Finset.sum_congr rfl fun r _ => congrArg x (lift_row h d r)

/-- A [128] row cast to [1,128] and then to [1,1,128], read at `(0, 0, d)`, is the row at `d`. -/
theorem cast3_apply (v : S128.Idx → EReal) (h1 : S128.ShapeCasts S1x128) (h2 : S1x128.ShapeCasts S1x1x128) (d : Fin 128) :
    shapeCast S1x1x128 (shapeCast S1x128 v h1) h2 (ix3 (0 : Fin 1) (0 : Fin 1) d) = v (ix1 d) := by
  refine (shapeCast_addUnit_apply ![1, 128] _ h2 (ix3 (0 : Fin 1) (0 : Fin 1) d)).trans ?_
  refine (shapeCast_addUnit_apply ![128] v h1 _).trans ?_
  refine congrArg v (funext fun a => ?_)
  match a with
  | ⟨0, _⟩ => rfl

/-- The first payload at column `d`: the sum of the block's column `d` over its 10000 rows. -/
theorem pay1_apply (x0 : Vec Ideal S10000x128 .f32) (d : Fin 128) :
    k0_pay1 (F := Ideal) x0 (ix3 (0 : Fin 1) (0 : Fin 1) d) = ∑ r : Fin 10000, x0 (ix2 r d) := by
  unfold k0_pay1
  refine (cast3_apply _ shapeCasts_S128_S1x128 shapeCasts_S1x128_S1x1x128 d).trans ?_
  exact rowsum_apply x0 reduces_S10000x128_S128 (.inl rfl) rfl d

/-- The second payload at column `d`: the sum of the squares of the block's column `d` over its 10000 rows. -/
theorem pay2_apply (x0 : Vec Ideal S10000x128 .f32) (d : Fin 128) :
    k0_pay2 (F := Ideal) x0 (ix3 (0 : Fin 1) (0 : Fin 1) d) = ∑ r : Fin 10000, x0 (ix2 r d) * x0 (ix2 r d) := by
  unfold k0_pay2
  refine (cast3_apply _ shapeCasts_S128_S1x128 shapeCasts_S1x128_S1x1x128 d).trans ?_
  refine (rowsum_apply (mulf x0 x0) reduces_S10000x128_S128 (.inl rfl) rfl d).trans ?_
  rfl

-- the TensorCore's buffer contents when the region is entered: a parameter
variable (V : (c : Dev nD) → (b : Ref sig .tc) → Buf (Elt Ideal) ((c : Thread nD τ).loc b)) (c : Dev nD)

/-! ## From the blocks to the arrays -/

theorem zero2 : (![0, 0] : Fin 2 → Nat) = fun _ => 0 := funext fun a => by fin_cases a <;> rfl
theorem zero3 : (![0, 0, 0] : Fin 3 → Nat) = fun _ => 0 := funext fun a => by fin_cases a <;> rfl

/-- A [100000,128] array summed column by column over each block of 10000 rows, after `f` entry by entry, as one
    [10,1,128] array: entry `(t, 0, d)` sums `f` of column `d` over rows `10000 t … 10000 t + 9999`. -/
def blockSums (f : EReal → EReal) (x : S100000x128.Idx → EReal) : S10x1x128.Idx → EReal := fun i =>
  ∑ r : Fin 10000, f (x (ix2 (⟨(i 0).val * 10000 + r.val, by
      have h : (i 0).val < 10 := (i 0).isLt
      have := r.isLt
      omega⟩ : Fin 100000) (⟨(i 2).val, (i 2).isLt⟩ : Fin 128)))

/-- The printed index maps, decided over the grid: point `t` reads row block `t` of x and writes block `(t, 0, 0)` of
    each output. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Row `r`, column `d` of the input block at point `t` is row `10000 t + r`, column `d` of x. -/
theorem xblk_apply (t : Fin cfg0.N) (r : Fin 10000) (d : Fin 128) (k : Fin 100000) (e : Fin 128)
    (hk : k.val = t.val * 10000 + r.val) (he : e.val = d.val) :
    (iblk0 (F := Ideal) V c 0 t : Vec Ideal S10000x128 .f32) (ix2 r d) = (V c main_arg0 : S100000x128.Idx → EReal) (ix2 k e) := by
  obtain ⟨e0, e1, -⟩ := idx_facts t
  show V c main_arg0 (((cfg0.win 0).blk t).view.emb (ix2 r d)) = V c main_arg0 (ix2 k e)
  refine congrArg _ (funext fun a => Fin.ext ?_)
  match a with
  | ⟨0, _⟩ => show win0_0.index t (0 : Fin 2) * 10000 + 1 * r.val = k.val; rw [e0, hk]; omega
  | ⟨1, _⟩ => show win0_0.index t (1 : Fin 2) * 128 + 1 * d.val = e.val; rw [e1, he]; omega

/-- WHAT POINT `t` WRITES BACK to the first output is block `t` of the per-block column sums of x. -/
theorem flushed1_eq (t : Fin cfg0.N) :
    (dat0 (F := Ideal) V c).flushed 1 t = ((cfg0.win 1).blk t).view.read (Elt Ideal) (blockSums id (V c main_arg0)) := by
  show (cfg0.win 1).cut (grid0.coords t) ((dat0 V c).after 1 t) = _
  rw [after0_1]
  unfold out0_1
  rw [View.canon_unit_zero zero3]
  simp only [View.ld_unit_zero (S := S10000x128) zero2]
  funext j
  obtain ⟨-, -, e0, e1, e2, -⟩ := idx_facts t
  obtain ⟨p, q, d, rfl⟩ : ∃ (p : Fin 1) (q : Fin 1) (d : Fin 128), j = ix3 p q d := ⟨j 0, j 1, j 2, eq_ix3 j⟩
  obtain rfl : p = 0 := Subsingleton.elim _ _
  obtain rfl : q = 0 := Subsingleton.elim _ _
  show k0_pay1 (F := Ideal) (iblk0 V c 0 t) (ix3 (0 : Fin 1) (0 : Fin 1) d)
    = blockSums id (V c main_arg0) (((cfg0.win 1).blk t).view.emb (ix3 (0 : Fin 1) (0 : Fin 1) d))
  refine (pay1_apply (iblk0 V c 0 t) d).trans ?_
  refine Finset.sum_congr rfl fun r _ => ?_
  refine xblk_apply V c t r d _ _ ?_ ?_
  · show (win0_1.index t (0 : Fin 3) * 1 + 1 * 0) * 10000 + r.val = t.val * 10000 + r.val
    rw [e0]; omega
  · show win0_1.index t (2 : Fin 3) * 128 + 1 * d.val = d.val
    rw [e2]; omega

/-- WHAT POINT `t` WRITES BACK to the second output is block `t` of the per-block column sums of the squares of x. -/
theorem flushed2_eq (t : Fin cfg0.N) :
    (dat0 (F := Ideal) V c).flushed 2 t
      = ((cfg0.win 2).blk t).view.read (Elt Ideal) (blockSums (fun v => v * v) (V c main_arg0)) := by
  show (cfg0.win 2).cut (grid0.coords t) ((dat0 V c).after 2 t) = _
  rw [after0_2]
  unfold out0_2
  rw [View.canon_unit_zero zero3]
  simp only [View.ld_unit_zero (S := S10000x128) zero2]
  funext j
  obtain ⟨-, -, -, -, -, e0, e1, e2⟩ := idx_facts t
  obtain ⟨p, q, d, rfl⟩ : ∃ (p : Fin 1) (q : Fin 1) (d : Fin 128), j = ix3 p q d := ⟨j 0, j 1, j 2, eq_ix3 j⟩
  obtain rfl : p = 0 := Subsingleton.elim _ _
  obtain rfl : q = 0 := Subsingleton.elim _ _
  show k0_pay2 (F := Ideal) (iblk0 V c 0 t) (ix3 (0 : Fin 1) (0 : Fin 1) d)
    = blockSums (fun v => v * v) (V c main_arg0) (((cfg0.win 2).blk t).view.emb (ix3 (0 : Fin 1) (0 : Fin 1) d))
  refine (pay2_apply (iblk0 V c 0 t) d).trans ?_
  refine Finset.sum_congr rfl fun r _ => ?_
  have hx : (iblk0 (F := Ideal) V c 0 t : Vec Ideal S10000x128 .f32) (ix2 r d) = _ := xblk_apply V c t r d
    (⟨(((cfg0.win 2).blk t).view.emb (ix3 (0 : Fin 1) (0 : Fin 1) d) 0).val * 10000 + r.val, by
      have h : win0_2.index t (0 : Fin 3) * 1 + 1 * 0 < 10 := (((cfg0.win 2).blk t).view.emb (ix3 (0 : Fin 1) (0 : Fin 1) d) 0).isLt
      have := r.isLt
      show (win0_2.index t (0 : Fin 3) * 1 + 1 * 0) * 10000 + r.val < 100000
      omega⟩ : Fin 100000)
    (⟨(((cfg0.win 2).blk t).view.emb (ix3 (0 : Fin 1) (0 : Fin 1) d) 2).val, (((cfg0.win 2).blk t).view.emb (ix3 (0 : Fin 1) (0 : Fin 1) d) 2).isLt⟩ : Fin 128)
    (by show (win0_2.index t (0 : Fin 3) * 1 + 1 * 0) * 10000 + r.val = t.val * 10000 + r.val; rw [e0]; omega)
    (by show win0_2.index t (2 : Fin 3) * 128 + 1 * d.val = d.val; rw [e2]; omega)
  exact congrArg (fun v => v * v) hx

/-- An index of the first output is in point `t`'s block iff each coordinate is in the block's range on its axis. -/
theorem mem_blk1 (t : Fin cfg0.N) (i : S10x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v0_0).slice (win0_1.rect t)).set ↔ _
  rw [View.set_slice_whole, Rect.mem_set_unit]
  exact Iff.rfl

/-- The same for the second output. -/
theorem mem_blk2 (t : Fin cfg0.N) (i : S10x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0_1).slice (win0_2.rect t)).set ↔ _
  rw [View.set_slice_whole, Rect.mem_set_unit]
  exact Iff.rfl

/-- Every index `(b, 0, d)` of the first output lies in the block of point `b`, which writes back. -/
theorem cover1 (i : S10x1x128.Idx) :
    ∃ t : Fin cfg0.N, (cfg0.win 1).flush t = true ∧ i ∈ ((cfg0.win 1).blk t).view.set := by
  have h0 : (i 0).val < 10 := (i 0).isLt
  have h1 : (i 1).val < 1 := (i 1).isLt
  have h2 : (i 2).val < 128 := (i 2).isLt
  obtain ⟨t, ht⟩ : ∃ t : Fin cfg0.N, t.val = (i 0).val := ⟨⟨(i 0).val, h0.trans_eq N_0.symm⟩, rfl⟩
  obtain ⟨-, -, e0, e1, e2, -⟩ := idx_facts t
  refine ⟨t, flush0_1 t, ?_⟩
  rw [mem_blk1]
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 1 ≤ (i 1).val ∧ (i 1).val < win0_1.index t (1 : Fin 3) * 1 + 1
    rw [e1]; omega
  | ⟨2, _⟩ =>
    show win0_1.index t (2 : Fin 3) * 128 ≤ (i 2).val ∧ (i 2).val < win0_1.index t (2 : Fin 3) * 128 + 128
    rw [e2]; omega

/-- The same for the second output. -/
theorem cover2 (i : S10x1x128.Idx) :
    ∃ t : Fin cfg0.N, (cfg0.win 2).flush t = true ∧ i ∈ ((cfg0.win 2).blk t).view.set := by
  have h0 : (i 0).val < 10 := (i 0).isLt
  have h1 : (i 1).val < 1 := (i 1).isLt
  have h2 : (i 2).val < 128 := (i 2).isLt
  obtain ⟨t, ht⟩ : ∃ t : Fin cfg0.N, t.val = (i 0).val := ⟨⟨(i 0).val, h0.trans_eq N_0.symm⟩, rfl⟩
  obtain ⟨-, -, -, -, -, e0, e1, e2⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 128 ≤ (i 2).val ∧ (i 2).val < win0_2.index t (2 : Fin 3) * 128 + 128
    rw [e2]; omega

/-- THE FIRST OUTPUT after the region: the per-block column sums of x. -/
theorem final1 : (dat0 (F := Ideal) V c).arrAt 1 cfg0.N = blockSums id (V c main_arg0) :=
  (dat0 (F := Ideal) V c).arrAt_eq_of_cover 1 (blockSums id (V c main_arg0)) (fun t _ => flushed1_eq V c t) cover1

/-- THE SECOND OUTPUT after the region: the per-block column sums of the squares of x. -/
theorem final2 : (dat0 (F := Ideal) V c).arrAt 2 cfg0.N = blockSums (fun v => v * v) (V c main_arg0) :=
  (dat0 (F := Ideal) V c).arrAt_eq_of_cover 2 (blockSums (fun v => v * v) (V c main_arg0)) (fun t _ => flushed2_eq V c t) cover2

/-! ## The statements -/

/-- The input as the region finds it. -/
def xIn : Mat 100000 128 := mat2 (n := 100000) (a := 128) (V c main_arg0)

/-- Block `t` of the first output holds the sums, over the block's 10000 rows, of each column of x. -/
theorem out_sum (t : Fin 10) (d : Fin 128) :
    part3 (T := 10) (a := 128) ((dat0 (F := Ideal) V c).arrAt 1 cfg0.N) t d
      = ∑ r : Fin 10000, xIn V c ⟨t.val * 10000 + r.val, by have := t.isLt; have := r.isLt; omega⟩ d := by
  refine (congrFun (final1 V c) (ix3 t (0 : Fin 1) d)).trans ?_
  rfl

/-- Block `t` of the second output holds the sums of the squares. -/
theorem out_sumsq (t : Fin 10) (d : Fin 128) :
    part3 (T := 10) (a := 128) ((dat0 (F := Ideal) V c).arrAt 2 cfg0.N) t d
      = ∑ r : Fin 10000, xIn V c ⟨t.val * 10000 + r.val, by have := t.isLt; have := r.isLt; omega⟩ d * xIn V c ⟨t.val * 10000 + r.val, by have := t.isLt; have := r.isLt; omega⟩ d := by
  refine (congrFun (final2 V c) (ix3 t (0 : Fin 1) d)).trans ?_
  rfl

end Cert.KernelIdeal.Region0

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Region1.lean ====
/-
  Region 1: per block of 4000 rows, two fused layers on the normalised input, and the column sums of the result and of
  its squares.

  Grid point t reads rows t · 4000 … t · 4000 + 3999 of the input and all of the mean, variance, scale, shift, weights
  and biases. A row of the result depends on that row of the input only: row r of the block is
  relu (relu (bn(x) · w0 + b0) · w1 + b1) at row t · 4000 + r. So the block of the first output is a block of ONE matrix,
  the hidden matrix `h1`, and row t of the second and third outputs is the sum over the block's rows of `h1` and of its
  squares. First the body's arithmetic is read at an entry with the loaded blocks as variables; then each loaded block
  is read as entries of its array; then the blocks, which tile the outputs, are put together.
-/
import proofs.«412217_j43164421324860_3_alg».proof.Proof.Gen.KernelIdeal.Frame
import proofs.«412217_j43164421324860_3_alg».proof.Proof.KAcc
import proofs.«412217_j43164421324860_3_alg».proof.Proof.LibMatProd
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.KernelIdeal.Acc Cert.Spec
open Idealize.ShloMosaic Idealize.ShloMosaic.TcCoe Idealize.ShloMosaic.ValueIdx Idealize.SL.Sem

/-! ## The body's arithmetic at one entry of a block

  Every lemma here is about ONE grid point: the loaded blocks are variables. Row r, column d of the 4000-row block is
  written (r, d); a [1, n] row vector is read at (0, q). -/

/-- The second layer's bias, broadcast down the block's rows, reads at (r, d) the bias row's entry d. -/
theorem pay7_apply (v34 : Vec Ideal S1x512 .f32) (r : Fin 4000) (d : Fin 512) :
    k1_pay7 (F := Ideal) v34 (ix2 r d) = v34 (ix2 0 d) := by
  unfold k1_pay7
  rw [shapeCast_self]
  exact broadcastTo_1b_ab_apply _ _ r d

/-- Adding the broadcast bias and rectifying, entry by entry: max (a + b) 0, the zero word being the number 0. -/
theorem pay1_apply (v33 v36 : FVec Ideal S4000x512 .f32) (i : S4000x512.Idx) :
    k1_pay1 v33 v36 i = max (v33 i + v36 i) 0 := by
  unfold k1_pay1
  show max (v33 i + v36 i) (Ideal.ofBits .f32 0x00000000#32) = _
  rw [Cert.Consts.ofBits_zero]

set_option maxHeartbeats 400000 in
/-- The sum over the block's row axis, reshaped [512] → [1, 512] → [1, 1, 512], reads at column d the sum over the 4000
    rows r of entry (r, d): a lane sum is the finite sum over the dropped axis, both reshapes only add a unit axis, and the
    rounding to the narrower format and back that stands before the sum changes no entry over the extended reals. -/
theorem pay4_apply (v33 v36 : FVec Ideal S4000x512 .f32) (u w : Fin 1) (d : Fin 512) :
    k1_pay4 v33 v36 (ix3 u w d) = ∑ r : Fin 4000, k1_pay1 v33 v36 (ix2 r d) := by
  unfold k1_pay4
  dsimp only
  rw [shapeCast_ab_1ab_apply, shapeCast_a_1a_apply]
  refine (Ideal.multiReduction_add_single (k1_pay3 v33 v36) _ _ _ _ (ix1 d)).trans ?_
  refine Finset.sum_congr rfl fun k _ => ?_
  refine congrArg (k1_pay1 v33 v36) ?_
  funext a; apply Fin.ext
  match a with
  | ⟨0, _⟩ => rfl
  | ⟨1, _⟩ => rfl

set_option maxHeartbeats 400000 in
/-- The same for the entrywise squares. -/
theorem pay5_apply (v33 v36 : FVec Ideal S4000x512 .f32) (u w : Fin 1) (d : Fin 512) :
    k1_pay5 v33 v36 (ix3 u w d) = ∑ r : Fin 4000, k1_pay1 v33 v36 (ix2 r d) * k1_pay1 v33 v36 (ix2 r d) := by
  unfold k1_pay5
  rw [shapeCast_ab_1ab_apply, shapeCast_a_1a_apply]
  refine (Ideal.multiReduction_add_single (mulf (k1_pay3 v33 v36) (k1_pay3 v33 v36)) _ _ _ _ (ix1 d)).trans ?_
  refine Finset.sum_congr rfl fun k _ => ?_
  have e : reduces_S4000x512_S512.lift (ix1 d) k = ix2 k d := by
    funext a; apply Fin.ext
    match a with
    | ⟨0, _⟩ => rfl
    | ⟨1, _⟩ => rfl
  rw [e]
  rfl

set_option maxHeartbeats 400000 in
/-- The two matrix products at (r, d). The inner one contracts the 128 input columns q of the normalised row r,
    (x − mean) · rsqrt(var + eps) · gamma + beta, against column k of the first weight; its result plus the first bias,
    rectified, is contracted over the 512 hidden columns k against column d of the second weight. A product into a zero
    accumulator is the plain sum over the shared axis; the format changes and same-shape reshapes are the identity. -/
theorem pay6_apply (v0 : Vec Ideal S4000x128 .f32) (v1 v3 v5 v7 : Vec Ideal S1x128 .f32) (v21 : Vec Ideal S128x512 .bf16)
    (v24 : Vec Ideal S1x512 .f32) (v31 : Vec Ideal S512x512 .bf16) (r : Fin 4000) (d : Fin 512) :
    k1_pay6 v0 v1 v3 v5 v7 v21 v24 v31 (ix2 r d)
      = ∑ k : Fin 512, max ((∑ q : Fin 128, ((v0 (ix2 r q) - v1 (ix2 0 q)) * Ideal.rsqrt (v3 (ix2 0 q) + eps) * v5 (ix2 0 q) + v7 (ix2 0 q)) * v21 (ix2 q k)) + v24 (ix2 0 k)) 0 * v31 (ix2 k d) := by
  unfold k1_pay6
  simp only [shapeCast_self, Ideal.ofBits_def]
  refine (Cert.LibMatProd.matmul_zero_apply (φ₂ := .bf16) _ rfl none _ _ r d).trans ?_
  refine Finset.sum_congr rfl fun k _ => ?_
  refine congrArg (· * v31 (ix2 k d)) ?_
  rw [truncf_apply, maximumf_apply, addf_apply, broadcast_apply, Cert.Consts.ofBits_zero, broadcastTo_1b_ab_apply]
  refine congrArg (fun z => max (z + v24 (ix2 0 k)) 0) ?_
  refine (Cert.LibMatProd.matmul_zero_apply (φ₂ := .bf16) _ rfl none _ _ r k).trans ?_
  refine Finset.sum_congr rfl fun q _ => ?_
  refine congrArg (· * v21 (ix2 q k)) ?_
  rw [truncf_apply, addf_apply, mulf_apply, mulf_apply, subf_apply]
  simp only [broadcastTo_1b_ab_apply]
  rfl

/-! ## The operands as matrices and rows, and the hidden matrix -/

variable (V : (c : Dev nD) → (b : Ref sig .tc) → Buf (Elt Ideal) ((c : Thread nD τ).loc b)) (c : Dev nD)

def xIn : Mat 100000 128 := mat2 (n := 100000) (a := 128) (V c main_arg0)
def muIn : Row 128 := row2 (a := 128) (V c main_v4)
def vaIn : Row 128 := row2 (a := 128) (V c main_v10)
def gIn : Row 128 := row2 (a := 128) (V c main_v11)
def bIn : Row 128 := row2 (a := 128) (V c main_v12)
def w0In : Mat 128 512 := mat2 (n := 128) (a := 512) (V c main_v13)
def b0In : Row 512 := row2 (a := 512) (V c main_v14)
def w1In : Mat 512 512 := mat2 (n := 512) (a := 512) (V c main_v15)
def b1In : Row 512 := row2 (a := 512) (V c main_v16)

def h1 : Mat 100000 512 :=
  lin (lin (bn (xIn V c) (muIn V c) (vaIn V c) (gIn V c) (bIn V c)) (w0In V c) (b0In V c)) (w1In V c) (b1In V c)

/-! ## Where a block sits in its array

  A block's entry y sits in the array, on each axis, at (block index) × (block size) + y. The input matrix and the
  three outputs are cut along their first axis, grid point t taking block t; every other operand is one block. -/

/-- The zero offsets of a whole-buffer access, as a constant function (rank 2, rank 3). -/
theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every operand at every one of the 25 grid points: (t, 0) for the input matrix and the stored
    matrix, (t, 0, 0) for the two arrays of column sums, (0, 0) for the resident vectors and weights. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 3) = t.val ∧ win1_10.index t (1 : Fin 3) = 0 ∧ win1_10.index t (2 : Fin 3) = 0)
    ∧ (win1_11.index t (0 : Fin 3) = t.val ∧ win1_11.index t (1 : Fin 3) = 0 ∧ win1_11.index t (2 : Fin 3) = 0) :=
  (by decide +kernel : ∀ t : Fin grid1.N, _)

set_option maxHeartbeats 400000 in
/-- Row r of the input's block t is row t · 4000 + r of the input matrix. -/
theorem xblk_apply (t : Fin cfg1.N) (r : Fin 4000) (q : Fin 128) (i : Fin 100000) (hi : i.val = t.val * 4000 + r.val) :
    (iblk1 V c 0 t : Vec Ideal S4000x128 .f32) (ix2 r q) = xIn V c i q := by
  unfold iblk1
  rw [View.read_apply]
  show V c main_arg0 _ = V c main_arg0 (ix2 i q)
  refine congrArg (V c main_arg0) ?_
  funext a; apply Fin.ext
  match a with
  | ⟨0, _⟩ => show win1_0.index t (0 : Fin 2) * 4000 + 1 * r.val = i.val; rw [(idx_facts t).1.1, hi]; omega
  | ⟨1, _⟩ => show win1_0.index t (1 : Fin 2) * 128 + 1 * q.val = q.val; rw [(idx_facts t).1.2]; omega

set_option maxHeartbeats 400000 in
/-- The resident operands' one block is the whole operand: the mean row … -/
theorem mublk_apply (t : Fin cfg1.N) (u : Fin 1) (q : Fin 128) :
    (iblk1 V c 1 t : Vec Ideal S1x128 .f32) (ix2 u q) = muIn V c q := by
  unfold iblk1
  rw [View.read_apply]
  show V c main_v4 _ = V c main_v4 (ix2 0 q)
  refine congrArg (V c main_v4) ?_
  funext a; apply Fin.ext
  match a with
  | ⟨0, _⟩ => show win1_1.index t (0 : Fin 2) * 1 + 1 * u.val = 0; rw [(idx_facts t).2.1.1]; omega
  | ⟨1, _⟩ => show win1_1.index t (1 : Fin 2) * 128 + 1 * q.val = q.val; rw [(idx_facts t).2.1.2]; omega

set_option maxHeartbeats 400000 in
/-- … the variance row … -/
theorem vablk_apply (t : Fin cfg1.N) (u : Fin 1) (q : Fin 128) :
    (iblk1 V c 2 t : Vec Ideal S1x128 .f32) (ix2 u q) = vaIn V c q := by
  unfold iblk1
  rw [View.read_apply]
  show V c main_v10 _ = V c main_v10 (ix2 0 q)
  refine congrArg (V c main_v10) ?_
  funext a; apply Fin.ext
  match a with
  | ⟨0, _⟩ => show win1_2.index t (0 : Fin 2) * 1 + 1 * u.val = 0; rw [(idx_facts t).2.2.1.1]; omega
  | ⟨1, _⟩ => show win1_2.index t (1 : Fin 2) * 128 + 1 * q.val = q.val; rw [(idx_facts t).2.2.1.2]; omega

set_option maxHeartbeats 400000 in
/-- … the scale row … -/
theorem gblk_apply (t : Fin cfg1.N) (u : Fin 1) (q : Fin 128) :
    (iblk1 V c 3 t : Vec Ideal S1x128 .f32) (ix2 u q) = gIn V c q := by
  unfold iblk1
  rw [View.read_apply]
  show V c main_v11 _ = V c main_v11 (ix2 0 q)
  refine congrArg (V c main_v11) ?_
  funext a; apply Fin.ext
  match a with
  | ⟨0, _⟩ => show win1_3.index t (0 : Fin 2) * 1 + 1 * u.val = 0; rw [(idx_facts t).2.2.2.1.1]; omega
  | ⟨1, _⟩ => show win1_3.index t (1 : Fin 2) * 128 + 1 * q.val = q.val; rw [(idx_facts t).2.2.2.1.2]; omega

set_option maxHeartbeats 400000 in
/-- … the shift row … -/
theorem bblk_apply (t : Fin cfg1.N) (u : Fin 1) (q : Fin 128) :
    (iblk1 V c 4 t : Vec Ideal S1x128 .f32) (ix2 u q) = bIn V c q := by
  unfold iblk1
  rw [View.read_apply]
  show V c main_v12 _ = V c main_v12 (ix2 0 q)
  refine congrArg (V c main_v12) ?_
  funext a; apply Fin.ext
  match a with
  | ⟨0, _⟩ => show win1_4.index t (0 : Fin 2) * 1 + 1 * u.val = 0; rw [(idx_facts t).2.2.2.2.1.1]; omega
  | ⟨1, _⟩ => show win1_4.index t (1 : Fin 2) * 128 + 1 * q.val = q.val; rw [(idx_facts t).2.2.2.2.1.2]; omega

set_option maxHeartbeats 400000 in
/-- … the first weight matrix … -/
theorem w0blk_apply (t : Fin cfg1.N) (u : Fin 128) (q : Fin 512) :
    (iblk1 V c 5 t : Vec Ideal S128x512 .bf16) (ix2 u q) = w0In V c u q := by
  unfold iblk1
  rw [View.read_apply]
  show V c main_v13 _ = V c main_v13 (ix2 u q)
  refine congrArg (V c main_v13) ?_
  funext a; apply Fin.ext
  match a with
  | ⟨0, _⟩ => show win1_5.index t (0 : Fin 2) * 128 + 1 * u.val = u.val; rw [(idx_facts t).2.2.2.2.2.1.1]; omega
  | ⟨1, _⟩ => show win1_5.index t (1 : Fin 2) * 512 + 1 * q.val = q.val; rw [(idx_facts t).2.2.2.2.2.1.2]; omega

set_option maxHeartbeats 400000 in
/-- … the first bias row … -/
theorem b0blk_apply (t : Fin cfg1.N) (u : Fin 1) (q : Fin 512) :
    (iblk1 V c 6 t : Vec Ideal S1x512 .f32) (ix2 u q) = b0In V c q := by
  unfold iblk1
  rw [View.read_apply]
  show V c main_v14 _ = V c main_v14 (ix2 0 q)
  refine congrArg (V c main_v14) ?_
  funext a; apply Fin.ext
  match a with
  | ⟨0, _⟩ => show win1_6.index t (0 : Fin 2) * 1 + 1 * u.val = 0; rw [(idx_facts t).2.2.2.2.2.2.1.1]; omega
  | ⟨1, _⟩ => show win1_6.index t (1 : Fin 2) * 512 + 1 * q.val = q.val; rw [(idx_facts t).2.2.2.2.2.2.1.2]; omega

set_option maxHeartbeats 400000 in
/-- … the second weight matrix … -/
theorem w1blk_apply (t : Fin cfg1.N) (u : Fin 512) (q : Fin 512) :
    (iblk1 V c 7 t : Vec Ideal S512x512 .bf16) (ix2 u q) = w1In V c u q := by
  unfold iblk1
  rw [View.read_apply]
  show V c main_v15 _ = V c main_v15 (ix2 u q)
  refine congrArg (V c main_v15) ?_
  funext a; apply Fin.ext
  match a with
  | ⟨0, _⟩ => show win1_7.index t (0 : Fin 2) * 512 + 1 * u.val = u.val; rw [(idx_facts t).2.2.2.2.2.2.2.1.1]; omega
  | ⟨1, _⟩ => show win1_7.index t (1 : Fin 2) * 512 + 1 * q.val = q.val; rw [(idx_facts t).2.2.2.2.2.2.2.1.2]; omega

set_option maxHeartbeats 400000 in
/-- … and the second bias row. -/
theorem b1blk_apply (t : Fin cfg1.N) (u : Fin 1) (q : Fin 512) :
    (iblk1 V c 8 t : Vec Ideal S1x512 .f32) (ix2 u q) = b1In V c q := by
  unfold iblk1
  rw [View.read_apply]
  show V c main_v16 _ = V c main_v16 (ix2 0 q)
  refine congrArg (V c main_v16) ?_
  funext a; apply Fin.ext
  match a with
  | ⟨0, _⟩ => show win1_8.index t (0 : Fin 2) * 1 + 1 * u.val = 0; rw [(idx_facts t).2.2.2.2.2.2.2.2.1.1]; omega
  | ⟨1, _⟩ => show win1_8.index t (1 : Fin 2) * 512 + 1 * q.val = q.val; rw [(idx_facts t).2.2.2.2.2.2.2.2.1.2]; omega

/-! ## One grid point's results as entries of the hidden matrix -/

set_option maxHeartbeats 400000 in
/-- Row r of block t through the normalisation and the two layers is row t · 4000 + r of the hidden matrix: the block's
    row depends on that one row of the input and on the resident operands only, so the two sides are the same
    expression entry by entry. -/
theorem hidden_at (t : Fin cfg1.N) (r : Fin 4000) (d : Fin 512) (i : Fin 100000) (hi : i.val = t.val * 4000 + r.val) :
    k1_pay1 (k1_pay6 (iblk1 V c 0 t) (iblk1 V c 1 t) (iblk1 V c 2 t) (iblk1 V c 3 t) (iblk1 V c 4 t) (iblk1 V c 5 t) (iblk1 V c 6 t) (iblk1 V c 7 t))
      (k1_pay7 (iblk1 V c 8 t)) (ix2 r d) = h1 V c i d := by
  refine (pay1_apply _ _ (ix2 r d)).trans ?_
  refine (congrArg₂ (fun a b => max (a + b) 0)
    (pay6_apply (iblk1 V c 0 t) (iblk1 V c 1 t) (iblk1 V c 2 t) (iblk1 V c 3 t) (iblk1 V c 4 t) (iblk1 V c 5 t) (iblk1 V c 6 t) (iblk1 V c 7 t) r d)
    (pay7_apply (iblk1 V c 8 t) r d)).trans ?_
  show _ = max ((∑ k : Fin 512, max ((∑ q : Fin 128, ((xIn V c i q - muIn V c q) * Ideal.rsqrt (vaIn V c q + eps) * gIn V c q + bIn V c q)
      * w0In V c q k) + b0In V c k) 0 * w1In V c k d) + b1In V c d) 0
  refine congrArg₂ (fun a b => max (a + b) 0) (Finset.sum_congr rfl fun k _ => ?_) (b1blk_apply V c t 0 d)
  refine congrArg₂ (fun a b => max a 0 * b) ?_ (w1blk_apply V c t k d)
  refine congrArg₂ (· + ·) (Finset.sum_congr rfl fun q _ => ?_) (b0blk_apply V c t 0 k)
  refine congrArg₂ (· * ·) ?_ (w0blk_apply V c t q k)
  refine congrArg₂ (· + ·) ?_ (bblk_apply V c t 0 q)
  refine congrArg₂ (· * ·) ?_ (gblk_apply V c t 0 q)
  refine congrArg₂ (· * ·) ?_ ?_
  · exact congrArg₂ (· - ·) (xblk_apply V c t r q i hi) (mublk_apply V c t 0 q)
  · exact congrArg (fun z => Ideal.rsqrt (z + eps)) (vablk_apply V c t 0 q)

/-! ## The three output arrays as functions of the row and the column -/

/-- The hidden matrix, entry by entry. -/
def hidArr : S100000x512.Idx → Elt Ideal .bf16 := fun j => h1 V c (j 0) (j 1)

/-- Per block of 4000 rows, the column sums of the hidden matrix. -/
def sumArr : S25x1x512.Idx → Elt Ideal .f32 := fun j =>
  ∑ r : Fin 4000, h1 V c ⟨(j 0).val * 4000 + r.val, by have h0 : (j 0).val < 25 := (j 0).isLt; have := r.isLt; omega⟩ (j 2)

/-- Per block of 4000 rows, the column sums of its squares. -/
def sumsqArr : S25x1x512.Idx → Elt Ideal .f32 := fun j =>
  ∑ r : Fin 4000, h1 V c ⟨(j 0).val * 4000 + r.val, by have h0 : (j 0).val < 25 := (j 0).isLt; have := r.isLt; omega⟩ (j 2)
    * h1 V c ⟨(j 0).val * 4000 + r.val, by have h0 : (j 0).val < 25 := (j 0).isLt; have := r.isLt; omega⟩ (j 2)

set_option maxHeartbeats 400000 in
/-- Entry y of block t of the stored matrix is the hidden matrix at row t * 4000 + y 0, column y 1. -/
theorem hidden_blk (t : Fin cfg1.N) (y : S4000x512.Idx) (j : S100000x512.Idx)
    (h0 : (j 0).val = t.val * 4000 + (y 0).val) (h1' : (j 1).val = (y 1).val) :
    k1_pay2 (k1_pay6 (iblk1 V c 0 t) (iblk1 V c 1 t) (iblk1 V c 2 t) (iblk1 V c 3 t) (iblk1 V c 4 t) (iblk1 V c 5 t) (iblk1 V c 6 t) (iblk1 V c 7 t)) (k1_pay7 (iblk1 V c 8 t)) y = hidArr V c j := by
  obtain ⟨r, d, rfl⟩ : ∃ (r : Fin 4000) (d : Fin 512), y = ix2 r d := ⟨y 0, y 1, eq_ix2 y⟩
  exact (hidden_at V c t r d (j 0) h0).trans (congrArg (h1 V c (j 0)) (Fin.ext h1').symm)

set_option maxHeartbeats 400000 in
/-- Column d of block t's sums is the sum over the block's 4000 rows. -/
theorem sum_blk (t : Fin cfg1.N) (y : S1x1x512.Idx) (j : S25x1x512.Idx)
    (h0 : (j 0).val = t.val) (h2 : (j 2).val = (y 2).val) :
    k1_pay4 (k1_pay6 (iblk1 V c 0 t) (iblk1 V c 1 t) (iblk1 V c 2 t) (iblk1 V c 3 t) (iblk1 V c 4 t) (iblk1 V c 5 t) (iblk1 V c 6 t) (iblk1 V c 7 t)) (k1_pay7 (iblk1 V c 8 t)) y = sumArr V c j := by
  obtain ⟨u, w, d, rfl⟩ : ∃ (u w : Fin 1) (d : Fin 512), y = ix3 u w d := ⟨y 0, y 1, y 2, eq_ix3 y⟩
  refine (pay4_apply _ _ u w d).trans ?_
  refine Finset.sum_congr rfl fun r _ => ?_
  have hb : (j 0).val * 4000 + r.val < 100000 := by
    have hj : (j 0).val < 25 := (j 0).isLt
    have := r.isLt; omega
  exact (hidden_at V c t r d ⟨(j 0).val * 4000 + r.val, hb⟩ (by show (j 0).val * 4000 + r.val = t.val * 4000 + r.val; rw [h0])).trans
    (congrArg (h1 V c ⟨(j 0).val * 4000 + r.val, hb⟩) (Fin.ext h2).symm)

set_option maxHeartbeats 400000 in
/-- Column d of block t's sums of squares likewise. -/
theorem sumsq_blk (t : Fin cfg1.N) (y : S1x1x512.Idx) (j : S25x1x512.Idx)
    (h0 : (j 0).val = t.val) (h2 : (j 2).val = (y 2).val) :
    k1_pay5 (k1_pay6 (iblk1 V c 0 t) (iblk1 V c 1 t) (iblk1 V c 2 t) (iblk1 V c 3 t) (iblk1 V c 4 t) (iblk1 V c 5 t) (iblk1 V c 6 t) (iblk1 V c 7 t)) (k1_pay7 (iblk1 V c 8 t)) y = sumsqArr V c j := by
  obtain ⟨u, w, d, rfl⟩ : ∃ (u w : Fin 1) (d : Fin 512), y = ix3 u w d := ⟨y 0, y 1, y 2, eq_ix3 y⟩
  refine (pay5_apply _ _ u w d).trans ?_
  refine Finset.sum_congr rfl fun r _ => ?_
  have hb : (j 0).val * 4000 + r.val < 100000 := by
    have hj : (j 0).val < 25 := (j 0).isLt
    have := r.isLt; omega
  have e : k1_pay1 (k1_pay6 (iblk1 V c 0 t) (iblk1 V c 1 t) (iblk1 V c 2 t) (iblk1 V c 3 t) (iblk1 V c 4 t) (iblk1 V c 5 t) (iblk1 V c 6 t) (iblk1 V c 7 t)) (k1_pay7 (iblk1 V c 8 t)) (ix2 r d) = h1 V c ⟨(j 0).val * 4000 + r.val, hb⟩ (j 2) :=
    (hidden_at V c t r d ⟨(j 0).val * 4000 + r.val, hb⟩ (by show (j 0).val * 4000 + r.val = t.val * 4000 + r.val; rw [h0])).trans
      (congrArg (h1 V c ⟨(j 0).val * 4000 + r.val, hb⟩) (Fin.ext h2).symm)
  exact congrArg₂ (· * ·) e e

/-! ## What each grid point writes back -/

set_option maxHeartbeats 400000 in
/-- Grid point t writes back block t of the hidden matrix … -/
theorem flushed9_eq (t : Fin cfg1.N) :
    (dat1 (F := Ideal) V c).flushed 9 t = ((cfg1.win 9).blk t).view.read (Elt Ideal) (hidArr V c) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S1x128) hz2, View.ld_unit_zero (S := S128x512) hz2,
    View.ld_unit_zero (S := S1x512) hz2, View.ld_unit_zero (S := S512x512) hz2]
  obtain ⟨e0, e1⟩ := (idx_facts t).2.2.2.2.2.2.2.2.2.1
  funext y
  rw [View.read_apply]
  refine hidden_blk V c t y _ ?_ ?_
  · show win1_9.index t (0 : Fin 2) * 4000 + 1 * (y 0).val = t.val * 4000 + (y 0).val; rw [e0]; omega
  · show win1_9.index t (1 : Fin 2) * 512 + 1 * (y 1).val = (y 1).val; rw [e1]; omega

set_option maxHeartbeats 400000 in
/-- … row t of the blockwise column sums … -/
theorem flushed10_eq (t : Fin cfg1.N) :
    (dat1 (F := Ideal) V c).flushed 10 t = ((cfg1.win 10).blk t).view.read (Elt Ideal) (sumArr V c) := by
  show (cfg1.win 10).cut (grid1.coords t) ((dat1 V c).after 10 t) = _
  rw [after1_10]
  unfold out1_10
  rw [View.canon_unit_zero hz3]
  simp only [View.ld_unit_zero (S := S4000x128) hz2, View.ld_unit_zero (S := S1x128) hz2, View.ld_unit_zero (S := S128x512) hz2,
    View.ld_unit_zero (S := S1x512) hz2, View.ld_unit_zero (S := S512x512) hz2]
  obtain ⟨e0, e1, e2⟩ := (idx_facts t).2.2.2.2.2.2.2.2.2.2.1
  funext y
  rw [View.read_apply]
  refine sum_blk V c t y _ ?_ ?_
  · show win1_10.index t (0 : Fin 3) * 1 + 1 * (y 0).val = t.val
    have hy : (y 0).val < 1 := (y 0).isLt
    rw [e0]; omega
  · show win1_10.index t (2 : Fin 3) * 512 + 1 * (y 2).val = (y 2).val; rw [e2]; omega

set_option maxHeartbeats 400000 in
/-- … and row t of the blockwise column sums of squares. -/
theorem flushed11_eq (t : Fin cfg1.N) :
    (dat1 (F := Ideal) V c).flushed 11 t = ((cfg1.win 11).blk t).view.read (Elt Ideal) (sumsqArr V c) := by
  show (cfg1.win 11).cut (grid1.coords t) ((dat1 V c).after 11 t) = _
  rw [after1_11]
  unfold out1_11
  rw [View.canon_unit_zero hz3]
  simp only [View.ld_unit_zero (S := S4000x128) hz2, View.ld_unit_zero (S := S1x128) hz2, View.ld_unit_zero (S := S128x512) hz2,
    View.ld_unit_zero (S := S1x512) hz2, View.ld_unit_zero (S := S512x512) hz2]
  obtain ⟨e0, e1, e2⟩ := (idx_facts t).2.2.2.2.2.2.2.2.2.2.2
  funext y
  rw [View.read_apply]
  refine sumsq_blk V c t y _ ?_ ?_
  · show win1_11.index t (0 : Fin 3) * 1 + 1 * (y 0).val = t.val
    have hy : (y 0).val < 1 := (y 0).isLt
    rw [e0]; omega
  · show win1_11.index t (2 : Fin 3) * 512 + 1 * (y 2).val = (y 2).val; rw [e2]; omega

/-! ## The blocks cover each output array -/

/-- An index is in block t iff each coordinate is in the block's range on its axis. -/
theorem mem_blk9 (t : Fin cfg1.N) (i : S100000x512.Idx) :
    i ∈ ((cfg1.win 9).blk t).view.set ↔ ∀ a : Fin 2, win1_9.index t a * S4000x512.size a ≤ (i a).val
      ∧ (i a).val < win1_9.index t a * S4000x512.size a + S4000x512.size a := by
  show i ∈ ((View.whole main_v17_0).slice (win1_9.rect t)).set ↔ _
  rw [View.set_slice_whole, Rect.mem_set_unit]
  exact Iff.rfl

/-- Row i of the [100000, 512] array lies in block i / 4000. -/
theorem cover9 (i : S100000x512.Idx) :
    ∃ t : Fin cfg1.N, (cfg1.win 9).flush t = true ∧ i ∈ ((cfg1.win 9).blk t).view.set := by
  have hi0 : (i 0).val < 100000 := (i 0).isLt
  have hi1 : (i 1).val < 512 := (i 1).isLt
  have hN : cfg1.N = 25 := N_1
  obtain ⟨t, ht⟩ : ∃ t : Fin cfg1.N, t.val = (i 0).val / 4000 := ⟨⟨(i 0).val / 4000, by omega⟩, rfl⟩
  obtain ⟨e0, e1⟩ := (idx_facts t).2.2.2.2.2.2.2.2.2.1
  refine ⟨t, flush1_9 t, ?_⟩
  rw [mem_blk9]
  intro a
  match a with
  | ⟨0, _⟩ =>
    show win1_9.index t (0 : Fin 2) * 4000 ≤ (i 0).val ∧ (i 0).val < win1_9.index t (0 : Fin 2) * 4000 + 4000
    rw [e0, ht]; omega
  | ⟨1, _⟩ =>
    show win1_9.index t (1 : Fin 2) * 512 ≤ (i 1).val ∧ (i 1).val < win1_9.index t (1 : Fin 2) * 512 + 512
    rw [e1]; omega

/-- The same for the [25, 1, 512] arrays. -/
theorem mem_blk10 (t : Fin cfg1.N) (i : S25x1x512.Idx) :
    i ∈ ((cfg1.win 10).blk t).view.set ↔ ∀ a : Fin 3, win1_10.index t a * S1x1x512.size a ≤ (i a).val
      ∧ (i a).val < win1_10.index t a * S1x1x512.size a + S1x1x512.size a := by
  show i ∈ ((View.whole main_v17_1).slice (win1_10.rect t)).set ↔ _
  rw [View.set_slice_whole, Rect.mem_set_unit]
  exact Iff.rfl

/-- Block t of the [25, 1, 512] array is its t-th row: every index lies in the block of its first coordinate. -/
theorem cover10 (i : S25x1x512.Idx) :
    ∃ t : Fin cfg1.N, (cfg1.win 10).flush t = true ∧ i ∈ ((cfg1.win 10).blk t).view.set := by
  have hi0 : (i 0).val < 25 := (i 0).isLt
  have hi1 : (i 1).val < 1 := (i 1).isLt
  have hi2 : (i 2).val < 512 := (i 2).isLt
  have hN : cfg1.N = 25 := N_1
  obtain ⟨t, ht⟩ : ∃ t : Fin cfg1.N, t.val = (i 0).val := ⟨⟨(i 0).val, by omega⟩, rfl⟩
  obtain ⟨e0, e1, e2⟩ := (idx_facts t).2.2.2.2.2.2.2.2.2.2.1
  refine ⟨t, flush1_10 t, ?_⟩
  rw [mem_blk10]
  intro a
  match a with
  | ⟨0, _⟩ =>
    show win1_10.index t (0 : Fin 3) * 1 ≤ (i 0).val ∧ (i 0).val < win1_10.index t (0 : Fin 3) * 1 + 1
    rw [e0, ht]; omega
  | ⟨1, _⟩ =>
    show win1_10.index t (1 : Fin 3) * 1 ≤ (i 1).val ∧ (i 1).val < win1_10.index t (1 : Fin 3) * 1 + 1
    rw [e1]; omega
  | ⟨2, _⟩ =>
    show win1_10.index t (2 : Fin 3) * 512 ≤ (i 2).val ∧ (i 2).val < win1_10.index t (2 : Fin 3) * 512 + 512
    rw [e2]; omega

/-- The same for the [25, 1, 512] arrays. -/
theorem mem_blk11 (t : Fin cfg1.N) (i : S25x1x512.Idx) :
    i ∈ ((cfg1.win 11).blk t).view.set ↔ ∀ a : Fin 3, win1_11.index t a * S1x1x512.size a ≤ (i a).val
      ∧ (i a).val < win1_11.index t a * S1x1x512.size a + S1x1x512.size a := by
  show i ∈ ((View.whole main_v17_2).slice (win1_11.rect t)).set ↔ _
  rw [View.set_slice_whole, Rect.mem_set_unit]
  exact Iff.rfl

/-- Block t of the [25, 1, 512] array is its t-th row: every index lies in the block of its first coordinate. -/
theorem cover11 (i : S25x1x512.Idx) :
    ∃ t : Fin cfg1.N, (cfg1.win 11).flush t = true ∧ i ∈ ((cfg1.win 11).blk t).view.set := by
  have hi0 : (i 0).val < 25 := (i 0).isLt
  have hi1 : (i 1).val < 1 := (i 1).isLt
  have hi2 : (i 2).val < 512 := (i 2).isLt
  have hN : cfg1.N = 25 := N_1
  obtain ⟨t, ht⟩ : ∃ t : Fin cfg1.N, t.val = (i 0).val := ⟨⟨(i 0).val, by omega⟩, rfl⟩
  obtain ⟨e0, e1, e2⟩ := (idx_facts t).2.2.2.2.2.2.2.2.2.2.2
  refine ⟨t, flush1_11 t, ?_⟩
  rw [mem_blk11]
  intro a
  match a with
  | ⟨0, _⟩ =>
    show win1_11.index t (0 : Fin 3) * 1 ≤ (i 0).val ∧ (i 0).val < win1_11.index t (0 : Fin 3) * 1 + 1
    rw [e0, ht]; omega
  | ⟨1, _⟩ =>
    show win1_11.index t (1 : Fin 3) * 1 ≤ (i 1).val ∧ (i 1).val < win1_11.index t (1 : Fin 3) * 1 + 1
    rw [e1]; omega
  | ⟨2, _⟩ =>
    show win1_11.index t (2 : Fin 3) * 512 ≤ (i 2).val ∧ (i 2).val < win1_11.index t (2 : Fin 3) * 512 + 512
    rw [e2]; omega

/-! ## The arrays after the region -/

/-- Every block being a block of one function of the index, and the blocks covering the array, the array ends holding
    that function: the hidden matrix … -/
theorem final9 : (dat1 (F := Ideal) V c).arrAt 9 cfg1.N = hidArr V c :=
  (dat1 V c).arrAt_eq_of_cover 9 (hidArr V c) (fun t _ => flushed9_eq V c t) cover9

/-- … its blockwise column sums … -/
theorem final10 : (dat1 (F := Ideal) V c).arrAt 10 cfg1.N = sumArr V c :=
  (dat1 V c).arrAt_eq_of_cover 10 (sumArr V c) (fun t _ => flushed10_eq V c t) cover10

/-- … and the blockwise column sums of its squares. -/
theorem final11 : (dat1 (F := Ideal) V c).arrAt 11 cfg1.N = sumsqArr V c :=
  (dat1 V c).arrAt_eq_of_cover 11 (sumsqArr V c) (fun t _ => flushed11_eq V c t) cover11

/-- The stored matrix is the hidden matrix. -/
theorem out_h : mat2 (n := 100000) (a := 512) ((dat1 (F := Ideal) V c).arrAt 9 cfg1.N) = h1 V c := by
  rw [final9]
  rfl

/-- Row t of the second output is, column by column, the sum of the hidden matrix over rows t · 4000 … t · 4000 + 3999. -/
theorem out_sum (t : Fin 25) (d : Fin 512) :
    part3 (T := 25) (a := 512) ((dat1 (F := Ideal) V c).arrAt 10 cfg1.N) t d
      = ∑ r : Fin 4000, h1 V c ⟨t.val * 4000 + r.val, by have := t.isLt; have := r.isLt; omega⟩ d := by
  rw [final10]
  rfl

/-- Row t of the third output is the same sum of the squared entries. -/
theorem out_sumsq (t : Fin 25) (d : Fin 512) :
    part3 (T := 25) (a := 512) ((dat1 (F := Ideal) V c).arrAt 11 cfg1.N) t d
      = ∑ r : Fin 4000, h1 V c ⟨t.val * 4000 + r.val, by have := t.isLt; have := r.isLt; omega⟩ d
          * h1 V c ⟨t.val * 4000 + r.val, by have := t.isLt; have := r.isLt; omega⟩ d := by
  rw [final11]
  rfl

end Cert.KernelIdeal.Region1

end
-- ==== Proof.Region2.lean ====
/-
  Region 2: per block of 4000 rows, one layer on the normalised rows, and the column sums of the result and of its squares.

  The rows of h are cut into 25 blocks of 4000; the mean, variance, scale, shift, weights and bias are whole at every block.
  On a block the body normalises each row, (h - mean) * rsqrt(var + eps) * scale + shift, multiplies by the weights, adds the
  bias and rectifies; rounding to bf16 and reading back change nothing over the extended reals. It writes that block of the
  result, and, as row t of two [25, 1, 512] arrays, the block's column sums of the result and of its squares. First each of
  these is read at an index for arbitrary block contents; then each block is read off the arrays the region finds; then the
  blocks are put together: row i of the result lies in block i / 4000, and row t of the sums is written by block t alone.
-/
import proofs.«412217_j43164421324860_3_alg».proof.Proof.Gen.KernelIdeal.Frame
import proofs.«412217_j43164421324860_3_alg».proof.Proof.KAcc
import proofs.«412217_j43164421324860_3_alg».proof.Proof.LibMatProd
import Idealize.ShloMosaic.Lib.Pipeline.Value
import Idealize.ShloMosaic.PureOps.Ideal.Laws

set_option maxRecDepth 16384

noncomputable section

open scoped BigOperators

namespace Cert.KernelIdeal.Region2

open Cert.KernelIdeal Cert.KernelIdeal.Gen Cert.KernelIdeal.Acc Cert.Spec
open Idealize.ShloMosaic Idealize.ShloMosaic.TcCoe Idealize.ShloMosaic.ValueIdx Idealize.SL.Sem

/-! ## The body's values at an index, for arbitrary block contents -/

/-- A [1,512] row spread over 4000 rows reads, at (r, d), the row's entry d. -/
theorem row_spread_apply (v : FVec Ideal S1x512 .f32) (r : Fin 4000) (d : Fin 512) :
    broadcastTo S4000x512 v broadcasts_S1x512_S4000x512 (ix2 r d) = v (ix2 0 d) := by
  refine broadcastTo_apply v _ (ix2 r d) (ix2 (0 : Fin 1) d) fun a => ?_
  match a with
  | ⟨0, _⟩ => rfl
  | ⟨1, _⟩ => rfl

/-- The body's main value at row r and column d of a block: the row is normalised entry by entry,
    (h - mean) * rsqrt(var + eps) * scale + shift, multiplied by the weights (a sum over the 512 shared columns),
    the bias is added and the result rectified. -/
theorem pay2_apply (x0 : FVec Ideal S4000x512 .bf16) (x1 x2 x3 x4 : FVec Ideal S1x512 .f32) (x5 : FVec Ideal S512x512 .bf16)
    (x6 : FVec Ideal S1x512 .f32) (r : Fin 4000) (d : Fin 512) :
    k2_pay2 (F := Ideal) x0 x1 x2 x3 x4 x5 x6 (ix2 r d)
      = max ((∑ k : Fin 512, ((x0 (ix2 r k) - x1 (ix2 0 k)) * Ideal.rsqrt (x2 (ix2 0 k) + eps) * x3 (ix2 0 k) + x4 (ix2 0 k)) * x5 (ix2 k d)) + x6 (ix2 0 d)) 0 := by
  unfold k2_pay2
  simp only [shapeCast_self]
  rw [maximumf_apply, addf_apply, broadcast_apply, row_spread_apply, Ideal.ofBits_def (φ := .f32) 0x00000000#32, Cert.Consts.ofBits_zero,
    Cert.LibMatProd.matmul_zero_apply dot_S4000x512_S512x512_S4000x512_1_0_0_1_n_n rfl]
  refine congrArg (fun s => max (s + x6 (ix2 0 d)) 0) (Finset.sum_congr rfl fun k _ => ?_)
  rw [truncf_apply, addf_apply, mulf_apply, mulf_apply, subf_apply, extf_apply, row_spread_apply, row_spread_apply,
    row_spread_apply, row_spread_apply]
  rfl

/-- Rounding the result to bf16 changes nothing over the extended reals. -/
theorem pay3_apply (x0 : FVec Ideal S4000x512 .bf16) (x1 x2 x3 x4 : FVec Ideal S1x512 .f32) (x5 : FVec Ideal S512x512 .bf16)
    (x6 : FVec Ideal S1x512 .f32) (j : S4000x512.Idx) :
    k2_pay3 (F := Ideal) x0 x1 x2 x3 x4 x5 x6 j = k2_pay2 (F := Ideal) x0 x1 x2 x3 x4 x5 x6 j := by
  unfold k2_pay3
  exact truncf_apply (k2_pay2 (F := Ideal) x0 x1 x2 x3 x4 x5 x6) bitsLt_bf16_f32 j

/-- The column sums of a 4000-row block, kept as a [1,1,512] array: entry (0, 0, d) is the sum over the block's rows of column d. -/
theorem colsum_apply (v : FVec Ideal S4000x512 .f32) (d : Fin 512) :
    shapeCast S1x1x512 (shapeCast S1x512 (multiReduction .add [0] S512 v 0x00000000#32 reduces_S4000x512_S512 (.inl rfl) rfl)
      shapeCasts_S512_S1x512) shapeCasts_S1x512_S1x1x512 (ix3 0 0 d) = ∑ r : Fin 4000, v (ix2 r d) := by
  rw [shapeCast_apply _ shapeCasts_S1x512_S1x1x512 (ix3 (0 : Fin 1) (0 : Fin 1) d) (ix2 (0 : Fin 1) d)
      (by rw [Shape.rowMajor_val_two, Shape.rowMajor_val_three]; show 0 * 512 + d.val = (0 * 1 + 0) * 512 + d.val; omega),
    shapeCast_apply _ shapeCasts_S512_S1x512 (ix2 (0 : Fin 1) d) (ix1 d)
      (by rw [Shape.rowMajor_val_two, Shape.rowMajor_val_one]; show d.val = 0 * 512 + d.val; omega)]
  refine (Ideal.multiReduction_add_single (φ := .f32) v 0x00000000#32 reduces_S4000x512_S512 (.inl rfl) rfl (ix1 d)).trans ?_
  show (∑ r : Fin 4000, v (reduces_S4000x512_S512.lift (ix1 d) r)) = _
  refine Finset.sum_congr rfl fun r _ => congrArg v (funext fun a => Fin.ext ?_)
  match a with
  | ⟨0, _⟩ => rfl
  | ⟨1, _⟩ => rfl

/-- The block's column sums, as the body keeps them: entry (0, 0, d) sums column d of the layer's result over the block's rows. -/
theorem pay5_apply (x0 : FVec Ideal S4000x512 .bf16) (x1 x2 x3 x4 : FVec Ideal S1x512 .f32) (x5 : FVec Ideal S512x512 .bf16)
    (x6 : FVec Ideal S1x512 .f32) (d : Fin 512) :
    k2_pay5 (F := Ideal) x0 x1 x2 x3 x4 x5 x6 (ix3 0 0 d) = ∑ r : Fin 4000, k2_pay2 (F := Ideal) x0 x1 x2 x3 x4 x5 x6 (ix2 r d) := by
  unfold k2_pay5 k2_pay4
  exact colsum_apply (k2_pay2 (F := Ideal) x0 x1 x2 x3 x4 x5 x6) d

/-- The block's column sums of squares: entry (0, 0, d) sums the squares of column d over the block's rows. -/
theorem pay1_apply (v : FVec Ideal S4000x512 .f32) (d : Fin 512) :
    k2_pay1 (F := Ideal) v (ix3 0 0 d) = ∑ r : Fin 4000, v (ix2 r d) * v (ix2 r d) := by
  unfold k2_pay1
  exact (colsum_apply (mulf v v) d).trans (Finset.sum_congr rfl fun r _ => mulf_apply v v (ix2 r d))

/-- The value read back after the bf16 rounding is the layer's result itself. -/
theorem pay4_eq (x0 : FVec Ideal S4000x512 .bf16) (x1 x2 x3 x4 : FVec Ideal S1x512 .f32) (x5 : FVec Ideal S512x512 .bf16)
    (x6 : FVec Ideal S1x512 .f32) :
    k2_pay4 (F := Ideal) x0 x1 x2 x3 x4 x5 x6 = k2_pay2 (F := Ideal) x0 x1 x2 x3 x4 x5 x6 := by
  unfold k2_pay4; rfl

/-- Row p of block t is row 4000 t + p of the whole array. -/
def blockRow (t : Fin 25) (p : Fin 4000) : Fin 100000 := ⟨t.val * 4000 + p.val, by have := t.isLt; have := p.isLt; omega⟩

/-- The body's result at row p of a block, when the block's rows are rows of H and the resident blocks are the whole
    parameter rows: the layer on the normalised row. -/
theorem layer_of_blocks (x0 : FVec Ideal S4000x512 .bf16) (x1 x2 x3 x4 : FVec Ideal S1x512 .f32) (x5 : FVec Ideal S512x512 .bf16)
    (x6 : FVec Ideal S1x512 .f32) (H : Mat 100000 512) (mu va g b : Row 512) (w : Mat 512 512) (bias : Row 512)
    (i : Fin 100000) (p : Fin 4000)
    (e0 : ∀ k, x0 (ix2 p k) = H i k) (e1 : ∀ k, x1 (ix2 0 k) = mu k) (e2 : ∀ k, x2 (ix2 0 k) = va k)
    (e3 : ∀ k, x3 (ix2 0 k) = g k) (e4 : ∀ k, x4 (ix2 0 k) = b k) (e5 : ∀ k d, x5 (ix2 k d) = w k d)
    (e6 : ∀ k, x6 (ix2 0 k) = bias k) (q : Fin 512) :
    k2_pay2 (F := Ideal) x0 x1 x2 x3 x4 x5 x6 (ix2 p q) = lin (bn H mu va g b) w bias i q := by
  rw [pay2_apply]
  unfold lin bn
  simp only [e0, e1, e2, e3, e4, e5, e6]

/-! ## Where each block sits in its array -/

/-- The zero offsets of a rank-2 block, written as a list, are the zero function; likewise at rank 3. -/
theorem zero2 : (![0, 0] : Fin 2 → Nat) = fun _ => 0 := funext fun a => by fin_cases a <;> rfl
theorem zero3 : (![0, 0, 0] : Fin 3 → Nat) = fun _ => 0 := funext fun a => by fin_cases a <;> rfl

/-- Which block of its array each window holds at grid point t: the row-blocked windows block t, the resident ones block 0. -/
theorem index_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 3) = t.val ∧ win2_8.index t (1 : Fin 3) = 0 ∧ win2_8.index t (2 : Fin 3) = 0)
    ∧ (win2_9.index t (0 : Fin 3) = t.val ∧ win2_9.index t (1 : Fin 3) = 0 ∧ win2_9.index t (2 : Fin 3) = 0) :=
  (by decide +kernel : ∀ t : Fin grid2.N, _)

-- the TensorCore's buffer contents when the region is entered: a parameter
variable (V : (c : Dev nD) → (b : Ref sig .tc) → Buf (Elt Ideal) ((c : Thread nD τ).loc b)) (c : Dev nD)

def hIn : Mat 100000 512 := mat2 (n := 100000) (a := 512) (V c main_v17_0)
def muIn : Row 512 := row2 (a := 512) (V c main_v21)
def vaIn : Row 512 := row2 (a := 512) (V c main_v27)
def gIn : Row 512 := row2 (a := 512) (V c main_v28)
def bIn : Row 512 := row2 (a := 512) (V c main_v29)
def wIn : Mat 512 512 := mat2 (n := 512) (a := 512) (V c main_v30)
def biasIn : Row 512 := row2 (a := 512) (V c main_v31)

/-- The layer's result on all rows. -/
def h2 : Mat 100000 512 := lin (bn (hIn V c) (muIn V c) (vaIn V c) (gIn V c) (bIn V c)) (wIn V c) (biasIn V c)

/-! ## The blocks of a grid point, read off the arrays the region finds -/
/-- Row p of the block of h at point t is row 4000 t + p of h. -/
theorem hblk_apply (t : Fin cfg2.N) (p : Fin 4000) (k : Fin 512) (i : Fin 100000) (hi : i.val = t.val * 4000 + p.val) :
    (iblk2 (F := Ideal) V c 0 t : FVec Ideal S4000x512 .bf16) (ix2 p k) = (V c main_v17_0 : S100000x512.Idx → EReal) (ix2 i k) := by
  obtain ⟨⟨e0, e1⟩, -⟩ := index_facts t
  unfold iblk2
  rw [View.read_apply]
  show V c main_v17_0 _ = V c main_v17_0 _
  congr 1
  funext a
  apply Fin.ext
  match a with
  | ⟨0, _⟩ => show win2_0.index t (0 : Fin 2) * 4000 + 1 * p.val = i.val; rw [e0, hi]; omega
  | ⟨1, _⟩ => show win2_0.index t (1 : Fin 2) * 512 + 1 * k.val = k.val; rw [e1]; omega

/-- The resident block of the means is the whole row of means. -/
theorem mublk_apply (t : Fin cfg2.N) (k : Fin 512) :
    (iblk2 (F := Ideal) V c 1 t : FVec Ideal S1x512 .f32) (ix2 0 k) = (V c main_v21 : S1x512.Idx → EReal) (ix2 0 k) := by
  obtain ⟨-, ⟨e0, e1⟩, -⟩ := index_facts t
  unfold iblk2
  rw [View.read_apply]
  show V c main_v21 _ = V c main_v21 _
  congr 1
  funext a
  apply Fin.ext
  match a with
  | ⟨0, _⟩ => show win2_1.index t (0 : Fin 2) * 1 + 1 * 0 = 0; rw [e0]
  | ⟨1, _⟩ => show win2_1.index t (1 : Fin 2) * 512 + 1 * k.val = k.val; rw [e1]; omega

/-- The resident block of the variances is the whole row of variances. -/
theorem vablk_apply (t : Fin cfg2.N) (k : Fin 512) :
    (iblk2 (F := Ideal) V c 2 t : FVec Ideal S1x512 .f32) (ix2 0 k) = (V c main_v27 : S1x512.Idx → EReal) (ix2 0 k) := by
  obtain ⟨-, -, ⟨e0, e1⟩, -⟩ := index_facts t
  unfold iblk2
  rw [View.read_apply]
  show V c main_v27 _ = V c main_v27 _
  congr 1
  funext a
  apply Fin.ext
  match a with
  | ⟨0, _⟩ => show win2_2.index t (0 : Fin 2) * 1 + 1 * 0 = 0; rw [e0]
  | ⟨1, _⟩ => show win2_2.index t (1 : Fin 2) * 512 + 1 * k.val = k.val; rw [e1]; omega

/-- The resident block of the scales is the whole row of scales. -/
theorem gblk_apply (t : Fin cfg2.N) (k : Fin 512) :
    (iblk2 (F := Ideal) V c 3 t : FVec Ideal S1x512 .f32) (ix2 0 k) = (V c main_v28 : S1x512.Idx → EReal) (ix2 0 k) := by
  obtain ⟨-, -, -, ⟨e0, e1⟩, -⟩ := index_facts t
  unfold iblk2
  rw [View.read_apply]
  show V c main_v28 _ = V c main_v28 _
  congr 1
  funext a
  apply Fin.ext
  match a with
  | ⟨0, _⟩ => show win2_3.index t (0 : Fin 2) * 1 + 1 * 0 = 0; rw [e0]
  | ⟨1, _⟩ => show win2_3.index t (1 : Fin 2) * 512 + 1 * k.val = k.val; rw [e1]; omega

/-- The resident block of the shifts is the whole row of shifts. -/
theorem bblk_apply (t : Fin cfg2.N) (k : Fin 512) :
    (iblk2 (F := Ideal) V c 4 t : FVec Ideal S1x512 .f32) (ix2 0 k) = (V c main_v29 : S1x512.Idx → EReal) (ix2 0 k) := by
  obtain ⟨-, -, -, -, ⟨e0, e1⟩, -⟩ := index_facts t
  unfold iblk2
  rw [View.read_apply]
  show V c main_v29 _ = V c main_v29 _
  congr 1
  funext a
  apply Fin.ext
  match a with
  | ⟨0, _⟩ => show win2_4.index t (0 : Fin 2) * 1 + 1 * 0 = 0; rw [e0]
  | ⟨1, _⟩ => show win2_4.index t (1 : Fin 2) * 512 + 1 * k.val = k.val; rw [e1]; omega

/-- The resident block of the weights is the whole weight matrix. -/
theorem wblk_apply (t : Fin cfg2.N) (k d : Fin 512) :
    (iblk2 (F := Ideal) V c 5 t : FVec Ideal S512x512 .bf16) (ix2 k d) = (V c main_v30 : S512x512.Idx → EReal) (ix2 k d) := by
  obtain ⟨-, -, -, -, -, ⟨e0, e1⟩, -⟩ := index_facts t
  unfold iblk2
  rw [View.read_apply]
  show V c main_v30 _ = V c main_v30 _
  congr 1
  funext a
  apply Fin.ext
  match a with
  | ⟨0, _⟩ => show win2_5.index t (0 : Fin 2) * 512 + 1 * k.val = k.val; rw [e0]; omega
  | ⟨1, _⟩ => show win2_5.index t (1 : Fin 2) * 512 + 1 * d.val = d.val; rw [e1]; omega

/-- The resident block of the bias is the whole bias row. -/
theorem biasblk_apply (t : Fin cfg2.N) (k : Fin 512) :
    (iblk2 (F := Ideal) V c 6 t : FVec Ideal S1x512 .f32) (ix2 0 k) = (V c main_v31 : S1x512.Idx → EReal) (ix2 0 k) := by
  obtain ⟨-, -, -, -, -, -, ⟨e0, e1⟩, -⟩ := index_facts t
  unfold iblk2
  rw [View.read_apply]
  show V c main_v31 _ = V c main_v31 _
  congr 1
  funext a
  apply Fin.ext
  match a with
  | ⟨0, _⟩ => show win2_6.index t (0 : Fin 2) * 1 + 1 * 0 = 0; rw [e0]
  | ⟨1, _⟩ => show win2_6.index t (1 : Fin 2) * 512 + 1 * k.val = k.val; rw [e1]; omega

/-- The body's result at row p of the blocks of point t is the layer's result at row 4000 t + p. -/
theorem layer_at_point (t : Fin cfg2.N) (p : Fin 4000) (q : Fin 512) (i : Fin 100000) (hi : i.val = t.val * 4000 + p.val) :
    k2_pay2 (F := Ideal) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (ix2 p q) = h2 V c i q :=
  layer_of_blocks (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t)
    (hIn V c) (muIn V c) (vaIn V c) (gIn V c) (bIn V c) (wIn V c) (biasIn V c) i p
    (fun k => hblk_apply V c t p k i hi) (fun k => mublk_apply V c t k) (fun k => vablk_apply V c t k)
    (fun k => gblk_apply V c t k) (fun k => bblk_apply V c t k) (fun k d => wblk_apply V c t k d)
    (fun k => biasblk_apply V c t k) q

/-! ## The first output: the layer's result on all rows -/
/-- What the first output ends holding: the layer's result, entry by entry. -/
def wholeH : S100000x512.Idx → EReal := fun i => h2 V c (i 0) (i 1)

/-- Point t writes back block t of the layer's result. -/
theorem flushed_h (t : Fin cfg2.N) :
    (dat2 (F := Ideal) V c).flushed 7 t = ((cfg2.win 7).blk t).view.read (Elt Ideal) (wholeH V c) := by
  show (cfg2.win 7).cut (grid2.coords t) ((dat2 (F := Ideal) V c).after 7 t) = _
  rw [after2_7]
  unfold out2_7
  rw [View.canon_unit_zero zero2]
  simp only [View.ld_unit_zero (S := S4000x512) zero2, View.ld_unit_zero (S := S1x512) zero2, View.ld_unit_zero (S := S512x512) zero2]
  funext j
  obtain ⟨p, q, rfl⟩ : ∃ (p : Fin 4000) (q : Fin 512), j = ix2 p q := ⟨j 0, j 1, eq_ix2 j⟩
  obtain ⟨-, -, -, -, -, -, -, ⟨e0, e1⟩, -⟩ := index_facts t
  have hi : ((((cfg2.win 7).blk t).view.emb (ix2 p q)) 0).val = t.val * 4000 + p.val := by
    show win2_7.index t (0 : Fin 2) * 4000 + 1 * p.val = _; rw [e0]; omega
  have hq : (((cfg2.win 7).blk t).view.emb (ix2 p q)) 1 = q :=
    Fin.ext (by show win2_7.index t (1 : Fin 2) * 512 + 1 * q.val = q.val; rw [e1]; omega)
  rw [View.read_apply]
  show k2_pay3 (F := Ideal) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (ix2 p q)
    = h2 V c ((((cfg2.win 7).blk t).view.emb (ix2 p q)) 0) ((((cfg2.win 7).blk t).view.emb (ix2 p q)) 1)
  rw [hq]
  exact (pay3_apply (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (ix2 p q)).trans (layer_at_point V c t p q _ hi)

/-- An entry of the first output is in point t's block iff its row is one of the block's 4000. -/
theorem mem_blk_h (t : Fin cfg2.N) (i : S100000x512.Idx) :
    i ∈ ((cfg2.win 7).blk t).view.set ↔ ∀ a : Fin 2, win2_7.index t a * S4000x512.size a ≤ (i a).val
      ∧ (i a).val < win2_7.index t a * S4000x512.size a + S4000x512.size a := by
  show i ∈ ((View.whole main_v32_0).slice (win2_7.rect t)).set ↔ _
  rw [View.set_slice_whole, Rect.mem_set_unit]
  exact Iff.rfl

/-- The 25 blocks of 4000 rows cover the 100000 rows (row i is in block i / 4000), so the first output ends holding
    the layer's result. -/
theorem out_h_whole : (dat2 (F := Ideal) V c).arrAt 7 cfg2.N = wholeH V c :=
  (dat2 (F := Ideal) V c).arrAt_eq_of_cover 7 (wholeH V c) (fun t _ => flushed_h V c t) fun i => by
    have hi0 : (i 0).val < 100000 := (i 0).isLt
    have hi1 : (i 1).val < 512 := (i 1).isLt
    obtain ⟨t, ht⟩ : ∃ t : Fin cfg2.N, t.val = (i 0).val / 4000 :=
      ⟨⟨(i 0).val / 4000, by rw [show cfg2.N = 25 from N_2]; omega⟩, rfl⟩
    obtain ⟨-, -, -, -, -, -, -, ⟨e0, e1⟩, -⟩ := index_facts t
    refine ⟨t, flush2_7 t, ?_⟩
    rw [mem_blk_h]
    intro a
    match a with
    | ⟨0, _⟩ =>
      show win2_7.index t (0 : Fin 2) * 4000 ≤ (i 0).val ∧ (i 0).val < win2_7.index t (0 : Fin 2) * 4000 + 4000
      rw [e0, ht]; omega
    | ⟨1, _⟩ =>
      show win2_7.index t (1 : Fin 2) * 512 ≤ (i 1).val ∧ (i 1).val < win2_7.index t (1 : Fin 2) * 512 + 512
      rw [e1]; omega

/-- The first output, read as a matrix, is the layer's result on all 100000 rows. -/
theorem out_h : mat2 (n := 100000) (a := 512) ((dat2 (F := Ideal) V c).arrAt 7 cfg2.N) = h2 V c := by
  rw [out_h_whole]; rfl

/-! ## The second and third outputs: per block, the column sums of the result and of its squares -/

/-- What the second output ends holding: per block of 4000 rows, the sums of the layer's result down each column. -/
def wholeSum : S25x1x512.Idx → EReal := fun i => ∑ r : Fin 4000, h2 V c (blockRow (i 0) r) (i 2)

/-- Point t writes back the column sums of the layer's result over rows 4000 t … 4000 t + 3999. -/
theorem flushed_sum (t : Fin cfg2.N) :
    (dat2 (F := Ideal) V c).flushed 8 t = ((cfg2.win 8).blk t).view.read (Elt Ideal) (wholeSum V c) := by
  show (cfg2.win 8).cut (grid2.coords t) ((dat2 (F := Ideal) V c).after 8 t) = _
  rw [after2_8]
  unfold out2_8
  rw [View.canon_unit_zero zero3]
  simp only [View.ld_unit_zero (S := S4000x512) zero2, View.ld_unit_zero (S := S1x512) zero2, View.ld_unit_zero (S := S512x512) zero2]
  funext j
  obtain ⟨a, b, q, rfl⟩ : ∃ (a b : Fin 1) (q : Fin 512), j = ix3 a b q := ⟨j 0, j 1, j 2, eq_ix3 j⟩
  obtain rfl : a = 0 := Subsingleton.elim _ _
  obtain rfl : b = 0 := Subsingleton.elim _ _
  obtain ⟨-, -, -, -, -, -, -, -, ⟨e0, e1, e2⟩, -⟩ := index_facts t
  have h0 : ((((cfg2.win 8).blk t).view.emb (ix3 0 0 q)) 0).val = t.val := by
    show win2_8.index t (0 : Fin 3) * 1 + 1 * 0 = _; rw [e0]; omega
  have hq : (((cfg2.win 8).blk t).view.emb (ix3 0 0 q)) 2 = q :=
    Fin.ext (by show win2_8.index t (2 : Fin 3) * 512 + 1 * q.val = q.val; rw [e2]; omega)
  rw [View.read_apply]
  show k2_pay5 (F := Ideal) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) (ix3 0 0 q)
    = ∑ r : Fin 4000, h2 V c (blockRow ((((cfg2.win 8).blk t).view.emb (ix3 0 0 q)) 0) r) ((((cfg2.win 8).blk t).view.emb (ix3 0 0 q)) 2)
  rw [hq]
  refine (pay5_apply (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t) q).trans (Finset.sum_congr rfl fun r _ => ?_)
  exact layer_at_point V c t r q _ (by show ((((cfg2.win 8).blk t).view.emb (ix3 0 0 q)) 0).val * 4000 + r.val = _; rw [h0])

/-- An entry of this output is in point t's block iff its leading coordinate is t's. -/
theorem mem_blk_sum (t : Fin cfg2.N) (i : S25x1x512.Idx) :
    i ∈ ((cfg2.win 8).blk t).view.set ↔ ∀ a : Fin 3, win2_8.index t a * S1x1x512.size a ≤ (i a).val
      ∧ (i a).val < win2_8.index t a * S1x1x512.size a + S1x1x512.size a := by
  show i ∈ ((View.whole main_v32_1).slice (win2_8.rect t)).set ↔ _
  rw [View.set_slice_whole, Rect.mem_set_unit]
  exact Iff.rfl

/-- One block per point and 25 points: the 25 leading coordinates are covered, so the second output ends holding the per-block column sums. -/
theorem out_sum_whole : (dat2 (F := Ideal) V c).arrAt 8 cfg2.N = wholeSum V c :=
  (dat2 (F := Ideal) V c).arrAt_eq_of_cover 8 (wholeSum V c) (fun t _ => flushed_sum V c t) fun i => by
    have hi0 : (i 0).val < 25 := (i 0).isLt
    have hi1 : (i 1).val < 1 := (i 1).isLt
    have hi2 : (i 2).val < 512 := (i 2).isLt
    obtain ⟨t, ht⟩ : ∃ t : Fin cfg2.N, t.val = (i 0).val :=
      ⟨⟨(i 0).val, by rw [show cfg2.N = 25 from N_2]; omega⟩, rfl⟩
    obtain ⟨-, -, -, -, -, -, -, -, ⟨e0, e1, e2⟩, -⟩ := index_facts t
    refine ⟨t, flush2_8 t, ?_⟩
    rw [mem_blk_sum]
    intro a
    match a with
    | ⟨0, _⟩ =>
      show win2_8.index t (0 : Fin 3) * 1 ≤ (i 0).val ∧ (i 0).val < win2_8.index t (0 : Fin 3) * 1 + 1
      rw [e0, ht]; omega
    | ⟨1, _⟩ =>
      show win2_8.index t (1 : Fin 3) * 1 ≤ (i 1).val ∧ (i 1).val < win2_8.index t (1 : Fin 3) * 1 + 1
      rw [e1]; omega
    | ⟨2, _⟩ =>
      show win2_8.index t (2 : Fin 3) * 512 ≤ (i 2).val ∧ (i 2).val < win2_8.index t (2 : Fin 3) * 512 + 512
      rw [e2]; omega

/-- What the third output ends holding: per block of 4000 rows, the sums of the squares of the layer's result down each column. -/
def wholeSumSq : S25x1x512.Idx → EReal := fun i => ∑ r : Fin 4000, h2 V c (blockRow (i 0) r) (i 2) * h2 V c (blockRow (i 0) r) (i 2)

/-- Point t writes back the column sums of squares of the layer's result over rows 4000 t … 4000 t + 3999. -/
theorem flushed_sumsq (t : Fin cfg2.N) :
    (dat2 (F := Ideal) V c).flushed 9 t = ((cfg2.win 9).blk t).view.read (Elt Ideal) (wholeSumSq V c) := by
  show (cfg2.win 9).cut (grid2.coords t) ((dat2 (F := Ideal) V c).after 9 t) = _
  rw [after2_9]
  unfold out2_9
  rw [View.canon_unit_zero zero3]
  simp only [View.ld_unit_zero (S := S4000x512) zero2, View.ld_unit_zero (S := S1x512) zero2, View.ld_unit_zero (S := S512x512) zero2]
  funext j
  obtain ⟨a, b, q, rfl⟩ : ∃ (a b : Fin 1) (q : Fin 512), j = ix3 a b q := ⟨j 0, j 1, j 2, eq_ix3 j⟩
  obtain rfl : a = 0 := Subsingleton.elim _ _
  obtain rfl : b = 0 := Subsingleton.elim _ _
  obtain ⟨-, -, -, -, -, -, -, -, -, ⟨e0, e1, e2⟩⟩ := index_facts t
  have h0 : ((((cfg2.win 9).blk t).view.emb (ix3 0 0 q)) 0).val = t.val := by
    show win2_9.index t (0 : Fin 3) * 1 + 1 * 0 = _; rw [e0]; omega
  have hq : (((cfg2.win 9).blk t).view.emb (ix3 0 0 q)) 2 = q :=
    Fin.ext (by show win2_9.index t (2 : Fin 3) * 512 + 1 * q.val = q.val; rw [e2]; omega)
  rw [View.read_apply]
  show k2_pay1 (F := Ideal) (k2_pay4 (F := Ideal) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t)) (ix3 0 0 q)
    = ∑ r : Fin 4000, h2 V c (blockRow ((((cfg2.win 9).blk t).view.emb (ix3 0 0 q)) 0) r) ((((cfg2.win 9).blk t).view.emb (ix3 0 0 q)) 2) * h2 V c (blockRow ((((cfg2.win 9).blk t).view.emb (ix3 0 0 q)) 0) r) ((((cfg2.win 9).blk t).view.emb (ix3 0 0 q)) 2)
  rw [hq]
  rw [pay4_eq]
  refine (pay1_apply (k2_pay2 (F := Ideal) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) (iblk2 (F := Ideal) V c 6 t)) q).trans (Finset.sum_congr rfl fun r _ => ?_)
  rw [layer_at_point V c t r q _ (show (blockRow ((((cfg2.win 9).blk t).view.emb (ix3 0 0 q)) 0) r).val = t.val * 4000 + r.val by
    show ((((cfg2.win 9).blk t).view.emb (ix3 0 0 q)) 0).val * 4000 + r.val = _; rw [h0])]

/-- An entry of this output is in point t's block iff its leading coordinate is t's. -/
theorem mem_blk_sumsq (t : Fin cfg2.N) (i : S25x1x512.Idx) :
    i ∈ ((cfg2.win 9).blk t).view.set ↔ ∀ a : Fin 3, win2_9.index t a * S1x1x512.size a ≤ (i a).val
      ∧ (i a).val < win2_9.index t a * S1x1x512.size a + S1x1x512.size a := by
  show i ∈ ((View.whole main_v32_2).slice (win2_9.rect t)).set ↔ _
  rw [View.set_slice_whole, Rect.mem_set_unit]
  exact Iff.rfl

/-- Likewise the third output ends holding the per-block column sums of squares. -/
theorem out_sumsq_whole : (dat2 (F := Ideal) V c).arrAt 9 cfg2.N = wholeSumSq V c :=
  (dat2 (F := Ideal) V c).arrAt_eq_of_cover 9 (wholeSumSq V c) (fun t _ => flushed_sumsq V c t) fun i => by
    have hi0 : (i 0).val < 25 := (i 0).isLt
    have hi1 : (i 1).val < 1 := (i 1).isLt
    have hi2 : (i 2).val < 512 := (i 2).isLt
    obtain ⟨t, ht⟩ : ∃ t : Fin cfg2.N, t.val = (i 0).val :=
      ⟨⟨(i 0).val, by rw [show cfg2.N = 25 from N_2]; omega⟩, rfl⟩
    obtain ⟨-, -, -, -, -, -, -, -, -, ⟨e0, e1, e2⟩⟩ := index_facts t
    refine ⟨t, flush2_9 t, ?_⟩
    rw [mem_blk_sumsq]
    intro a
    match a with
    | ⟨0, _⟩ =>
      show win2_9.index t (0 : Fin 3) * 1 ≤ (i 0).val ∧ (i 0).val < win2_9.index t (0 : Fin 3) * 1 + 1
      rw [e0, ht]; omega
    | ⟨1, _⟩ =>
      show win2_9.index t (1 : Fin 3) * 1 ≤ (i 1).val ∧ (i 1).val < win2_9.index t (1 : Fin 3) * 1 + 1
      rw [e1]; omega
    | ⟨2, _⟩ =>
      show win2_9.index t (2 : Fin 3) * 512 ≤ (i 2).val ∧ (i 2).val < win2_9.index t (2 : Fin 3) * 512 + 512
      rw [e2]; omega

/-- Row t of the second output holds, column by column, the sum of the layer's result over the 4000 rows of block t. -/
theorem out_sum (t : Fin 25) (d : Fin 512) :
    part3 (T := 25) (a := 512) ((dat2 (F := Ideal) V c).arrAt 8 cfg2.N) t d
      = ∑ r : Fin 4000, h2 V c ⟨t.val * 4000 + r.val, by have := t.isLt; have := r.isLt; omega⟩ d := by
  show (dat2 (F := Ideal) V c).arrAt 8 cfg2.N (ix3 t 0 d) = _
  rw [out_sum_whole]; rfl

/-- Row t of the third output holds, column by column, the sum of the squares of the layer's result over block t. -/
theorem out_sumsq (t : Fin 25) (d : Fin 512) :
    part3 (T := 25) (a := 512) ((dat2 (F := Ideal) V c).arrAt 9 cfg2.N) t d
      = ∑ r : Fin 4000, h2 V c ⟨t.val * 4000 + r.val, by have := t.isLt; have := r.isLt; omega⟩ d * h2 V c ⟨t.val * 4000 + r.val, by have := t.isLt; have := r.isLt; omega⟩ d := by
  show (dat2 (F := Ideal) V c).arrAt 9 cfg2.N (ix3 t 0 d) = _
  rw [out_sumsq_whole]; rfl

end Cert.KernelIdeal.Region2

end
-- ==== Proof.LibMatProdT.lean ====
/-
  A transposed-left matrix product on the extended reals as a sum over the shared axis.

  For the dimension numbers of a `K × A` by `K × B` product that contracts axis 0 of BOTH operands
  (`tdims K A B`: the left operand's axis 0 with the right operand's axis 0, no batch axes; the result's rows are the
  left operand's columns, its columns the right operand's), a kernel's `tpu.matmul` into a zero accumulator and a host
  `dot_general` are, at entry `(a, b)`, the sum over `k : Fin K` of `lhs (k, a) * rhs (k, b)`: the product of the
  transposed left operand with the right one. A printed record with these six lists is `tdims` by `rfl`.
-/
import Idealize.ShloMosaic.PureOps.Ideal.Laws
import Idealize.ShloMosaic.Lib.ValueIdx

noncomputable section

namespace Cert.LibMatProdT

open Idealize.ShloMosaic Idealize.ShloMosaic.ValueIdx

/-- `K×A` by `K×B`, both operands contracted on their first axis: contracting axes `[0]` and `[0]`, non-contracting axes
    `[1]` and `[1]`, no batch axes; the result is `A×B`. -/
def tdims (K A B : ℕ) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K A B : ℕ)

/-- The left operand's index at result index `i` and contraction index `q`: row `q`'s one coordinate … -/
theorem lhs_axis0 (i : (⟨2, ![A, B]⟩ : Shape).Idx) (q : (tdims K A B).contr.Idx) :
    ((tdims K A B).lhsIdx i q 0).val = (q ⟨0, Nat.one_pos⟩).val :=
  (tdims K A B).lhsIdx_val_of_single rfl i q
/-- … column `i 0`. -/
theorem lhs_axis1 (i : (⟨2, ![A, B]⟩ : Shape).Idx) (q : (tdims K A B).contr.Idx) :
    ((tdims K A B).lhsIdx i q 1).val = (i 0).val := by
  unfold DotDims.lhsIdx
  rw [dif_neg (show ¬(1 : Fin (⟨2, ![K, A]⟩ : Shape).rank) ∈ (tdims K A B).lhsBatch from List.not_mem_nil),
    dif_pos (show (1 : Fin (⟨2, ![K, A]⟩ : Shape).rank) ∈ (tdims K A B).lhsNonContracting from List.mem_singleton.2 rfl)]
  rfl
/-- The right operand's index: row `q`'s one coordinate … -/
theorem rhs_axis0 (i : (⟨2, ![A, B]⟩ : Shape).Idx) (q : (tdims K A B).contr.Idx) :
    ((tdims K A B).rhsIdx i q 0).val = (q ⟨0, Nat.one_pos⟩).val :=
  (tdims K A B).rhsIdx_val_of_single rfl i q
/-- … column `i 1`. -/
theorem rhs_axis1 (i : (⟨2, ![A, B]⟩ : Shape).Idx) (q : (tdims K A B).contr.Idx) :
    ((tdims K A B).rhsIdx i q 1).val = (i 1).val := by
  unfold DotDims.rhsIdx
  rw [dif_neg (show ¬(1 : Fin (⟨2, ![K, B]⟩ : Shape).rank) ∈ (tdims K A B).rhsBatch from List.not_mem_nil),
    dif_pos (show (1 : Fin (⟨2, ![K, B]⟩ : Shape).rank) ∈ (tdims K A B).rhsNonContracting from List.mem_singleton.2 rfl)]
  rfl

/-- The sum over the contraction index of a transposed-left product is the sum over `k : Fin K`. -/
theorem tdims_sum (l : (⟨2, ![K, A]⟩ : Shape).Idx → EReal) (r : (⟨2, ![K, B]⟩ : Shape).Idx → EReal) (a : Fin A) (b : Fin B) :
    (∑ q : (tdims K A B).contr.Idx,
        l ((tdims K A B).lhsIdx (ix2 a b) q) * r ((tdims K A B).rhsIdx (ix2 a b) q))
      = ∑ k : Fin K, l (ix2 k a) * r (ix2 k b) := by
  rw [← Equiv.sum_comp (contrEquiv1 (tdims K A B) K rfl rfl).symm]
  refine Finset.sum_congr rfl fun k _ => ?_
  have hk := contrEquiv1_symm_val (tdims K A B) K rfl rfl k
  have el : (tdims K A B).lhsIdx (ix2 a b) ((contrEquiv1 (tdims K A B) K rfl rfl).symm k) = ix2 k a :=
    funext fun ax => Fin.ext (by
      match ax with
      | ⟨0, _⟩ => exact (lhs_axis0 K A B _ _).trans hk
      | ⟨1, _⟩ => exact lhs_axis1 K A B _ _)
  have er : (tdims K A B).rhsIdx (ix2 a b) ((contrEquiv1 (tdims K A B) K rfl rfl).symm k) = ix2 k b :=
    funext fun ax => Fin.ext (by
      match ax with
      | ⟨0, _⟩ => exact (rhs_axis0 K A B _ _).trans hk
      | ⟨1, _⟩ => exact rhs_axis1 K A B _ _)
  rw [el, er]

variable {K A B}

/-- A kernel's transposed-left matrix product into a zero accumulator, at entry `(a, b)`. -/
theorem matmul_zero_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 k a) * rhs (ix2 k b) := by
  subst hd
  exact (Ideal.matmul_constant_zero_apply _ prec lhs rhs (ix2 a b)).trans (tdims_sum K A B lhs rhs a b)

/-- A host `dot_general` with these dimension numbers, at entry `(a, b)`. -/
theorem dotGeneral_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    Host.dotGeneral d prec lhs rhs (ix2 a b) = ∑ k : Fin K, lhs (ix2 k a) * rhs (ix2 k b) := by
  subst hd
  exact (Ideal.dotGeneral_apply _ prec .single lhs rhs (ix2 a b)).trans (tdims_sum K A B lhs rhs a b)

end Cert.LibMatProdT

end
-- ==== Proof.Region3.lean ====
/-
  Region 3: per block of 4000 rows, one layer on the normalised rows; the column sums of the result and of its squares;
  and the block's share of the pooled value, the one-hot membership matrix transposed times the result.

  The road: first each payload of the body read at one index, over arbitrary loaded blocks (the layer's entry is a
  clamped sum over the 512 shared columns; the two reductions are sums down the block's 4000 rows; the pooled share is a
  sum down the rows of membership times result). Then each loaded block read off the region's arrays (the row-blocked
  arrays at rows 4000 t + r, the resident ones whole), so that what grid point t writes back is block t of one
  whole-array function per output; the 25 blocks tile each output array, so the array is that function.
-/
import proofs.«412217_j43164421324860_3_alg».proof.Proof.Gen.KernelIdeal.Frame
import proofs.«412217_j43164421324860_3_alg».proof.Proof.KAcc
import proofs.«412217_j43164421324860_3_alg».proof.Proof.LibMatProd
import proofs.«412217_j43164421324860_3_alg».proof.Proof.LibMatProdT
import Idealize.ShloMosaic.Lib.Pipeline.Value
import Idealize.ShloMosaic.Lib.ValueLayout

set_option maxRecDepth 16384

noncomputable section

open scoped BigOperators

namespace Cert.KernelIdeal.Region3

open Cert.KernelIdeal Cert.KernelIdeal.Gen Cert.KernelIdeal.Acc Cert.Spec
open Idealize.ShloMosaic Idealize.ShloMosaic.TcCoe Idealize.ShloMosaic.ValueIdx Idealize.SL.Sem

/-! ## The body's payloads at an index, over arbitrary loaded blocks -/

/-- One layer on a block of 4000 normalised rows, entry (r, d): the row is normalised column by column with the
    resident mean, variance, scale and shift rows, multiplied into column d of the weights, the bias added, and the
    result clamped below at zero. The two changes of float format are the identity on the extended reals. -/
theorem pay3_apply (x0 : Vec Ideal S4000x512 .bf16) (x1 x2 x3 x4 : Vec Ideal S1x512 .f32) (x5 : Vec Ideal S512x512 .bf16)
    (x6 : Vec Ideal S1x512 .f32) (r : Fin 4000) (d : Fin 512) :
    k3_pay3 (F := Ideal) x0 x1 x2 x3 x4 x5 x6 (ix2 r d)
      = max ((∑ k : Fin 512, ((x0 (ix2 r k) - x1 (ix2 0 k)) * Ideal.rsqrt (x2 (ix2 0 k) + eps) * x3 (ix2 0 k) + x4 (ix2 0 k)) * x5 (ix2 k d)) + x6 (ix2 0 d)) 0 := by
  unfold k3_pay3
  simp only [shapeCast_self, Ideal.ofBits_def]
  rw [maximumf_apply, addf_apply, broadcast_apply, Cert.Consts.ofBits_zero,
    Cert.LibMatProd.matmul_zero_apply dot_S4000x512_S512x512_S4000x512_1_0_0_1_n_n rfl, broadcastTo_1b_ab_apply]
  refine congrArg₂ max (congrArg₂ (· + ·) (Finset.sum_congr rfl fun k _ => ?_) rfl) rfl
  rw [truncf_apply, addf_apply, mulf_apply, mulf_apply, subf_apply, extf_apply,
    broadcastTo_1b_ab_apply, broadcastTo_1b_ab_apply, broadcastTo_1b_ab_apply, broadcastTo_1b_ab_apply]
  rfl

/-- The sum down a block's 4000 rows, read at column d. -/
theorem colsum_apply (v : FVec Ideal S4000x512 .f32) (d : Fin 512) :
    multiReduction .add [0] S512 v 0x00000000#32 reduces_S4000x512_S512 (.inl rfl) rfl (ix1 d) = ∑ r : Fin 4000, v (ix2 r d) := by
  refine (Ideal.multiReduction_add_single v 0x00000000#32 reduces_S4000x512_S512 (.inl rfl) rfl (ix1 d)).trans ?_
  show (∑ r : Fin 4000, v (reduces_S4000x512_S512.lift (ix1 d) r)) = _
  refine Finset.sum_congr rfl fun r _ => congrArg v (funext fun a => ?_)
  match a with
  | ⟨0, _⟩ => rfl
  | ⟨1, _⟩ => rfl

/-- The column sums of the layer's result on the block. -/
theorem pay6_apply (x0 : Vec Ideal S4000x512 .bf16) (x1 x2 x3 x4 : Vec Ideal S1x512 .f32) (x5 : Vec Ideal S512x512 .bf16)
    (x6 : Vec Ideal S1x512 .f32) (d : Fin 512) :
    k3_pay6 (F := Ideal) x0 x1 x2 x3 x4 x5 x6 (ix3 0 0 d) = ∑ r : Fin 4000, k3_pay3 (F := Ideal) x0 x1 x2 x3 x4 x5 x6 (ix2 r d) := by
  unfold k3_pay6 k3_pay5
  rw [shapeCast_ab_1ab_apply, shapeCast_a_1a_apply, colsum_apply]

/-- The column sums of the squares of a block. -/
theorem pay1_apply (v : FVec Ideal S4000x512 .f32) (d : Fin 512) :
    k3_pay1 (F := Ideal) v (ix3 0 0 d) = ∑ r : Fin 4000, v (ix2 r d) * v (ix2 r d) := by
  unfold k3_pay1
  rw [shapeCast_ab_1ab_apply, shapeCast_a_1a_apply, colsum_apply]
  rfl

/-- The membership block transposed times a block: entry (g, d) sums, over the block's rows, membership in segment g
    times the row's entry in column d. -/
theorem pay2_apply (v32 : FVec Ideal S4000x512 .bf16) (v43 : Vec Ideal S4000x64 .bf16) (g : Fin 64) (d : Fin 512) :
    k3_pay2 (F := Ideal) v32 v43 (ix3 0 g d) = ∑ r : Fin 4000, v43 (ix2 r g) * v32 (ix2 r d) := by
  unfold k3_pay2
  simp only [shapeCast_self]
  rw [shapeCast_ab_1ab_apply, Cert.LibMatProdT.matmul_zero_apply dot_S4000x64_S4000x512_S64x512_0_0_1_1_n_n rfl]

/-! ## The region's arrays as matrices and rows -/

-- the TensorCore's buffer contents when the region is entered: a parameter
variable (V : (c : Dev nD) → (b : Ref sig .tc) → Buf (Elt Ideal) ((c : Thread nD τ).loc b)) (c : Dev nD)

def hIn : Mat 100000 512 := mat2 (n := 100000) (a := 512) (V c main_v32_0)
def muIn : Row 512 := row2 (a := 512) (V c main_v36)
def vaIn : Row 512 := row2 (a := 512) (V c main_v42)
def gIn : Row 512 := row2 (a := 512) (V c main_v28)
def bIn : Row 512 := row2 (a := 512) (V c main_v29)
def wIn : Mat 512 512 := mat2 (n := 512) (a := 512) (V c main_v43)
def biasIn : Row 512 := row2 (a := 512) (V c main_v44)
/-- The membership matrix: row i, segment g. -/
def ohIn : Mat 100000 64 := mat2 (n := 100000) (a := 64) (V c main_v51)

/-- The layer's result on all rows (never stored whole). -/
def h3 : Mat 100000 512 := lin (bn (hIn V c) (muIn V c) (vaIn V c) (gIn V c) (bIn V c)) (wIn V c) (biasIn V c)

/-! ## The loaded blocks, read off the region's arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row-blocked inputs and the three outputs sit at block (t, 0[, 0]),
    the resident inputs at block (0, 0). -/
theorem idx_rows : ∀ t : Fin cfg3.N,
    win3_0.index t (0 : Fin 2) = t.val ∧ win3_0.index t (1 : Fin 2) = 0
    ∧ win3_7.index t (0 : Fin 2) = t.val ∧ win3_7.index t (1 : Fin 2) = 0 :=
  (by decide +kernel : ∀ t : Fin grid3.N, _)

theorem idx_resident : ∀ t : Fin cfg3.N,
    win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem idx_out : ∀ t : Fin cfg3.N,
    win3_8.index t (0 : Fin 3) = t.val ∧ win3_8.index t (1 : Fin 3) = 0 ∧ win3_8.index t (2 : Fin 3) = 0
    ∧ win3_9.index t (0 : Fin 3) = t.val ∧ win3_9.index t (1 : Fin 3) = 0 ∧ win3_9.index t (2 : Fin 3) = 0
    ∧ win3_10.index t (0 : Fin 3) = t.val ∧ win3_10.index t (1 : Fin 3) = 0 ∧ win3_10.index t (2 : Fin 3) = 0 :=
  (by decide +kernel : ∀ t : Fin grid3.N, _)

set_option maxHeartbeats 400000 in
/-- Block t of the layer's input is rows 4000 t … 4000 t + 3999 of the array. -/
theorem blk0_apply (t : Fin cfg3.N) (r : Fin 4000) (k : Fin 512) (i : Fin 100000) (hi : i.val = t.val * 4000 + r.val) :
    (iblk3 V c 0 t : Vec Ideal S4000x512 .bf16) (ix2 r k) = (V c main_v32_0 : S100000x512.Idx → EReal) (ix2 i k) := by
  unfold iblk3
  rw [View.read_apply]
  show (V c main_v32_0 : S100000x512.Idx → EReal) _ = _
  refine congrArg (V c main_v32_0 : S100000x512.Idx → EReal) (funext fun a => Fin.ext ?_)
  match a with
  | ⟨0, _⟩ => show win3_0.index t (0 : Fin 2) * 4000 + 1 * r.val = i.val; rw [(idx_rows t).1, hi]; omega
  | ⟨1, _⟩ => show win3_0.index t (1 : Fin 2) * 512 + 1 * k.val = k.val; rw [(idx_rows t).2.1]; omega

/-- Block t of the membership matrix is rows 4000 t … 4000 t + 3999 of the array. -/
theorem blk7_apply (t : Fin cfg3.N) (r : Fin 4000) (g : Fin 64) (i : Fin 100000) (hi : i.val = t.val * 4000 + r.val) :
    (iblk3 V c 7 t : Vec Ideal S4000x64 .bf16) (ix2 r g) = (V c main_v51 : S100000x64.Idx → EReal) (ix2 i g) := by
  unfold iblk3
  rw [View.read_apply]
  show (V c main_v51 : S100000x64.Idx → EReal) _ = _
  refine congrArg (V c main_v51 : S100000x64.Idx → EReal) (funext fun a => Fin.ext ?_)
  match a with
  | ⟨0, _⟩ => show win3_7.index t (0 : Fin 2) * 4000 + 1 * r.val = i.val; rw [(idx_rows t).2.2.1, hi]; omega
  | ⟨1, _⟩ => show win3_7.index t (1 : Fin 2) * 64 + 1 * g.val = g.val; rw [(idx_rows t).2.2.2]; omega

/-- Each resident window's one block is its whole array. -/
theorem blk1_apply (t : Fin cfg3.N) (u : Fin 1) (k : Fin 512) :
    (iblk3 V c 1 t : Vec Ideal S1x512 .f32) (ix2 u k) = (V c main_v36 : S1x512.Idx → EReal) (ix2 u k) := by
  unfold iblk3
  rw [View.read_apply]
  show (V c main_v36 : S1x512.Idx → EReal) _ = _
  refine congrArg (V c main_v36 : S1x512.Idx → EReal) (funext fun a => Fin.ext ?_)
  match a with
  | ⟨0, _⟩ => show win3_1.index t (0 : Fin 2) * 1 + 1 * u.val = u.val; rw [(idx_resident t).1]; omega
  | ⟨1, _⟩ => show win3_1.index t (1 : Fin 2) * 512 + 1 * k.val = k.val; rw [(idx_resident t).2.1]; omega
theorem blk2_apply (t : Fin cfg3.N) (u : Fin 1) (k : Fin 512) :
    (iblk3 V c 2 t : Vec Ideal S1x512 .f32) (ix2 u k) = (V c main_v42 : S1x512.Idx → EReal) (ix2 u k) := by
  unfold iblk3
  rw [View.read_apply]
  show (V c main_v42 : S1x512.Idx → EReal) _ = _
  refine congrArg (V c main_v42 : S1x512.Idx → EReal) (funext fun a => Fin.ext ?_)
  match a with
  | ⟨0, _⟩ => show win3_2.index t (0 : Fin 2) * 1 + 1 * u.val = u.val; rw [(idx_resident t).2.2.1]; omega
  | ⟨1, _⟩ => show win3_2.index t (1 : Fin 2) * 512 + 1 * k.val = k.val; rw [(idx_resident t).2.2.2.1]; omega
theorem blk3_apply (t : Fin cfg3.N) (u : Fin 1) (k : Fin 512) :
    (iblk3 V c 3 t : Vec Ideal S1x512 .f32) (ix2 u k) = (V c main_v28 : S1x512.Idx → EReal) (ix2 u k) := by
  unfold iblk3
  rw [View.read_apply]
  show (V c main_v28 : S1x512.Idx → EReal) _ = _
  refine congrArg (V c main_v28 : S1x512.Idx → EReal) (funext fun a => Fin.ext ?_)
  match a with
  | ⟨0, _⟩ => show win3_3.index t (0 : Fin 2) * 1 + 1 * u.val = u.val; rw [(idx_resident t).2.2.2.2.1]; omega
  | ⟨1, _⟩ => show win3_3.index t (1 : Fin 2) * 512 + 1 * k.val = k.val; rw [(idx_resident t).2.2.2.2.2.1]; omega
theorem blk4_apply (t : Fin cfg3.N) (u : Fin 1) (k : Fin 512) :
    (iblk3 V c 4 t : Vec Ideal S1x512 .f32) (ix2 u k) = (V c main_v29 : S1x512.Idx → EReal) (ix2 u k) := by
  unfold iblk3
  rw [View.read_apply]
  show (V c main_v29 : S1x512.Idx → EReal) _ = _
  refine congrArg (V c main_v29 : S1x512.Idx → EReal) (funext fun a => Fin.ext ?_)
  match a with
  | ⟨0, _⟩ => show win3_4.index t (0 : Fin 2) * 1 + 1 * u.val = u.val; rw [(idx_resident t).2.2.2.2.2.2.1]; omega
  | ⟨1, _⟩ => show win3_4.index t (1 : Fin 2) * 512 + 1 * k.val = k.val; rw [(idx_resident t).2.2.2.2.2.2.2.1]; omega
theorem blk5_apply (t : Fin cfg3.N) (k : Fin 512) (d : Fin 512) :
    (iblk3 V c 5 t : Vec Ideal S512x512 .bf16) (ix2 k d) = (V c main_v43 : S512x512.Idx → EReal) (ix2 k d) := by
  unfold iblk3
  rw [View.read_apply]
  show (V c main_v43 : S512x512.Idx → EReal) _ = _
  refine congrArg (V c main_v43 : S512x512.Idx → EReal) (funext fun a => Fin.ext ?_)
  match a with
  | ⟨0, _⟩ => show win3_5.index t (0 : Fin 2) * 512 + 1 * k.val = k.val; rw [(idx_resident t).2.2.2.2.2.2.2.2.1]; omega
  | ⟨1, _⟩ => show win3_5.index t (1 : Fin 2) * 512 + 1 * d.val = d.val; rw [(idx_resident t).2.2.2.2.2.2.2.2.2.1]; omega
theorem blk6_apply (t : Fin cfg3.N) (u : Fin 1) (k : Fin 512) :
    (iblk3 V c 6 t : Vec Ideal S1x512 .f32) (ix2 u k) = (V c main_v44 : S1x512.Idx → EReal) (ix2 u k) := by
  unfold iblk3
  rw [View.read_apply]
  show (V c main_v44 : S1x512.Idx → EReal) _ = _
  refine congrArg (V c main_v44 : S1x512.Idx → EReal) (funext fun a => Fin.ext ?_)
  match a with
  | ⟨0, _⟩ => show win3_6.index t (0 : Fin 2) * 1 + 1 * u.val = u.val; rw [(idx_resident t).2.2.2.2.2.2.2.2.2.2.1]; omega
  | ⟨1, _⟩ => show win3_6.index t (1 : Fin 2) * 512 + 1 * k.val = k.val; rw [(idx_resident t).2.2.2.2.2.2.2.2.2.2.2]; omega

/-! ## What each grid point writes back, and the output arrays -/

/-- Row r of block t among the 100000 rows. -/
def rowOf (t : Fin 25) (r : Fin 4000) : Fin 100000 := ⟨t.val * 4000 + r.val, by have := t.isLt; have := r.isLt; omega⟩

set_option maxHeartbeats 400000 in
/-- On the blocks that grid point t loads, the layer's payload at (r, d) is the layer's result at row 4000 t + r. -/
theorem pay3_blk (t : Fin cfg3.N) (r : Fin 4000) (d : Fin 512) (i : Fin 100000) (hi : i.val = t.val * 4000 + r.val) :
    k3_pay3 (F := Ideal) (iblk3 V c 0 t) (iblk3 V c 1 t) (iblk3 V c 2 t) (iblk3 V c 3 t) (iblk3 V c 4 t) (iblk3 V c 5 t) (iblk3 V c 6 t) (ix2 r d)
      = h3 V c i d := by
  refine (pay3_apply (iblk3 V c 0 t) (iblk3 V c 1 t) (iblk3 V c 2 t) (iblk3 V c 3 t) (iblk3 V c 4 t) (iblk3 V c 5 t) (iblk3 V c 6 t) r d).trans ?_
  unfold h3 lin
  rw [blk6_apply V c t 0 d]
  refine congrArg₂ max (congrArg₂ (· + ·) (Finset.sum_congr rfl fun k _ => ?_) rfl) rfl
  rw [blk0_apply V c t r k i hi, blk1_apply V c t 0 k, blk2_apply V c t 0 k, blk3_apply V c t 0 k, blk4_apply V c t 0 k,
    blk5_apply V c t k d]
  rfl

/-- What output window 8's array ends holding: per block, the column sums of the layer's result. -/
def blockSums : S25x1x512.Idx → EReal := fun i => ∑ r : Fin 4000, h3 V c (rowOf (i 0) r) (i 2)
/-- Output window 9's: per block, the column sums of the squares. -/
def blockSumSqs : S25x1x512.Idx → EReal := fun i => ∑ r : Fin 4000, h3 V c (rowOf (i 0) r) (i 2) * h3 V c (rowOf (i 0) r) (i 2)
/-- Output window 10's: per block, membership transposed times the layer's result. -/
def blockPool : S25x64x512.Idx → EReal := fun i => ∑ r : Fin 4000, ohIn V c (rowOf (i 0) r) (i 1) * h3 V c (rowOf (i 0) r) (i 2)

theorem t_lt (t : Fin cfg3.N) : t.val < 25 := lt_of_lt_of_eq t.isLt N_3

set_option maxHeartbeats 400000 in
/-- A [1,1,512] staging block whose entry d is the array's entry (t, 0, d) is block t of the array (window 8). -/
theorem cut8_eq (t : Fin cfg3.N) (P : Vec Ideal S1x1x512 .f32) (G : S25x1x512.Idx → EReal)
    (h : ∀ (d : Fin 512) (i : Fin 25), i.val = t.val → P (ix3 0 0 d) = G (ix3 i 0 d)) :
    (cfg3.win 8).cut (grid3.coords t) P = ((cfg3.win 8).blk t).view.read (Elt Ideal) G := by
  funext j
  rw [View.read_apply]
  have hj0 : (j 0).val < 1 := (j 0).isLt
  have hj1 : (j 1).val < 1 := (j 1).isLt
  have hj2 : (j 2).val < 512 := (j 2).isLt
  have ht : t.val < 25 := t_lt t
  have e1 : ((cfg3.win 8).xinj (grid3.coords t) j : S1x1x512.Idx) = ix3 0 0 ⟨(j 2).val, hj2⟩ :=
    funext fun a => Fin.ext (by
      match a with
      | ⟨0, _⟩ => show (j 0).val = 0; omega
      | ⟨1, _⟩ => show (j 1).val = 0; omega
      | ⟨2, _⟩ => rfl)
  have e2 : (((cfg3.win 8).blk t).view.emb j : S25x1x512.Idx) = ix3 ⟨t.val, ht⟩ 0 ⟨(j 2).val, hj2⟩ :=
    funext fun a => Fin.ext (by
      match a with
      | ⟨0, _⟩ => show win3_8.index t (0 : Fin 3) * 1 + 1 * (j 0).val = t.val; rw [(idx_out t).1]; omega
      | ⟨1, _⟩ => show win3_8.index t (1 : Fin 3) * 1 + 1 * (j 1).val = 0; rw [(idx_out t).2.1]; omega
      | ⟨2, _⟩ => show win3_8.index t (2 : Fin 3) * 512 + 1 * (j 2).val = (j 2).val; rw [(idx_out t).2.2.1]; omega)
  show P ((cfg3.win 8).xinj (grid3.coords t) j) = G (((cfg3.win 8).blk t).view.emb j)
  exact (congrArg P e1).trans ((h _ _ rfl).trans (congrArg G e2).symm)

set_option maxHeartbeats 400000 in
/-- What point t writes back through window 8 is block t of the block sums. -/
theorem flushed8_eq (t : Fin cfg3.N) :
    (dat3 (F := Ideal) V c).flushed 8 t = ((cfg3.win 8).blk t).view.read (Elt Ideal) (blockSums V c) := by
  show (cfg3.win 8).cut (grid3.coords t) ((dat3 (F := Ideal) V c).after 8 t) = _
  rw [after3_8]
  unfold out3_8
  rw [View.canon_unit_zero hz3]
  simp only [View.ld_unit_zero (S := S4000x512) hz2, View.ld_unit_zero (S := S1x512) hz2, View.ld_unit_zero (S := S512x512) hz2]
  refine cut8_eq t _ _ fun d i hi => ?_
  refine (pay6_apply (iblk3 V c 0 t) (iblk3 V c 1 t) (iblk3 V c 2 t) (iblk3 V c 3 t) (iblk3 V c 4 t) (iblk3 V c 5 t) (iblk3 V c 6 t) d).trans ?_
  refine Finset.sum_congr rfl fun r _ => ?_
  exact pay3_blk V c t r d (rowOf i r) (by show i.val * 4000 + r.val = _; rw [hi])

set_option maxHeartbeats 400000 in
/-- The same for window 9. -/
theorem cut9_eq (t : Fin cfg3.N) (P : Vec Ideal S1x1x512 .f32) (G : S25x1x512.Idx → EReal)
    (h : ∀ (d : Fin 512) (i : Fin 25), i.val = t.val → P (ix3 0 0 d) = G (ix3 i 0 d)) :
    (cfg3.win 9).cut (grid3.coords t) P = ((cfg3.win 9).blk t).view.read (Elt Ideal) G := by
  funext j
  rw [View.read_apply]
  have hj0 : (j 0).val < 1 := (j 0).isLt
  have hj1 : (j 1).val < 1 := (j 1).isLt
  have hj2 : (j 2).val < 512 := (j 2).isLt
  have ht : t.val < 25 := t_lt t
  have e1 : ((cfg3.win 9).xinj (grid3.coords t) j : S1x1x512.Idx) = ix3 0 0 ⟨(j 2).val, hj2⟩ :=
    funext fun a => Fin.ext (by
      match a with
      | ⟨0, _⟩ => show (j 0).val = 0; omega
      | ⟨1, _⟩ => show (j 1).val = 0; omega
      | ⟨2, _⟩ => rfl)
  have e2 : (((cfg3.win 9).blk t).view.emb j : S25x1x512.Idx) = ix3 ⟨t.val, ht⟩ 0 ⟨(j 2).val, hj2⟩ :=
    funext fun a => Fin.ext (by
      match a with
      | ⟨0, _⟩ => show win3_9.index t (0 : Fin 3) * 1 + 1 * (j 0).val = t.val; rw [(idx_out t).2.2.2.1]; omega
      | ⟨1, _⟩ => show win3_9.index t (1 : Fin 3) * 1 + 1 * (j 1).val = 0; rw [(idx_out t).2.2.2.2.1]; omega
      | ⟨2, _⟩ => show win3_9.index t (2 : Fin 3) * 512 + 1 * (j 2).val = (j 2).val; rw [(idx_out t).2.2.2.2.2.1]; omega)
  show P ((cfg3.win 9).xinj (grid3.coords t) j) = G (((cfg3.win 9).blk t).view.emb j)
  exact (congrArg P e1).trans ((h _ _ rfl).trans (congrArg G e2).symm)

set_option maxHeartbeats 400000 in
/-- A [1,64,512] staging block whose entry (g, d) is the array's entry (t, g, d) is block t of the array (window 10). -/
theorem cut10_eq (t : Fin cfg3.N) (P : Vec Ideal S1x64x512 .f32) (G : S25x64x512.Idx → EReal)
    (h : ∀ (g : Fin 64) (d : Fin 512) (i : Fin 25), i.val = t.val → P (ix3 0 g d) = G (ix3 i g d)) :
    (cfg3.win 10).cut (grid3.coords t) P = ((cfg3.win 10).blk t).view.read (Elt Ideal) G := by
  funext j
  rw [View.read_apply]
  have hj0 : (j 0).val < 1 := (j 0).isLt
  have hj1 : (j 1).val < 64 := (j 1).isLt
  have hj2 : (j 2).val < 512 := (j 2).isLt
  have ht : t.val < 25 := t_lt t
  have e1 : ((cfg3.win 10).xinj (grid3.coords t) j : S1x64x512.Idx) = ix3 0 ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have e2 : (((cfg3.win 10).blk t).view.emb j : S25x64x512.Idx) = ix3 ⟨t.val, ht⟩ ⟨(j 1).val, hj1⟩ ⟨(j 2).val, hj2⟩ :=
    funext fun a => Fin.ext (by
      match a with
      | ⟨0, _⟩ => show win3_10.index t (0 : Fin 3) * 1 + 1 * (j 0).val = t.val; rw [(idx_out t).2.2.2.2.2.2.1]; omega
      | ⟨1, _⟩ => show win3_10.index t (1 : Fin 3) * 64 + 1 * (j 1).val = (j 1).val; rw [(idx_out t).2.2.2.2.2.2.2.1]; omega
      | ⟨2, _⟩ => show win3_10.index t (2 : Fin 3) * 512 + 1 * (j 2).val = (j 2).val; rw [(idx_out t).2.2.2.2.2.2.2.2]; omega)
  show P ((cfg3.win 10).xinj (grid3.coords t) j) = G (((cfg3.win 10).blk t).view.emb j)
  exact (congrArg P e1).trans ((h _ _ _ rfl).trans (congrArg G e2).symm)

set_option maxHeartbeats 400000 in
/-- What point t writes back through window 9 is block t of the block sums of squares. -/
theorem flushed9_eq (t : Fin cfg3.N) :
    (dat3 (F := Ideal) V c).flushed 9 t = ((cfg3.win 9).blk t).view.read (Elt Ideal) (blockSumSqs V c) := by
  show (cfg3.win 9).cut (grid3.coords t) ((dat3 (F := Ideal) V c).after 9 t) = _
  rw [after3_9]
  unfold out3_9
  rw [View.canon_unit_zero hz3]
  simp only [View.ld_unit_zero (S := S4000x512) hz2, View.ld_unit_zero (S := S1x512) hz2, View.ld_unit_zero (S := S512x512) hz2]
  unfold k3_pay5
  refine cut9_eq t _ _ fun d i hi => ?_
  refine (pay1_apply (k3_pay3 (F := Ideal) (iblk3 V c 0 t) (iblk3 V c 1 t) (iblk3 V c 2 t) (iblk3 V c 3 t) (iblk3 V c 4 t) (iblk3 V c 5 t) (iblk3 V c 6 t)) d).trans ?_
  refine Finset.sum_congr rfl fun r _ => ?_
  have hrow : (rowOf i r).val = t.val * 4000 + r.val := by show i.val * 4000 + r.val = _; rw [hi]
  exact congrArg₂ (· * ·) (pay3_blk V c t r d (rowOf i r) hrow) (pay3_blk V c t r d (rowOf i r) hrow)

set_option maxHeartbeats 400000 in
/-- What point t writes back through window 10 is block t of the pooled shares. -/
theorem flushed10_eq (t : Fin cfg3.N) :
    (dat3 (F := Ideal) V c).flushed 10 t = ((cfg3.win 10).blk t).view.read (Elt Ideal) (blockPool V c) := by
  show (cfg3.win 10).cut (grid3.coords t) ((dat3 (F := Ideal) V c).after 10 t) = _
  rw [after3_10]
  unfold out3_10
  rw [View.canon_unit_zero hz3]
  simp only [View.ld_unit_zero (S := S4000x512) hz2, View.ld_unit_zero (S := S1x512) hz2, View.ld_unit_zero (S := S512x512) hz2,
    View.ld_unit_zero (S := S4000x64) hz2]
  unfold k3_pay4
  refine cut10_eq t _ _ fun g d i hi => ?_
  refine (pay2_apply (truncf .bf16 (k3_pay3 (F := Ideal) (iblk3 V c 0 t) (iblk3 V c 1 t) (iblk3 V c 2 t) (iblk3 V c 3 t) (iblk3 V c 4 t) (iblk3 V c 5 t) (iblk3 V c 6 t)) bitsLt_bf16_f32) (iblk3 V c 7 t) g d).trans ?_
  refine Finset.sum_congr rfl fun r _ => ?_
  have hrow : (rowOf i r).val = t.val * 4000 + r.val := by show i.val * 4000 + r.val = _; rw [hi]
  exact congrArg₂ (· * ·) (blk7_apply V c t r g (rowOf i r) hrow) (pay3_blk V c t r d (rowOf i r) hrow)

/-- Every index of window 8's array lies in the block of the point named by its first coordinate. -/
theorem cover8 (i : S25x1x512.Idx) : ∃ t : Fin cfg3.N, (cfg3.win 8).flush t = true ∧ i ∈ ((cfg3.win 8).blk t).view.set := by
  have hi0 : (i 0).val < 25 := (i 0).isLt
  have hi1 : (i 1).val < 1 := (i 1).isLt
  have hi2 : (i 2).val < 512 := (i 2).isLt
  obtain ⟨t, ht⟩ : ∃ t : Fin cfg3.N, t.val = (i 0).val := ⟨⟨(i 0).val, lt_of_lt_of_eq hi0 N_3.symm⟩, rfl⟩
  refine ⟨t, flush3_8 t, ?_⟩
  show i ∈ ((View.whole main_v52_0).slice (win3_8.rect t)).set
  rw [View.set_slice_whole, Rect.mem_set_unit]
  obtain ⟨e0, e1, e2, -⟩ := idx_out t
  intro a
  match a with
  | ⟨0, _⟩ => show win3_8.index t (0 : Fin 3) * 1 ≤ (i 0).val ∧ (i 0).val < win3_8.index t (0 : Fin 3) * 1 + 1; omega
  | ⟨1, _⟩ => show win3_8.index t (1 : Fin 3) * 1 ≤ (i 1).val ∧ (i 1).val < win3_8.index t (1 : Fin 3) * 1 + 1; omega
  | ⟨2, _⟩ => show win3_8.index t (2 : Fin 3) * 512 ≤ (i 2).val ∧ (i 2).val < win3_8.index t (2 : Fin 3) * 512 + 512; omega

theorem cover9 (i : S25x1x512.Idx) : ∃ t : Fin cfg3.N, (cfg3.win 9).flush t = true ∧ i ∈ ((cfg3.win 9).blk t).view.set := by
  have hi0 : (i 0).val < 25 := (i 0).isLt
  have hi1 : (i 1).val < 1 := (i 1).isLt
  have hi2 : (i 2).val < 512 := (i 2).isLt
  obtain ⟨t, ht⟩ : ∃ t : Fin cfg3.N, t.val = (i 0).val := ⟨⟨(i 0).val, lt_of_lt_of_eq hi0 N_3.symm⟩, rfl⟩
  refine ⟨t, flush3_9 t, ?_⟩
  show i ∈ ((View.whole main_v52_1).slice (win3_9.rect t)).set
  rw [View.set_slice_whole, Rect.mem_set_unit]
  obtain ⟨-, -, -, e0, e1, e2, -⟩ := idx_out t
  intro a
  match a with
  | ⟨0, _⟩ => show win3_9.index t (0 : Fin 3) * 1 ≤ (i 0).val ∧ (i 0).val < win3_9.index t (0 : Fin 3) * 1 + 1; omega
  | ⟨1, _⟩ => show win3_9.index t (1 : Fin 3) * 1 ≤ (i 1).val ∧ (i 1).val < win3_9.index t (1 : Fin 3) * 1 + 1; omega
  | ⟨2, _⟩ => show win3_9.index t (2 : Fin 3) * 512 ≤ (i 2).val ∧ (i 2).val < win3_9.index t (2 : Fin 3) * 512 + 512; omega

theorem cover10 (i : S25x64x512.Idx) : ∃ t : Fin cfg3.N, (cfg3.win 10).flush t = true ∧ i ∈ ((cfg3.win 10).blk t).view.set := by
  have hi0 : (i 0).val < 25 := (i 0).isLt
  have hi1 : (i 1).val < 64 := (i 1).isLt
  have hi2 : (i 2).val < 512 := (i 2).isLt
  obtain ⟨t, ht⟩ : ∃ t : Fin cfg3.N, t.val = (i 0).val := ⟨⟨(i 0).val, lt_of_lt_of_eq hi0 N_3.symm⟩, rfl⟩
  refine ⟨t, flush3_10 t, ?_⟩
  show i ∈ ((View.whole main_v52_2).slice (win3_10.rect t)).set
  rw [View.set_slice_whole, Rect.mem_set_unit]
  obtain ⟨-, -, -, -, -, -, e0, e1, e2⟩ := idx_out t
  intro a
  match a with
  | ⟨0, _⟩ => show win3_10.index t (0 : Fin 3) * 1 ≤ (i 0).val ∧ (i 0).val < win3_10.index t (0 : Fin 3) * 1 + 1; omega
  | ⟨1, _⟩ => show win3_10.index t (1 : Fin 3) * 64 ≤ (i 1).val ∧ (i 1).val < win3_10.index t (1 : Fin 3) * 64 + 64; omega
  | ⟨2, _⟩ => show win3_10.index t (2 : Fin 3) * 512 ≤ (i 2).val ∧ (i 2).val < win3_10.index t (2 : Fin 3) * 512 + 512; omega

/-- The three output arrays after the region. -/
theorem final8 : (dat3 (F := Ideal) V c).arrAt 8 cfg3.N = blockSums V c :=
  (dat3 (F := Ideal) V c).arrAt_eq_of_cover 8 (blockSums V c) (fun t _ => flushed8_eq V c t) cover8
theorem final9 : (dat3 (F := Ideal) V c).arrAt 9 cfg3.N = blockSumSqs V c :=
  (dat3 (F := Ideal) V c).arrAt_eq_of_cover 9 (blockSumSqs V c) (fun t _ => flushed9_eq V c t) cover9
theorem final10 : (dat3 (F := Ideal) V c).arrAt 10 cfg3.N = blockPool V c :=
  (dat3 (F := Ideal) V c).arrAt_eq_of_cover 10 (blockPool V c) (fun t _ => flushed10_eq V c t) cover10

theorem out_sum (t : Fin 25) (d : Fin 512) :
    part3 (T := 25) (a := 512) ((dat3 (F := Ideal) V c).arrAt 8 cfg3.N) t d
      = ∑ r : Fin 4000, h3 V c ⟨t.val * 4000 + r.val, by have := t.isLt; have := r.isLt; omega⟩ d :=
  congrFun (final8 V c) (ix3 t 0 d)

theorem out_sumsq (t : Fin 25) (d : Fin 512) :
    part3 (T := 25) (a := 512) ((dat3 (F := Ideal) V c).arrAt 9 cfg3.N) t d
      = ∑ r : Fin 4000, h3 V c ⟨t.val * 4000 + r.val, by have := t.isLt; have := r.isLt; omega⟩ d * h3 V c ⟨t.val * 4000 + r.val, by have := t.isLt; have := r.isLt; omega⟩ d :=
  congrFun (final9 V c) (ix3 t 0 d)

/-- Block `t`'s share of the pooled value: over the block's rows, membership times the layer's result. -/
theorem out_pool (t : Fin 25) (g : Fin 64) (d : Fin 512) :
    part3m (T := 25) (G := 64) (a := 512) ((dat3 (F := Ideal) V c).arrAt 10 cfg3.N) t g d
      = ∑ r : Fin 4000, ohIn V c ⟨t.val * 4000 + r.val, by have := t.isLt; have := r.isLt; omega⟩ g * h3 V c ⟨t.val * 4000 + r.val, by have := t.isLt; have := r.isLt; omega⟩ d :=
  congrFun (final10 V c) (ix3 t g d)

end Cert.KernelIdeal.Region3
end
-- ==== Proof.KHost.lean ====
/-
  The kernel program's host operations between its regions, read at an arbitrary valuation W of the buffers: each
  column's mean and clamped variance out of the per-block sums, the parameters re-laid as rows and matrices, and the
  one-hot membership matrix of the segment ids.
-/
import proofs.«412217_j43164421324860_3_alg».proof.Proof.Gen.KernelIdeal.Launch
import proofs.«412217_j43164421324860_3_alg».proof.Proof.KAcc
import Idealize.ShloMosaic.Lib.StableHlo.Run
import Idealize.ShloMosaic.Lib.StableHlo.Predicate
import Idealize.ShloMosaic.Lib.Pipeline.Value
import Idealize.ShloMosaic.Lib.ValueLayout
import Idealize.ShloMosaic.PureOps.Ideal.Laws

noncomputable section

open scoped BigOperators

namespace Cert.KernelIdeal.Host

open Cert.KernelIdeal Cert.KernelIdeal.Gen Cert.KernelIdeal.Acc Cert.Spec
open Idealize.ShloMosaic Idealize.ShloMosaic.TcCoe Idealize.ShloMosaic.ValueIdx Idealize.SL.Sem

/-! ## The stretches' pure terms, over explicit arrays

A stretch turns two [T, 1, a] arrays of per-block column sums into a [1, a] row of means and a [1, a] row of clamped
variances. Both are stated here once, at any block count T and width a, as functions of the arrays alone; the shape
facts the operations carry are arguments. -/

section Stats

variable {T a : ℕ}

/-- The row of column means: the block sums added over the block axis from zero, divided by the row count. -/
def meanRow (hR : (⟨3, ![T, 1, a]⟩ : Shape).ReducesTo [0] ⟨2, ![1, a]⟩) (hu : 0 < (⟨0, ![]⟩ : Shape).numel)
    (hB : (⟨0, ![]⟩ : Shape).BroadcastsInDim ⟨2, ![1, a]⟩ (![] : Fin 0 → Fin 2))
    (s : FVec Ideal ⟨3, ![T, 1, a]⟩ .f32) : FVec Ideal ⟨2, ![1, a]⟩ .f32 :=
  Host.divf (F := Ideal)
    (Host.reduceAdd (F := Ideal) s (constant (F := Ideal) ⟨0, ![]⟩ .f32 0x00000000#32) hR hu)
    (broadcastInDim ⟨2, ![1, a]⟩ ![] hB (constant (F := Ideal) ⟨0, ![]⟩ .f32 0x47C35000#32))

/-- The row of clamped variances: the mean of the squares' block sums minus the squared mean, clamped at zero. -/
def varRow (hR : (⟨3, ![T, 1, a]⟩ : Shape).ReducesTo [0] ⟨2, ![1, a]⟩) (hu : 0 < (⟨0, ![]⟩ : Shape).numel)
    (hB : (⟨0, ![]⟩ : Shape).BroadcastsInDim ⟨2, ![1, a]⟩ (![] : Fin 0 → Fin 2))
    (s q : FVec Ideal ⟨3, ![T, 1, a]⟩ .f32) : FVec Ideal ⟨2, ![1, a]⟩ .f32 :=
  maximumf
    (subf (meanRow hR hu hB q) (mulf (meanRow hR hu hB s) (meanRow hR hu hB s)))
    (broadcastInDim ⟨2, ![1, a]⟩ ![] hB (constant (F := Ideal) ⟨0, ![]⟩ .f32 0x00000000#32))

/-- Column d of the mean row: the sum over the blocks of the block sums at d, over the row count. The reduction over
    the block axis is the initial zero plus the sum over that axis's coordinates; the index over (0, d) with block
    coordinate t inserted is (t, 0, d). -/
theorem meanRow_apply (hR : (⟨3, ![T, 1, a]⟩ : Shape).ReducesTo [0] ⟨2, ![1, a]⟩)
    (hR' : (⟨3, ![T, 1, a]⟩ : Shape).Reduces [0] ⟨2, ![1, a]⟩) (hu : 0 < (⟨0, ![]⟩ : Shape).numel)
    (hB : (⟨0, ![]⟩ : Shape).BroadcastsInDim ⟨2, ![1, a]⟩ (![] : Fin 0 → Fin 2))
    (s : FVec Ideal ⟨3, ![T, 1, a]⟩ .f32) (d : Fin a) :
    meanRow hR hu hB s (ix2 0 d) = Ideal.div (∑ t : Fin T, s (ix3 t 0 d)) rows := by
  have hs : Ideal.hostReduceAdd hR s (Ideal.ofBits .f32 0x00000000#32) (ix2 0 d) = ∑ t : Fin T, s (ix3 t 0 d) := by
    rw [Ideal.hostReduceAdd_single hR hR' s _ (ix2 0 d), Cert.Consts.ofBits_zero, zero_add]
    refine Finset.sum_congr rfl fun t _ => congrArg s ?_
    funext c
    match c with
    | ⟨0, _⟩ => rfl
    | ⟨1, _⟩ => rfl
    | ⟨2, _⟩ => rfl
  show Ideal.div (Ideal.hostReduceAdd hR s (Ideal.ofBits .f32 0x00000000#32) (ix2 0 d))
      (Ideal.ofBits .f32 0x47C35000#32) = _
  rw [hs]
  rfl

/-- Column d of the variance row, in terms of the mean row's column d. -/
theorem varRow_apply (hR : (⟨3, ![T, 1, a]⟩ : Shape).ReducesTo [0] ⟨2, ![1, a]⟩)
    (hR' : (⟨3, ![T, 1, a]⟩ : Shape).Reduces [0] ⟨2, ![1, a]⟩) (hu : 0 < (⟨0, ![]⟩ : Shape).numel)
    (hB : (⟨0, ![]⟩ : Shape).BroadcastsInDim ⟨2, ![1, a]⟩ (![] : Fin 0 → Fin 2))
    (s q : FVec Ideal ⟨3, ![T, 1, a]⟩ .f32) (d : Fin a) :
    varRow hR hu hB s q (ix2 0 d)
      = max (Ideal.div (∑ t : Fin T, q (ix3 t 0 d)) rows
          - meanRow hR hu hB s (ix2 0 d) * meanRow hR hu hB s (ix2 0 d)) 0 := by
  show max (meanRow hR hu hB q (ix2 0 d) - meanRow hR hu hB s (ix2 0 d) * meanRow hR hu hB s (ix2 0 d))
      (Ideal.ofBits .f32 0x00000000#32) = _
  rw [meanRow_apply hR hR' hu hB q d, Cert.Consts.ofBits_zero]

end Stats

/-- A vector re-laid as a one-row matrix reads, as a row, the vector. -/
theorem row2_shapeCast {a : ℕ} (x : (⟨1, ![a]⟩ : Shape).Idx → EReal)
    (h : (⟨1, ![a]⟩ : Shape).ShapeCasts ⟨2, ![1, a]⟩) : row2 (a := a) (shapeCast ⟨2, ![1, a]⟩ x h) = row1 x :=
  funext fun d => shapeCast_a_1a_apply x h 0 d

/-! ## The membership matrix's pure term

The segment-id column laid along the rows of a [100000, 64] rectangle, the positions 0 … 63 laid along its columns, the
two compared for equality as 32-bit words, and the one-bit answer converted to a float. -/

/-- The segment ids, constant along each row. -/
def segMat (seg : IVec ⟨1, ![100000]⟩ 32) : IVec ⟨2, ![100000, 64]⟩ 32 :=
  broadcastInDim ⟨2, ![100000, 64]⟩ ![0, 1] (by decide) (broadcastInDim ⟨2, ![100000, 1]⟩ ![0] (by decide) seg)

/-- The positions 0 … 63, constant down each column. -/
def iotaMat : IVec ⟨2, ![100000, 64]⟩ 32 :=
  broadcastInDim ⟨2, ![100000, 64]⟩ ![0, 1] (by decide)
    (broadcastInDim ⟨2, ![1, 64]⟩ ![1] (by decide) (iotaInDim ⟨1, ![64]⟩ 32 0))

/-- The membership matrix: the comparison's bit as a float. -/
def onehotOf (seg : IVec ⟨1, ![100000]⟩ 32) : FVec Ideal ⟨2, ![100000, 64]⟩ .bf16 :=
  uitofp (F := Ideal) .bf16 (cmpi .eq (segMat seg) iotaMat)

/-- Entry (i, g) of the segment-id rectangle is row i's segment id: the rectangle reads the [100000, 1] column at
    (i, 0), which reads the vector at i. -/
theorem segMat_apply (seg : IVec ⟨1, ![100000]⟩ 32) (i : Fin 100000) (g : Fin 64) :
    segMat seg (ix2 i g) = seg (ix1 i) :=
  (broadcastInDim_apply _ _ _ (ix2 i g) (ix2 i (0 : Fin 1))
      fun a => match a with | ⟨0, _⟩ => rfl | ⟨1, _⟩ => rfl).trans
    (broadcastInDim_apply _ _ seg (ix2 i (0 : Fin 1)) (ix1 i) fun a => match a with | ⟨0, _⟩ => rfl)

/-- Entry (i, g) of the position rectangle is the word of g: the rectangle reads the [1, 64] row at (0, g), which reads
    the position vector at g, whose entry is its own coordinate. -/
theorem iotaMat_apply (i : Fin 100000) (g : Fin 64) : iotaMat (ix2 i g) = BitVec.ofNat 32 g.val :=
  (broadcastInDim_apply _ _ _ (ix2 i g) (ix2 (0 : Fin 1) g)
      fun a => match a with | ⟨0, _⟩ => rfl | ⟨1, _⟩ => rfl).trans
    ((broadcastInDim_apply _ _ (iotaInDim ⟨1, ![64]⟩ 32 0) (ix2 (0 : Fin 1) g) (ix1 g)
      fun a => match a with | ⟨0, _⟩ => rfl).trans rfl)

/-- Entry (i, g) of the membership matrix: one where the segment id of row i, read signed, is g, zero elsewhere. Two
    32-bit words are equal exactly when their signed readings are, and the word of g < 64 reads signed as g; the
    one-bit word 1 converts to 1 and 0 to 0. -/
theorem onehotOf_apply (seg : IVec ⟨1, ![100000]⟩ 32) (i : Fin 100000) (g : Fin 64) :
    onehotOf seg (ix2 i g) = if (seg (ix1 i)).toInt = (g.val : ℤ) then (1 : EReal) else 0 := by
  have hb : (BitVec.ofNat 32 g.val).toInt = (g.val : ℤ) :=
    StableHlo.Predicate.toInt_ofNat_small g.val (by have := g.isLt; omega)
  show (((IntOp.cmpi .eq (segMat seg (ix2 i g)) (iotaMat (ix2 i g))).toNat : ℝ) : EReal) = _
  rw [segMat_apply, iotaMat_apply]
  by_cases h : seg (ix1 i) = BitVec.ofNat 32 g.val
  · have hc : IntOp.cmpi .eq (seg (ix1 i)) (BitVec.ofNat 32 g.val) = 1#1 := StableHlo.Predicate.cmpi_eq_iff.mpr h
    rw [hc, if_pos (by rw [h, hb])]
    show (((1 : ℕ) : ℝ) : EReal) = 1
    rw [Nat.cast_one, EReal.coe_one]
  · have hc : IntOp.cmpi .eq (seg (ix1 i)) (BitVec.ofNat 32 g.val) = 0#1 :=
      eq_zero_of_ne_one fun h1 => h (StableHlo.Predicate.cmpi_eq_iff.mp h1)
    rw [hc, if_neg fun e => h (BitVec.toInt_inj.mp (e.trans hb.symm))]
    show (((0 : ℕ) : ℝ) : EReal) = 0
    rw [Nat.cast_zero, EReal.coe_zero]

variable (W : Val)

/-! ## The stretch before region 1 -/

/-- The buffers after the stretch. -/
abbrev A1 : Val := StableHlo.after (hostOps1 (F := Ideal)) W

/-- The mean row's buffer holds the mean row of the block sums. -/
theorem A1_mean : A1 W (Proc.devRef .tc main_v4)
    = meanRow (T := 10) (a := 128) (by decide) (by decide) (by decide) (W (Proc.devRef .tc main_v0_0)) := by
  after_results; rfl

/-- The variance row's buffer holds the variance row of the two arrays of block sums. -/
theorem A1_var : A1 W (Proc.devRef .tc main_v10)
    = varRow (T := 10) (a := 128) (by decide) (by decide) (by decide) (W (Proc.devRef .tc main_v0_0))
        (W (Proc.devRef .tc main_v0_1)) := by
  after_results; rfl

theorem mean1 (d : Fin 128) :
    row2 (a := 128) (A1 W (Proc.devRef .tc main_v4)) d
      = Ideal.div (∑ t : Fin 10, part3 (T := 10) (a := 128) (W (Proc.devRef .tc main_v0_0)) t d) rows := by
  unfold row2 part3
  rw [A1_mean]
  exact meanRow_apply _ (by decide) _ _ _ d

theorem var1 (d : Fin 128) :
    row2 (a := 128) (A1 W (Proc.devRef .tc main_v10)) d
      = max (Ideal.div (∑ t : Fin 10, part3 (T := 10) (a := 128) (W (Proc.devRef .tc main_v0_1)) t d) rows
          - row2 (a := 128) (A1 W (Proc.devRef .tc main_v4)) d * row2 (a := 128) (A1 W (Proc.devRef .tc main_v4)) d) 0 := by
  unfold row2 part3
  rw [A1_var, A1_mean]
  exact varRow_apply _ (by decide) _ _ _ _ d

theorem g1 : row2 (a := 128) (A1 W (Proc.devRef .tc main_v11)) = row1 (a := 128) (W (Proc.devRef .tc main_arg3)) := by
  have h : A1 W (Proc.devRef .tc main_v11)
      = shapeCast ⟨2, ![1, 128]⟩ (W (Proc.devRef .tc main_arg3)) (by decide) := by
    after_results; rfl
  rw [h]
  exact row2_shapeCast _ _
theorem b1 : row2 (a := 128) (A1 W (Proc.devRef .tc main_v12)) = row1 (a := 128) (W (Proc.devRef .tc main_arg4)) := by
  have h : A1 W (Proc.devRef .tc main_v12)
      = shapeCast ⟨2, ![1, 128]⟩ (W (Proc.devRef .tc main_arg4)) (by decide) := by
    after_results; rfl
  rw [h]
  exact row2_shapeCast _ _
/-- The weight matrix narrowed to the shorter float format keeps its entries: at the extended reals a format change
    is the identity. -/
theorem w0 : mat2 (n := 128) (a := 512) (A1 W (Proc.devRef .tc main_v13)) = mat2 (n := 128) (a := 512) (W (Proc.devRef .tc main_arg5)) := by
  after_results; rfl
theorem b0 : row2 (a := 512) (A1 W (Proc.devRef .tc main_v14)) = row1 (a := 512) (W (Proc.devRef .tc main_arg6)) := by
  have h : A1 W (Proc.devRef .tc main_v14)
      = shapeCast ⟨2, ![1, 512]⟩ (W (Proc.devRef .tc main_arg6)) (by decide) := by
    after_results; rfl
  rw [h]
  exact row2_shapeCast _ _
/-- The weight matrix narrowed to the shorter float format keeps its entries: at the extended reals a format change
    is the identity. -/
theorem w1 : mat2 (n := 512) (a := 512) (A1 W (Proc.devRef .tc main_v15)) = mat2 (n := 512) (a := 512) (W (Proc.devRef .tc main_arg7)) := by
  after_results; rfl
theorem bb1 : row2 (a := 512) (A1 W (Proc.devRef .tc main_v16)) = row1 (a := 512) (W (Proc.devRef .tc main_arg8)) := by
  have h : A1 W (Proc.devRef .tc main_v16)
      = shapeCast ⟨2, ![1, 512]⟩ (W (Proc.devRef .tc main_arg8)) (by decide) := by
    after_results; rfl
  rw [h]
  exact row2_shapeCast _ _

/-- The buffers the stretch writes, in order. -/
def written1 : List (Ref sig .tc) :=
  [main_cst, main_v1, main_cst_0, main_v2, main_cst_1, main_v3, main_v4, main_cst_2, main_v5, main_v6, main_v7, main_v8, main_cst_3, main_v9, main_v10, main_v11, main_v12, main_v13, main_v14, main_v15, main_v16]

/-- A buffer the stretch does not write keeps its contents: every operation writes its one result buffer, and that
    buffer is in the list. -/
theorem A1_of_not_written (r : Ref sig .tc) (hr : r ∉ written1) : A1 W (Proc.devRef .tc r) = W (Proc.devRef .tc r) :=
  StableHlo.after_of_writes_sub (W := written1) _ W (by
    simp only [hostOps1, List.Forall, StableHlo.nullary_writes, StableHlo.unary_writes, StableHlo.binary_writes,
      StableHlo.reshape_writes]
    repeat' apply And.intro
    all_goals
      rw [Finset.singleton_subset_iff, List.mem_toFinset]
      exact List.mem_map.mpr ⟨_, by decide, rfl⟩) hr

/-- The stretch writes no argument. -/
theorem kept1 (r : Ref sig .tc) (hr : r ∈ argRefs) : A1 W (Proc.devRef .tc r) = W (Proc.devRef .tc r) :=
  A1_of_not_written W r ((by decide : ∀ r ∈ argRefs, r ∉ written1) r hr)

/-! ## The stretch before region 2 -/

abbrev A2 : Val := StableHlo.after (hostOps2 (F := Ideal)) W

/-- The mean row's buffer holds the mean row of the block sums. -/
theorem A2_mean : A2 W (Proc.devRef .tc main_v21)
    = meanRow (T := 25) (a := 512) (by decide) (by decide) (by decide) (W (Proc.devRef .tc main_v17_1)) := by
  after_results; rfl

/-- The variance row's buffer holds the variance row of the two arrays of block sums. -/
theorem A2_var : A2 W (Proc.devRef .tc main_v27)
    = varRow (T := 25) (a := 512) (by decide) (by decide) (by decide) (W (Proc.devRef .tc main_v17_1))
        (W (Proc.devRef .tc main_v17_2)) := by
  after_results; rfl

theorem mean2 (d : Fin 512) :
    row2 (a := 512) (A2 W (Proc.devRef .tc main_v21)) d
      = Ideal.div (∑ t : Fin 25, part3 (T := 25) (a := 512) (W (Proc.devRef .tc main_v17_1)) t d) rows := by
  unfold row2 part3
  rw [A2_mean]
  exact meanRow_apply _ (by decide) _ _ _ d

theorem var2 (d : Fin 512) :
    row2 (a := 512) (A2 W (Proc.devRef .tc main_v27)) d
      = max (Ideal.div (∑ t : Fin 25, part3 (T := 25) (a := 512) (W (Proc.devRef .tc main_v17_2)) t d) rows
          - row2 (a := 512) (A2 W (Proc.devRef .tc main_v21)) d * row2 (a := 512) (A2 W (Proc.devRef .tc main_v21)) d) 0 := by
  unfold row2 part3
  rw [A2_var, A2_mean]
  exact varRow_apply _ (by decide) _ _ _ _ d

theorem g3 : row2 (a := 512) (A2 W (Proc.devRef .tc main_v28)) = row1 (a := 512) (W (Proc.devRef .tc main_arg13)) := by
  have h : A2 W (Proc.devRef .tc main_v28)
      = shapeCast ⟨2, ![1, 512]⟩ (W (Proc.devRef .tc main_arg13)) (by decide) := by
    after_results; rfl
  rw [h]
  exact row2_shapeCast _ _
theorem b3 : row2 (a := 512) (A2 W (Proc.devRef .tc main_v29)) = row1 (a := 512) (W (Proc.devRef .tc main_arg14)) := by
  have h : A2 W (Proc.devRef .tc main_v29)
      = shapeCast ⟨2, ![1, 512]⟩ (W (Proc.devRef .tc main_arg14)) (by decide) := by
    after_results; rfl
  rw [h]
  exact row2_shapeCast _ _
/-- The weight matrix narrowed to the shorter float format keeps its entries: at the extended reals a format change
    is the identity. -/
theorem w2 : mat2 (n := 512) (a := 512) (A2 W (Proc.devRef .tc main_v30)) = mat2 (n := 512) (a := 512) (W (Proc.devRef .tc main_arg9)) := by
  after_results; rfl
theorem bb2 : row2 (a := 512) (A2 W (Proc.devRef .tc main_v31)) = row1 (a := 512) (W (Proc.devRef .tc main_arg10)) := by
  have h : A2 W (Proc.devRef .tc main_v31)
      = shapeCast ⟨2, ![1, 512]⟩ (W (Proc.devRef .tc main_arg10)) (by decide) := by
    after_results; rfl
  rw [h]
  exact row2_shapeCast _ _

/-- The buffers the stretch writes, in order. -/
def written2 : List (Ref sig .tc) :=
  [main_cst_4, main_v18, main_cst_5, main_v19, main_cst_6, main_v20, main_v21, main_cst_7, main_v22, main_v23, main_v24, main_v25, main_cst_8, main_v26, main_v27, main_v28, main_v29, main_v30, main_v31]

/-- A buffer the stretch does not write keeps its contents: every operation writes its one result buffer, and that
    buffer is in the list. -/
theorem A2_of_not_written (r : Ref sig .tc) (hr : r ∉ written2) : A2 W (Proc.devRef .tc r) = W (Proc.devRef .tc r) :=
  StableHlo.after_of_writes_sub (W := written2) _ W (by
    simp only [hostOps2, List.Forall, StableHlo.nullary_writes, StableHlo.unary_writes, StableHlo.binary_writes,
      StableHlo.reshape_writes]
    repeat' apply And.intro
    all_goals
      rw [Finset.singleton_subset_iff, List.mem_toFinset]
      exact List.mem_map.mpr ⟨_, by decide, rfl⟩) hr

/-- The stretch writes no argument and not region 1's first output. -/
theorem kept2 (r : Ref sig .tc) (hr : r ∈ main_v17_0 :: argRefs) : A2 W (Proc.devRef .tc r) = W (Proc.devRef .tc r) :=
  A2_of_not_written W r ((by decide : ∀ r ∈ main_v17_0 :: argRefs, r ∉ written2) r hr)

/-! ## The stretch before region 3 -/

abbrev A3 : Val := StableHlo.after (hostOps3 (F := Ideal)) W

/-- The mean row's buffer holds the mean row of the block sums. -/
theorem A3_mean : A3 W (Proc.devRef .tc main_v36)
    = meanRow (T := 25) (a := 512) (by decide) (by decide) (by decide) (W (Proc.devRef .tc main_v32_1)) := by
  after_results; rfl

/-- The variance row's buffer holds the variance row of the two arrays of block sums. -/
theorem A3_var : A3 W (Proc.devRef .tc main_v42)
    = varRow (T := 25) (a := 512) (by decide) (by decide) (by decide) (W (Proc.devRef .tc main_v32_1))
        (W (Proc.devRef .tc main_v32_2)) := by
  after_results; rfl

theorem mean3 (d : Fin 512) :
    row2 (a := 512) (A3 W (Proc.devRef .tc main_v36)) d
      = Ideal.div (∑ t : Fin 25, part3 (T := 25) (a := 512) (W (Proc.devRef .tc main_v32_1)) t d) rows := by
  unfold row2 part3
  rw [A3_mean]
  exact meanRow_apply _ (by decide) _ _ _ d

theorem var3 (d : Fin 512) :
    row2 (a := 512) (A3 W (Proc.devRef .tc main_v42)) d
      = max (Ideal.div (∑ t : Fin 25, part3 (T := 25) (a := 512) (W (Proc.devRef .tc main_v32_2)) t d) rows
          - row2 (a := 512) (A3 W (Proc.devRef .tc main_v36)) d * row2 (a := 512) (A3 W (Proc.devRef .tc main_v36)) d) 0 := by
  unfold row2 part3
  rw [A3_var, A3_mean]
  exact varRow_apply _ (by decide) _ _ _ _ d

/-- The weight matrix narrowed to the shorter float format keeps its entries: at the extended reals a format change
    is the identity. -/
theorem w3 : mat2 (n := 512) (a := 512) (A3 W (Proc.devRef .tc main_v43)) = mat2 (n := 512) (a := 512) (W (Proc.devRef .tc main_arg11)) := by
  after_results; rfl
theorem bb3 : row2 (a := 512) (A3 W (Proc.devRef .tc main_v44)) = row1 (a := 512) (W (Proc.devRef .tc main_arg12)) := by
  have h : A3 W (Proc.devRef .tc main_v44)
      = shapeCast ⟨2, ![1, 512]⟩ (W (Proc.devRef .tc main_arg12)) (by decide) := by
    after_results; rfl
  rw [h]
  exact row2_shapeCast _ _

/-- The membership matrix's buffer holds the membership matrix of the segment-id column. -/
theorem A3_onehot : A3 W (Proc.devRef .tc main_v51) = onehotOf (W (Proc.devRef .tc main_arg2)) := by
  after_results; rfl

/-- The membership matrix: one where row i's segment id, read signed, is g, zero elsewhere. -/
theorem onehot (i : Fin 100000) (g : Fin 64) :
    mat2 (n := 100000) (a := 64) (A3 W (Proc.devRef .tc main_v51)) i g = if segOf W i = (g.val : ℤ) then (1 : EReal) else 0 := by
  unfold mat2 segOf
  rw [A3_onehot]
  exact onehotOf_apply _ i g

/-- The buffers the stretch writes, in order. -/
def written3 : List (Ref sig .tc) :=
  [main_cst_9, main_v33, main_cst_10, main_v34, main_cst_11, main_v35, main_v36, main_cst_12, main_v37, main_v38, main_v39, main_v40, main_cst_13, main_v41, main_v42, main_v43, main_v44, main_v45, main_v46, main_v47, main_v48, main_v49, main_v50, main_v51]

/-- A buffer the stretch does not write keeps its contents: every operation writes its one result buffer, and that
    buffer is in the list. -/
theorem A3_of_not_written (r : Ref sig .tc) (hr : r ∉ written3) : A3 W (Proc.devRef .tc r) = W (Proc.devRef .tc r) :=
  StableHlo.after_of_writes_sub (W := written3) _ W (by
    simp only [hostOps3, List.Forall, StableHlo.nullary_writes, StableHlo.unary_writes, StableHlo.binary_writes,
      StableHlo.reshape_writes]
    repeat' apply And.intro
    all_goals
      rw [Finset.singleton_subset_iff, List.mem_toFinset]
      exact List.mem_map.mpr ⟨_, by decide, rfl⟩) hr

/-- The stretch writes no argument, not region 2's first output, and not BatchNorm's re-laid scale and shift. -/
theorem kept3 (r : Ref sig .tc) (hr : r ∈ main_v32_0 :: main_v28 :: main_v29 :: argRefs) :
    A3 W (Proc.devRef .tc r) = W (Proc.devRef .tc r) :=
  A3_of_not_written W r ((by decide : ∀ r ∈ main_v32_0 :: main_v28 :: main_v29 :: argRefs, r ∉ written3) r hr)

end Cert.KernelIdeal.Host

end
-- ==== Proof.KHead.lean ====
/-
  The head of the network as the kernel program's host operations spell it.
-/
import proofs.«412217_j43164421324860_3_alg».proof.Proof.Gen.KernelIdeal
import Idealize.ShloMosaic.PureOps.Ideal

noncomputable section

namespace Cert.KernelIdeal.Tail

open Cert.KernelIdeal Cert.KernelIdeal.Gen Idealize.ShloMosaic

/-- The head of the network: three dense layers with a leaky rectifier and a logistic between them, applied to the pooled
    value; the same host operations in both programs. -/
def head (p : FVec Ideal S64x512 .f32) (a15 : FVec Ideal S1 .f32) (a16 : FVec Ideal S512x512 .f32) (a17 : FVec Ideal S512 .f32)
    (a18 : FVec Ideal S512x256 .f32) (a19 : FVec Ideal S256 .f32) (a20 : FVec Ideal S256x10 .f32) (a21 : FVec Ideal S10 .f32) :
    FVec Ideal S64x10 .f32 :=
  have h1 : FVec Ideal S64x512 .f32 := addf (Host.dotGeneral dot_S64x512_S512x512_S64x512_1_0_0_1_n_n none p a16)
    (broadcastInDim S64x512 ![0, 1] bcast_S1x512_S64x512_0_1 (broadcastInDim S1x512 ![1] bcast_S512_S1x512_1 a17))
  have z : FVec Ideal S64x512 .f32 := broadcastInDim S64x512 ![] bcast_S_S64x512 (constant (F := Ideal) S_ .f32 0x00000000#32)
  have al : FVec Ideal S64x512 .f32 := broadcastInDim S64x512 ![0, 1] bcast_S1x1_S64x512_0_1 (broadcastInDim S1x1 ![1] bcast_S1_S1x1_1 a15)
  have pr : FVec Ideal S64x512 .f32 := select (cmpf .oge h1 z) h1 (mulf al h1)
  have h2 : FVec Ideal S64x256 .f32 := addf (Host.dotGeneral dot_S64x512_S512x256_S64x256_1_0_0_1_n_n none pr a18)
    (broadcastInDim S64x256 ![0, 1] bcast_S1x256_S64x256_0_1 (broadcastInDim S1x256 ![1] bcast_S256_S1x256_1 a19))
  have one : FVec Ideal S64x256 .f32 := broadcastInDim S64x256 ![] bcast_S_S64x256 (constant (F := Ideal) S_ .f32 0x3F800000#32)
  have sg : FVec Ideal S64x256 .f32 := Host.divf one (addf one (Host.exp (Host.negf h2)))
  addf (Host.dotGeneral dot_S64x256_S256x10_S64x10_1_0_0_1_n_n none sg a20)
    (broadcastInDim S64x10 ![0, 1] bcast_S1x10_S64x10_0_1 (broadcastInDim S1x10 ![1] bcast_S10_S1x10_1 a21))

end Cert.KernelIdeal.Tail

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KTail.lean ====
/-
  The kernel program's host operations after its last region, read at an arbitrary valuation W of the buffers: the
  last layer's mean and clamped variance out of the per-block sums, the per-segment row counts, the per-segment sums
  out of the per-block shares, BatchNorm's affine map applied to them, and the head.

  The three closing stretches are first read as one composed term at any float instance, where every operation is an
  uninterpreted symbol: the head applied to the host's pooled value, itself a term over the stretch's seven input
  arrays. At the exact instance that pooled value is then read entry by entry: a sum over the blocks for each reduction,
  the scatter of ones as a count of the rows of each segment, a quotient, a maximum, a reciprocal square root, and the
  [64, 1] and [1, 512] operands spread over [64, 512] read at their own row or column.
-/
import proofs.«412217_j43164421324860_3_alg».proof.Proof.Gen.KernelIdeal.Launch
import proofs.«412217_j43164421324860_3_alg».proof.Proof.KAcc
import proofs.«412217_j43164421324860_3_alg».proof.Proof.KHead
import proofs.«412217_j43164421324860_3_alg».proof.Proof.LibSegment
import proofs.«412217_j43164421324860_3_alg».proof.Proof.LibColumn
import Idealize.ShloMosaic.Lib.StableHlo.Run
import Idealize.ShloMosaic.Lib.Pipeline.Value
import Idealize.ShloMosaic.PureOps.Ideal.Laws

noncomputable section

open scoped BigOperators

namespace Cert.KernelIdeal.Tail

open Cert.KernelIdeal Cert.KernelIdeal.Gen Cert.KernelIdeal.Acc Cert.Spec
open Idealize.ShloMosaic Idealize.ShloMosaic.TcCoe Idealize.ShloMosaic.ValueIdx Idealize.SL.Sem

section Generic
variable {F : FTy → Type} [FloatOps F]

/-! ## The stretch's pure terms, over explicit arrays, at any float instance -/

/-- A [25, 1, 512] array of per-block rows summed over the blocks, from zero. -/
def sumRow (s : FVec F S25x1x512 .f32) : FVec F S1x512 .f32 :=
  Host.reduceAdd s (constant S_ .f32 0x00000000#32) reducesTo_S25x1x512_S1x512_d0 h_S_
/-- A [25, 64, 512] array of per-block matrices summed over the blocks, from zero. -/
def sumMat (s : FVec F S25x64x512 .f32) : FVec F S64x512 .f32 :=
  Host.reduceAdd s (constant S_ .f32 0x00000000#32) reducesTo_S25x64x512_S64x512_d0 h_S_
/-- The row count spread over a [1, 512] row. -/
def rowsV : FVec F S1x512 .f32 := broadcastInDim S1x512 ![] bcast_S_S1x512 (constant S_ .f32 0x47C35000#32)
/-- The column means as a [1, 512] row. -/
def meanV (s0 : FVec F S25x1x512 .f32) : FVec F S1x512 .f32 := Host.divf (sumRow s0) rowsV
/-- The clamped column variances as a [1, 512] row. -/
def varV (s0 s1 : FVec F S25x1x512 .f32) : FVec F S1x512 .f32 :=
  maximumf (subf (Host.divf (sumRow s1) rowsV) (mulf (meanV s0) (meanV s0)))
    (broadcastInDim S1x512 ![] bcast_S_S1x512 (constant S_ .f32 0x00000000#32))
/-- The per-segment row counts as a [64, 1] column: ones scattered by segment id into zeros. -/
def cntV (seg : IVec S100000 32) : FVec F S64x1 .f32 :=
  shapeCast S64x1
    (Host.scatterAdd scatter_S64_S100000x1_S100000_n_0_0_1
      (broadcastInDim S64 ![] bcast_S_S64 (constant (F := F) S_ .f32 0x00000000#32))
      (broadcastInDim S100000x1 ![0] bcast_S100000_S100000x1_0 seg)
      (broadcastInDim S100000 ![] bcast_S_S100000 (constant (F := F) S_ .f32 0x3F800000#32)))
    shapeCasts_S64_S64x1
/-- BatchNorm's scale: rsqrt(variance + epsilon) * gamma, as a [1, 512] row. -/
def scaleV (s0 s1 : FVec F S25x1x512 .f32) (gam : FVec F S1x512 .f32) : FVec F S1x512 .f32 :=
  mulf (Host.rsqrt (addf (varV s0 s1)
    (broadcastInDim S1x512 ![] bcast_S_S1x512 (constant S_ .f32 0x3727C5AC#32)))) gam
/-- The pooled value as the host spells it: (sums - count * mean) * scale + count * beta, the [64, 1] and [1, 512]
    operands spread over [64, 512]. -/
def pooledV (s0 s1 : FVec F S25x1x512 .f32) (s2 : FVec F S25x64x512 .f32) (seg : IVec S100000 32)
    (gam bet : FVec F S1x512 .f32) : FVec F S64x512 .f32 :=
  addf
    (mulf
      (subf (sumMat s2)
        (mulf (broadcastInDim S64x512 ![0, 1] bcast_S64x1_S64x512_0_1 (cntV seg))
          (broadcastInDim S64x512 ![0, 1] bcast_S1x512_S64x512_0_1 (meanV s0))))
      (broadcastInDim S64x512 ![0, 1] bcast_S1x512_S64x512_0_1 (scaleV s0 s1 gam)))
    (mulf (broadcastInDim S64x512 ![0, 1] bcast_S64x1_S64x512_0_1 (cntV (F := F) seg))
      (broadcastInDim S64x512 ![0, 1] bcast_S1x512_S64x512_0_1 bet))

/-- The head of the network at any float instance: three dense layers with a leaky rectifier and a logistic between them. -/
def headF (p : FVec F S64x512 .f32) (a15 : FVec F S1 .f32) (a16 : FVec F S512x512 .f32) (a17 : FVec F S512 .f32)
    (a18 : FVec F S512x256 .f32) (a19 : FVec F S256 .f32) (a20 : FVec F S256x10 .f32) (a21 : FVec F S10 .f32) :
    FVec F S64x10 .f32 :=
  have h1 : FVec F S64x512 .f32 := addf (Host.dotGeneral dot_S64x512_S512x512_S64x512_1_0_0_1_n_n none p a16)
    (broadcastInDim S64x512 ![0, 1] bcast_S1x512_S64x512_0_1 (broadcastInDim S1x512 ![1] bcast_S512_S1x512_1 a17))
  have z : FVec F S64x512 .f32 := broadcastInDim S64x512 ![] bcast_S_S64x512 (constant S_ .f32 0x00000000#32)
  have al : FVec F S64x512 .f32 := broadcastInDim S64x512 ![0, 1] bcast_S1x1_S64x512_0_1 (broadcastInDim S1x1 ![1] bcast_S1_S1x1_1 a15)
  have pr : FVec F S64x512 .f32 := select (cmpf .oge h1 z) h1 (mulf al h1)
  have h2 : FVec F S64x256 .f32 := addf (Host.dotGeneral dot_S64x512_S512x256_S64x256_1_0_0_1_n_n none pr a18)
    (broadcastInDim S64x256 ![0, 1] bcast_S1x256_S64x256_0_1 (broadcastInDim S1x256 ![1] bcast_S256_S1x256_1 a19))
  have one : FVec F S64x256 .f32 := broadcastInDim S64x256 ![] bcast_S_S64x256 (constant S_ .f32 0x3F800000#32)
  have sg : FVec F S64x256 .f32 := Host.divf one (addf one (Host.exp (Host.negf h2)))
  addf (Host.dotGeneral dot_S64x256_S256x10_S64x10_1_0_0_1_n_n none sg a20)
    (broadcastInDim S64x10 ![0, 1] bcast_S1x10_S64x10_0_1 (broadcastInDim S1x10 ![1] bcast_S10_S1x10_1 a21))

set_option maxHeartbeats 1000000 in
/-- The three closing stretches, read at the result: the head applied to the host's pooled value. One pass over the
    fold: each operation's result at its own buffer, every other buffer as it was. -/
theorem fold_F (V : Valuation τ sig (Elt F)) :
    StableHlo.after (hostOps4_2 (F := F)) (StableHlo.after (hostOps4_1 (F := F)) (StableHlo.after (hostOps4 (F := F)) V)) (Proc.devRef .tc main_v106)
      = headF (pooledV (V (Proc.devRef .tc main_v52_0)) (V (Proc.devRef .tc main_v52_1)) (V (Proc.devRef .tc main_v52_2))
            (V (Proc.devRef .tc main_arg2)) (V (Proc.devRef .tc main_v28)) (V (Proc.devRef .tc main_v29)))
          (V (Proc.devRef .tc main_arg15)) (V (Proc.devRef .tc main_arg16)) (V (Proc.devRef .tc main_arg17))
          (V (Proc.devRef .tc main_arg18)) (V (Proc.devRef .tc main_arg19)) (V (Proc.devRef .tc main_arg20)) (V (Proc.devRef .tc main_arg21)) := by
  after_results_simp
  rfl

end Generic

/-! ## The pure terms read at an index -/

/-- A scalar spread over an array reads the scalar's word everywhere. -/
theorem bcast0_apply {t : Shape} (h : S_.BroadcastsInDim t (![] : Fin 0 → Fin t.rank)) (b : BitVec 32) (j : t.Idx) :
    broadcastInDim t ![] h (constant (F := Ideal) S_ .f32 b) j = Ideal.ofBits .f32 b := rfl

/-- A [1, 512] row spread over [64, 512] reads, at (g, d), the row at d. -/
theorem bcastRow_apply (v : FVec Ideal S1x512 .f32) (g : Fin 64) (d : Fin 512) :
    broadcastInDim S64x512 ![0, 1] bcast_S1x512_S64x512_0_1 v (ix2 g d) = v (ix2 0 d) :=
  broadcastInDim_apply _ _ v (ix2 g d) (ix2 0 d) fun a =>
    match a with
    | ⟨0, _⟩ => rfl
    | ⟨1, _⟩ => rfl

/-- A [64, 1] column spread over [64, 512] reads, at (g, d), the column at g. -/
theorem bcastCol_apply (v : FVec Ideal S64x1 .f32) (g : Fin 64) (d : Fin 512) :
    broadcastInDim S64x512 ![0, 1] bcast_S64x1_S64x512_0_1 v (ix2 g d) = v (ix2 g 0) :=
  broadcastInDim_apply _ _ v (ix2 g d) (ix2 g 0) fun a =>
    match a with
    | ⟨0, _⟩ => rfl
    | ⟨1, _⟩ => rfl

/-- The sum over the blocks of a [25, 1, 512] array, at column d. -/
theorem sumRow_apply (s : FVec Ideal S25x1x512 .f32) (d : Fin 512) :
    sumRow s (ix2 0 d) = ∑ t : Fin 25, s (ix3 t 0 d) := by
  have h : S25x1x512.Reduces [0] S1x512 := by decide
  refine (Ideal.hostReduceAdd_single reducesTo_S25x1x512_S1x512_d0 h s _ (ix2 0 d)).trans ?_
  rw [show (constant (F := Ideal) S_ .f32 0x00000000#32) (Shape.Idx.first h_S_) = Ideal.ofBits .f32 0x00000000#32 from rfl,
    Cert.Consts.ofBits_zero, zero_add]
  refine Finset.sum_congr rfl fun t _ => congrArg s ?_
  funext a
  match a with
  | ⟨0, _⟩ => rfl
  | ⟨1, _⟩ => rfl
  | ⟨2, _⟩ => rfl

/-- The sum over the blocks of a [25, 64, 512] array, at (g, d). -/
theorem sumMat_apply (s : FVec Ideal S25x64x512 .f32) (g : Fin 64) (d : Fin 512) :
    sumMat s (ix2 g d) = ∑ t : Fin 25, s (ix3 t g d) := by
  have h : S25x64x512.Reduces [0] S64x512 := by decide
  refine (Ideal.hostReduceAdd_single reducesTo_S25x64x512_S64x512_d0 h s _ (ix2 g d)).trans ?_
  rw [show (constant (F := Ideal) S_ .f32 0x00000000#32) (Shape.Idx.first h_S_) = Ideal.ofBits .f32 0x00000000#32 from rfl,
    Cert.Consts.ofBits_zero, zero_add]
  refine Finset.sum_congr rfl fun t _ => congrArg s ?_
  funext a
  match a with
  | ⟨0, _⟩ => rfl
  | ⟨1, _⟩ => rfl
  | ⟨2, _⟩ => rfl

/-- The mean row at column d. -/
theorem meanV_apply (s0 : FVec Ideal S25x1x512 .f32) (d : Fin 512) :
    meanV s0 (ix2 0 d) = Ideal.div (∑ t : Fin 25, s0 (ix3 t 0 d)) rows := by
  show Ideal.div (sumRow s0 (ix2 0 d)) (rowsV (F := Ideal) (ix2 0 d)) = _
  rw [sumRow_apply]
  rfl

/-- The clamped variance row at column d. -/
theorem varV_apply (s0 s1 : FVec Ideal S25x1x512 .f32) (d : Fin 512) :
    varV s0 s1 (ix2 0 d)
      = max (Ideal.div (∑ t : Fin 25, s1 (ix3 t 0 d)) rows - meanV s0 (ix2 0 d) * meanV s0 (ix2 0 d)) 0 := by
  show max (Ideal.div (sumRow s1 (ix2 0 d)) (rowsV (F := Ideal) (ix2 0 d)) - meanV s0 (ix2 0 d) * meanV s0 (ix2 0 d))
      (Ideal.ofBits .f32 0x00000000#32) = _
  rw [sumRow_apply, Cert.Consts.ofBits_zero]
  rfl

/-- The scale row at column d. -/
theorem scaleV_apply (s0 s1 : FVec Ideal S25x1x512 .f32) (gam : FVec Ideal S1x512 .f32) (d : Fin 512) :
    scaleV s0 s1 gam (ix2 0 d) = Ideal.rsqrt (varV s0 s1 (ix2 0 d) + eps) * gam (ix2 0 d) := rfl

/-- The printed dimension numbers of the count's scatter are those of a segment sum of scalars. -/
theorem scatter_eq :
    scatter_S64_S100000x1_S100000_n_0_0_1 = Cert.LibSegment.segDims1 64 100000 scatter_S64_S100000x1_S100000_n_0_0_1_wf := rfl

/-- The count column at row g: how many rows carry segment id g. -/
theorem cntV_apply (seg : IVec S100000 32) (g : Fin 64) :
    cntV (F := Ideal) seg (ix2 g 0) = segCnt (fun i => (seg (ix1 i)).toInt) g := by
  unfold cntV
  rw [Cert.LibColumn.shapeCast_a_a1_apply]
  show Ideal.hostScatterAdd scatter_S64_S100000x1_S100000_n_0_0_1 _ _ _ (ix1 g) = _
  rw [scatter_eq, Cert.LibSegment.scatterAdd_seg1_apply]
  rw [bcast0_apply, Cert.Consts.ofBits_zero, zero_add]
  unfold segCnt
  refine Finset.sum_congr rfl fun e _ => ?_
  rw [bcast0_apply, Cert.Consts.ofBits_one]
  have hidx : broadcastInDim S100000x1 ![0] bcast_S100000_S100000x1_0 seg (StableHlo.Predicate.ixP e) = seg (ix1 e) :=
    broadcastInDim_apply _ _ seg _ (ix1 e) fun a => match a with | ⟨0, _⟩ => rfl
  rw [hidx]

/-- The host's pooled value at (g, d). -/
theorem pooledV_apply (s0 s1 : FVec Ideal S25x1x512 .f32) (s2 : FVec Ideal S25x64x512 .f32) (seg : IVec S100000 32)
    (gam bet : FVec Ideal S1x512 .f32) (g : Fin 64) (d : Fin 512) :
    pooledV s0 s1 s2 seg gam bet (ix2 g d)
      = (sumMat s2 (ix2 g d) - cntV (F := Ideal) seg (ix2 g 0) * meanV s0 (ix2 0 d)) * scaleV s0 s1 gam (ix2 0 d)
        + cntV (F := Ideal) seg (ix2 g 0) * bet (ix2 0 d) := by
  show (sumMat s2 (ix2 g d)
        - broadcastInDim S64x512 ![0, 1] bcast_S64x1_S64x512_0_1 (cntV (F := Ideal) seg) (ix2 g d)
          * broadcastInDim S64x512 ![0, 1] bcast_S1x512_S64x512_0_1 (meanV s0) (ix2 g d))
      * broadcastInDim S64x512 ![0, 1] bcast_S1x512_S64x512_0_1 (scaleV s0 s1 gam) (ix2 g d)
      + broadcastInDim S64x512 ![0, 1] bcast_S64x1_S64x512_0_1 (cntV (F := Ideal) seg) (ix2 g d)
        * broadcastInDim S64x512 ![0, 1] bcast_S1x512_S64x512_0_1 bet (ix2 g d) = _
  rw [bcastCol_apply, bcastRow_apply, bcastRow_apply, bcastRow_apply]

variable (W : Val)

/-- The buffers after the three closing stretches. -/
abbrev A4 : Val :=
  StableHlo.after (hostOps4_2 (F := Ideal)) (StableHlo.after (hostOps4_1 (F := Ideal)) (StableHlo.after (hostOps4 (F := Ideal)) W))

/-- The last layer's column means, from the per-block sums. -/
def mu : Row 512 := fun d => Ideal.div (∑ t : Fin 25, part3 (T := 25) (a := 512) (W (Proc.devRef .tc main_v52_0)) t d) rows
/-- Its clamped variances, from the per-block sums of squares. -/
def va : Row 512 := fun d =>
  max (Ideal.div (∑ t : Fin 25, part3 (T := 25) (a := 512) (W (Proc.devRef .tc main_v52_1)) t d) rows - mu W d * mu W d) 0
/-- The per-segment sums, from the per-block shares. -/
def raw : Mat 64 512 := fun g d => ∑ t : Fin 25, part3m (T := 25) (G := 64) (a := 512) (W (Proc.devRef .tc main_v52_2)) t g d
/-- BatchNorm's affine map applied to the per-segment sums with the per-segment counts. -/
def pooled : Mat 64 512 := fun g d =>
  (raw W g d - segCnt (segOf W) g * mu W d)
      * (Ideal.rsqrt (va W d + eps) * row2 (a := 512) (W (Proc.devRef .tc main_v28)) d)
    + segCnt (segOf W) g * row2 (a := 512) (W (Proc.devRef .tc main_v29)) d

/-- The host's pooled value is the specification's, entry by entry. -/
theorem pooledV_eq :
    pooledV (F := Ideal) (W (Proc.devRef .tc main_v52_0)) (W (Proc.devRef .tc main_v52_1)) (W (Proc.devRef .tc main_v52_2))
        (W (Proc.devRef .tc main_arg2)) (W (Proc.devRef .tc main_v28)) (W (Proc.devRef .tc main_v29))
      = fun j : S64x512.Idx => pooled W (j 0) (j 1) := by
  funext j
  obtain ⟨g, d, rfl⟩ : ∃ g d, j = ix2 g d := ⟨j 0, j 1, eq_ix2 j⟩
  rw [pooledV_apply, sumMat_apply, cntV_apply, scaleV_apply, varV_apply, meanV_apply]
  rfl

/-- The program's result is the head applied to that pooled value. -/
theorem result_eq :
    A4 W (Proc.devRef .tc main_v106)
      = head (fun j => pooled W (j 0) (j 1)) (W (Proc.devRef .tc main_arg15)) (W (Proc.devRef .tc main_arg16)) (W (Proc.devRef .tc main_arg17))
          (W (Proc.devRef .tc main_arg18)) (W (Proc.devRef .tc main_arg19)) (W (Proc.devRef .tc main_arg20)) (W (Proc.devRef .tc main_arg21)) := by
  rw [← pooledV_eq W]
  exact fold_F (F := Ideal) W

end Cert.KernelIdeal.Tail

end
-- ==== Proof.SpecPool.lean ====
/-
  Sums over blocks of consecutive rows, and BatchNorm's affine map carried through the segment sum.
-/
import proofs.«412217_j43164421324860_3_alg».proof.Proof.Spec

noncomputable section

open scoped BigOperators

namespace Cert.Spec

open Idealize.ShloMosaic

/-- A sum over `T` blocks of `R` consecutive rows is the sum over all `T * R` rows. -/
theorem sum_blocks {M : Type*} [AddCommMonoid M] (T R : ℕ) (f : Fin (T * R) → M) :
    (∑ t : Fin T, ∑ r : Fin R, f ⟨t.val * R + r.val, by
        have := t.isLt; have := r.isLt; nlinarith⟩) = ∑ i, f i := by
  -- Row `t * R + r` is the image of the pair `(t, r)` under the bijection of `Fin T × Fin R` with `Fin (T * R)`.
  rw [← Equiv.sum_comp finProdFinEquiv f, Fintype.sum_prod_type]
  refine Finset.sum_congr rfl fun t _ => Finset.sum_congr rfl fun r _ => ?_
  congr 1
  apply Fin.ext
  simp only [finProdFinEquiv_apply_val]
  ring

/-! ## Real sums inside the extended reals -/

/-- A real sum, read in the extended reals, is the sum of the readings. -/
theorem pool_coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A real summand that is switched off to zero reads as the switched-off reading. -/
theorem coe_ite_zero (p : Prop) [Decidable p] (x : ℝ) :
    ((if p then x else 0 : ℝ) : EReal) = if p then (x : EReal) else 0 := by
  split_ifs <;> simp

/-- The mean of a real column is real: the real column sum times the reciprocal of the row count. -/
theorem pool_mean_real {n a : ℕ} {h : Mat n a} (hh : Mat.Real h) (d : Fin a) : ∃ m : ℝ, mean h d = m := by
  choose x hx using hh
  refine ⟨(∑ i, x i d) * (1 / 100000), ?_⟩
  simp only [mean, colSum]
  rw [rows_eq, Ideal.div_coe (by norm_num), EReal.coe_mul, pool_coe_sum]
  simp only [hx]

/-- A nonnegative real variance plus epsilon is a positive real, so its reciprocal square root is real. -/
theorem rsqrt_real {v : ℝ} (hv : 0 ≤ v) : ∃ r : ℝ, Ideal.rsqrt ((v : EReal) + eps) = r := by
  have hpos : 0 < v + 2748779 / 274877906944 := add_pos_of_nonneg_of_pos hv (by norm_num)
  refine ⟨(Real.sqrt (v + 2748779 / 274877906944))⁻¹, ?_⟩
  rw [eps_eq, ← EReal.coe_add, Ideal.rsqrt_coe, if_neg (not_lt.mpr hpos.le), if_neg hpos.ne']

/-! ## The affine map through a switched sum -/

/-- Over the reals: with `c i` selecting rows, the selected sum of `(x - m) * r * γ + β` is
    `(selected sum of x - count * m) * (r * γ) + count * β`, by distributivity term by term. -/
theorem pooled_sum_real {n : ℕ} (c : Fin n → Prop) [DecidablePred c] (x : Fin n → ℝ) (m r γ β : ℝ) :
    (∑ i, if c i then (x i - m) * r * γ + β else 0) =
      ((∑ i, if c i then x i else 0) - (∑ i, if c i then (1 : ℝ) else 0) * m) * (r * γ)
        + (∑ i, if c i then (1 : ℝ) else 0) * β := by
  simp only [Finset.sum_mul, ← Finset.sum_sub_distrib, ← Finset.sum_add_distrib]
  refine Finset.sum_congr rfl fun i _ => ?_
  split_ifs <;> ring

/-- The same identity in the extended reals, every quantity being the reading of a real. -/
theorem pooled_sum_ereal {n : ℕ} (c : Fin n → Prop) [DecidablePred c] (x : Fin n → ℝ) (m r γ β : ℝ) :
    (∑ i, if c i then ((x i : EReal) - m) * r * γ + β else 0) =
      ((∑ i, if c i then (x i : EReal) else 0) - (∑ i, if c i then (1 : EReal) else 0) * m) * ((r : EReal) * γ)
        + (∑ i, if c i then (1 : EReal) else 0) * β := by
  have h1 : (∑ i, if c i then (x i : EReal) else 0) = ((∑ i, if c i then x i else 0 : ℝ) : EReal) := by
    rw [pool_coe_sum]
    exact Finset.sum_congr rfl fun i _ => (coe_ite_zero _ _).symm
  have h2 : (∑ i, if c i then (1 : EReal) else 0) = ((∑ i, if c i then (1 : ℝ) else 0 : ℝ) : EReal) := by
    rw [pool_coe_sum]
    exact Finset.sum_congr rfl fun i _ => by rw [coe_ite_zero, EReal.coe_one]
  have h3 : (∑ i, if c i then ((x i : EReal) - m) * r * γ + β else 0)
      = ((∑ i, if c i then (x i - m) * r * γ + β else 0 : ℝ) : EReal) := by
    rw [pool_coe_sum]
    refine Finset.sum_congr rfl fun i _ => ?_
    rw [coe_ite_zero, EReal.coe_add, EReal.coe_mul, EReal.coe_mul, EReal.coe_sub]
  rw [h1, h2, h3, pooled_sum_real]
  simp only [EReal.coe_add, EReal.coe_mul, EReal.coe_sub]

/-- Summing, per segment, the normalised rows is the same as normalising the per-segment sums with the count: over
    real entries, where multiplication distributes over the sums. The two variances are assumed equal. -/
theorem pooled_eq {a : ℕ} (seg : Fin 100000 → ℤ) (h : Mat 100000 a) (gam bet : Row a)
    (hh : Mat.Real h) (hg : Row.Real gam) (hb : Row.Real bet) (hv : varK h = varR h)
    (hvr : ∀ d, ∃ r : ℝ, 0 ≤ r ∧ varR h d = r) :
    (pooledK seg h gam bet : Mat 64 a) = pooledR seg h gam bet := by
  funext g d
  -- At a fixed segment and column every ingredient is the reading of a real.
  obtain ⟨m, hm⟩ := pool_mean_real hh d
  obtain ⟨γ, hγ⟩ := hg d
  obtain ⟨β, hβ⟩ := hb d
  obtain ⟨v, hv0, hvd⟩ := hvr d
  obtain ⟨r, hr⟩ := rsqrt_real hv0
  choose x hx using hh
  simp only [pooledK, pooledR, segSum, segCnt, bn, hv, hvd, hr, hm, hx, hγ, hβ]
  exact (pooled_sum_ereal (fun i => seg i = (g.val : ℤ)) (fun i => x i d) m r γ β).symm

end Cert.Spec

end
-- ==== Proof.KChain.lean ====
/-
  The kernel program's buffers at each boundary of @main, in terms of what was launched: the input matrix X, the
  parameters P and the segment ids. Region by region and stretch by stretch, the per-block sums add up to the column
  sums over all rows, so each mean and clamped variance is the specification's, and each layer's result is the
  specification's hidden layer.
-/
import proofs.«412217_j43164421324860_3_alg».proof.Proof.KernelRun
import proofs.«412217_j43164421324860_3_alg».proof.Proof.Region0
import proofs.«412217_j43164421324860_3_alg».proof.Proof.Region1
import proofs.«412217_j43164421324860_3_alg».proof.Proof.Region2
import proofs.«412217_j43164421324860_3_alg».proof.Proof.Region3
import proofs.«412217_j43164421324860_3_alg».proof.Proof.KHost
import proofs.«412217_j43164421324860_3_alg».proof.Proof.KTail
import proofs.«412217_j43164421324860_3_alg».proof.Proof.SpecPool

set_option maxRecDepth 16384

noncomputable section

open scoped BigOperators

namespace Cert.KernelIdeal.Chain

open Cert.KernelIdeal Cert.KernelIdeal.Gen Cert.KernelIdeal.Acc Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The launched input, parameters and segment ids. -/
abbrev X : Mat 100000 128 := xOf (W0 m ρ c)
abbrev P : Params := paramsOf (W0 m ρ c)
abbrev sg : Fin 100000 → ℤ := segOf (W0 m ρ c)

/-! ## The arguments no region stages keep their launch contents through every boundary -/

/-- The arguments that only host operations read. -/
def hostArgs : List (Ref sig .tc) := [main_arg2, main_arg3, main_arg4, main_arg5, main_arg6, main_arg7, main_arg8, main_arg9, main_arg10, main_arg11, main_arg12, main_arg13, main_arg14, main_arg15, main_arg16, main_arg17, main_arg18, main_arg19, main_arg20, main_arg21]

theorem hostArgs_sub : ∀ r ∈ hostArgs, r ∈ argRefs := by decide
theorem ne0 : ∀ r ∈ hostArgs, ∀ w, Pipeline.arrRef spec0 w ≠ r := by decide
theorem ne1 : ∀ r ∈ hostArgs, ∀ w, Pipeline.arrRef spec1 w ≠ r := by decide
theorem ne2 : ∀ r ∈ hostArgs, ∀ w, Pipeline.arrRef spec2 w ≠ r := by decide
theorem ne3 : ∀ r ∈ hostArgs, ∀ w, Pipeline.arrRef spec3 w ≠ r := by decide

theorem W1_host (r : Ref sig .tc) (hr : r ∈ hostArgs) : W1 m ρ c (Proc.devRef .tc r) = W0 m ρ c (Proc.devRef .tc r) :=
  W1_of_ne m ρ c r (ne0 r hr)
theorem W2_host (r : Ref sig .tc) (hr : r ∈ hostArgs) : W2 m ρ c (Proc.devRef .tc r) = W0 m ρ c (Proc.devRef .tc r) :=
  (Host.kept1 (W1 m ρ c) r (hostArgs_sub r hr)).trans (W1_host m ρ c r hr)
theorem W3_host (r : Ref sig .tc) (hr : r ∈ hostArgs) : W3 m ρ c (Proc.devRef .tc r) = W0 m ρ c (Proc.devRef .tc r) :=
  (W3_of_ne m ρ c r (ne1 r hr)).trans (W2_host m ρ c r hr)
theorem W4_host (r : Ref sig .tc) (hr : r ∈ hostArgs) : W4 m ρ c (Proc.devRef .tc r) = W0 m ρ c (Proc.devRef .tc r) :=
  (Host.kept2 (W3 m ρ c) r (List.mem_cons_of_mem _ (hostArgs_sub r hr))).trans (W3_host m ρ c r hr)
theorem W5_host (r : Ref sig .tc) (hr : r ∈ hostArgs) : W5 m ρ c (Proc.devRef .tc r) = W0 m ρ c (Proc.devRef .tc r) :=
  (W5_of_ne m ρ c r (ne2 r hr)).trans (W4_host m ρ c r hr)
theorem W6_host (r : Ref sig .tc) (hr : r ∈ hostArgs) : W6 m ρ c (Proc.devRef .tc r) = W0 m ρ c (Proc.devRef .tc r) :=
  (Host.kept3 (W5 m ρ c) r (List.mem_cons_of_mem _ (List.mem_cons_of_mem _ (List.mem_cons_of_mem _ (hostArgs_sub r hr))))).trans
    (W5_host m ρ c r hr)
theorem W7_host (r : Ref sig .tc) (hr : r ∈ hostArgs) : W7 m ρ c (Proc.devRef .tc r) = W0 m ρ c (Proc.devRef .tc r) :=
  (W7_of_ne m ρ c r (ne3 r hr)).trans (W6_host m ρ c r hr)

/-- The input matrix is staged by regions 0 and 1 and written by nothing. -/
theorem W1_x : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem W2_x : W2 m ρ c (Proc.devRef .tc main_arg0) = W0 m ρ c (Proc.devRef .tc main_arg0) :=
  (Host.kept1 (W1 m ρ c) main_arg0 (by decide)).trans (W1_x m ρ c)

/-! ## Sums over blocks -/

/-- Ten blocks of 10000 rows are all 100000 rows. -/
theorem sum10 (f : Fin 100000 → EReal) :
    (∑ t : Fin 10, ∑ r : Fin 10000, f ⟨t.val * 10000 + r.val, by have := t.isLt; have := r.isLt; omega⟩) = ∑ i, f i :=
  sum_blocks 10 10000 f
/-- Twenty-five blocks of 4000 rows are all 100000 rows. -/
theorem sum25 (f : Fin 100000 → EReal) :
    (∑ t : Fin 25, ∑ r : Fin 4000, f ⟨t.val * 4000 + r.val, by have := t.isLt; have := r.isLt; omega⟩) = ∑ i, f i :=
  sum_blocks 25 4000 f

/-! ## After region 0: the per-block column sums of X and of its squares -/

theorem w1_sum (t : Fin 10) (d : Fin 128) :
    part3 (T := 10) (a := 128) (W1 m ρ c (Proc.devRef .tc main_v0_0)) t d = ∑ r : Fin 10000, X m ρ c ⟨t.val * 10000 + r.val, by have := t.isLt; have := r.isLt; omega⟩ d := by
  have e : W1 m ρ c (Proc.devRef .tc main_v0_0) = (dat0 (V0 m ρ) c).arrAt 1 cfg0.N := W1_arr m ρ c 1
  rw [e]; exact Region0.out_sum (V0 m ρ) c t d

theorem w1_sumsq (t : Fin 10) (d : Fin 128) :
    part3 (T := 10) (a := 128) (W1 m ρ c (Proc.devRef .tc main_v0_1)) t d
      = ∑ r : Fin 10000, X m ρ c ⟨t.val * 10000 + r.val, by have := t.isLt; have := r.isLt; omega⟩ d * X m ρ c ⟨t.val * 10000 + r.val, by have := t.isLt; have := r.isLt; omega⟩ d := by
  have e : W1 m ρ c (Proc.devRef .tc main_v0_1) = (dat0 (V0 m ρ) c).arrAt 2 cfg0.N := W1_arr m ρ c 2
  rw [e]; exact Region0.out_sumsq (V0 m ρ) c t d

/-! ## Before region 1: X's statistics and the first two layers' parameters -/

theorem main_v4_eq : row2 (a := 128) (W2 m ρ c (Proc.devRef .tc main_v4)) = mean (X m ρ c) := by
  funext d
  rw [show W2 m ρ c = Host.A1 (W1 m ρ c) from rfl, Host.mean1]
  simp only [w1_sum m ρ c]
  rw [sum10 (fun i => X m ρ c i d)]
  rfl

theorem main_v10_eq : row2 (a := 128) (W2 m ρ c (Proc.devRef .tc main_v10)) = varK (X m ρ c) := by
  funext d
  rw [show W2 m ρ c = Host.A1 (W1 m ρ c) from rfl, Host.var1, Host.mean1]
  simp only [w1_sum m ρ c, w1_sumsq m ρ c]
  rw [sum10 (fun i => X m ρ c i d), sum10 (fun i => X m ρ c i d * X m ρ c i d)]
  rfl

theorem main_v11_eq : row2 (a := 128) (W2 m ρ c (Proc.devRef .tc main_v11)) = (P m ρ c).g1 := by
  rw [show W2 m ρ c = Host.A1 (W1 m ρ c) from rfl, Host.g1, W1_host m ρ c main_arg3 (by decide)]
  rfl

theorem main_v12_eq : row2 (a := 128) (W2 m ρ c (Proc.devRef .tc main_v12)) = (P m ρ c).b1 := by
  rw [show W2 m ρ c = Host.A1 (W1 m ρ c) from rfl, Host.b1, W1_host m ρ c main_arg4 (by decide)]
  rfl

theorem main_v13_eq : mat2 (n := 128) (a := 512) (W2 m ρ c (Proc.devRef .tc main_v13)) = (P m ρ c).w0 := by
  rw [show W2 m ρ c = Host.A1 (W1 m ρ c) from rfl, Host.w0, W1_host m ρ c main_arg5 (by decide)]
  rfl

theorem main_v14_eq : row2 (a := 512) (W2 m ρ c (Proc.devRef .tc main_v14)) = (P m ρ c).b0 := by
  rw [show W2 m ρ c = Host.A1 (W1 m ρ c) from rfl, Host.b0, W1_host m ρ c main_arg6 (by decide)]
  rfl

theorem main_v15_eq : mat2 (n := 512) (a := 512) (W2 m ρ c (Proc.devRef .tc main_v15)) = (P m ρ c).w1 := by
  rw [show W2 m ρ c = Host.A1 (W1 m ρ c) from rfl, Host.w1, W1_host m ρ c main_arg7 (by decide)]
  rfl

theorem main_v16_eq : row2 (a := 512) (W2 m ρ c (Proc.devRef .tc main_v16)) = (P m ρ c).bb1 := by
  rw [show W2 m ρ c = Host.A1 (W1 m ρ c) from rfl, Host.bb1, W1_host m ρ c main_arg8 (by decide)]
  rfl

/-! ## Region 1: the first hidden layer -/

theorem h1_eq : Region1.h1 (V2 m ρ) c = h1K (X m ρ c) (P m ρ c) := by
  have e0 : Region1.xIn (V2 m ρ) c = X m ρ c := by
    show mat2 (n := 100000) (a := 128) (W2 m ρ c (Proc.devRef .tc main_arg0)) = _
    rw [W2_x]
    rfl
  unfold Region1.h1 h1K
  rw [e0, show Region1.muIn (V2 m ρ) c = _ from main_v4_eq m ρ c, show Region1.vaIn (V2 m ρ) c = _ from main_v10_eq m ρ c,
    show Region1.gIn (V2 m ρ) c = _ from main_v11_eq m ρ c, show Region1.bIn (V2 m ρ) c = _ from main_v12_eq m ρ c,
    show Region1.w0In (V2 m ρ) c = _ from main_v13_eq m ρ c, show Region1.b0In (V2 m ρ) c = _ from main_v14_eq m ρ c,
    show Region1.w1In (V2 m ρ) c = _ from main_v15_eq m ρ c, show Region1.b1In (V2 m ρ) c = _ from main_v16_eq m ρ c]

theorem w3_h : mat2 (n := 100000) (a := 512) (W3 m ρ c (Proc.devRef .tc main_v17_0)) = h1K (X m ρ c) (P m ρ c) := by
  have e : W3 m ρ c (Proc.devRef .tc main_v17_0) = (dat1 (V2 m ρ) c).arrAt 9 cfg1.N := W3_arr m ρ c 9
  rw [e, Region1.out_h, h1_eq]

theorem w3_sum (t : Fin 25) (d : Fin 512) :
    part3 (T := 25) (a := 512) (W3 m ρ c (Proc.devRef .tc main_v17_1)) t d = ∑ r : Fin 4000, h1K (X m ρ c) (P m ρ c) ⟨t.val * 4000 + r.val, by have := t.isLt; have := r.isLt; omega⟩ d := by
  have e : W3 m ρ c (Proc.devRef .tc main_v17_1) = (dat1 (V2 m ρ) c).arrAt 10 cfg1.N := W3_arr m ρ c 10
  rw [e, Region1.out_sum, h1_eq]

theorem w3_sumsq (t : Fin 25) (d : Fin 512) :
    part3 (T := 25) (a := 512) (W3 m ρ c (Proc.devRef .tc main_v17_2)) t d
      = ∑ r : Fin 4000, h1K (X m ρ c) (P m ρ c) ⟨t.val * 4000 + r.val, by have := t.isLt; have := r.isLt; omega⟩ d * h1K (X m ρ c) (P m ρ c) ⟨t.val * 4000 + r.val, by have := t.isLt; have := r.isLt; omega⟩ d := by
  have e : W3 m ρ c (Proc.devRef .tc main_v17_2) = (dat1 (V2 m ρ) c).arrAt 11 cfg1.N := W3_arr m ρ c 11
  rw [e, Region1.out_sumsq, h1_eq]

/-! ## Before region 2 -/

theorem main_v21_eq : row2 (a := 512) (W4 m ρ c (Proc.devRef .tc main_v21)) = mean (h1K (X m ρ c) (P m ρ c)) := by
  funext d
  rw [show W4 m ρ c = Host.A2 (W3 m ρ c) from rfl, Host.mean2]
  simp only [w3_sum m ρ c]
  rw [sum25 (fun i => h1K (X m ρ c) (P m ρ c) i d)]
  rfl

theorem main_v27_eq : row2 (a := 512) (W4 m ρ c (Proc.devRef .tc main_v27)) = varK (h1K (X m ρ c) (P m ρ c)) := by
  funext d
  rw [show W4 m ρ c = Host.A2 (W3 m ρ c) from rfl, Host.var2, Host.mean2]
  simp only [w3_sum m ρ c, w3_sumsq m ρ c]
  rw [sum25 (fun i => h1K (X m ρ c) (P m ρ c) i d), sum25 (fun i => h1K (X m ρ c) (P m ρ c) i d * h1K (X m ρ c) (P m ρ c) i d)]
  rfl

theorem main_v28_eq : row2 (a := 512) (W4 m ρ c (Proc.devRef .tc main_v28)) = (P m ρ c).g3 := by
  rw [show W4 m ρ c = Host.A2 (W3 m ρ c) from rfl, Host.g3, W3_host m ρ c main_arg13 (by decide)]
  rfl

theorem main_v29_eq : row2 (a := 512) (W4 m ρ c (Proc.devRef .tc main_v29)) = (P m ρ c).b3 := by
  rw [show W4 m ρ c = Host.A2 (W3 m ρ c) from rfl, Host.b3, W3_host m ρ c main_arg14 (by decide)]
  rfl

theorem main_v30_eq : mat2 (n := 512) (a := 512) (W4 m ρ c (Proc.devRef .tc main_v30)) = (P m ρ c).w2 := by
  rw [show W4 m ρ c = Host.A2 (W3 m ρ c) from rfl, Host.w2, W3_host m ρ c main_arg9 (by decide)]
  rfl

theorem main_v31_eq : row2 (a := 512) (W4 m ρ c (Proc.devRef .tc main_v31)) = (P m ρ c).bb2 := by
  rw [show W4 m ρ c = Host.A2 (W3 m ρ c) from rfl, Host.bb2, W3_host m ρ c main_arg10 (by decide)]
  rfl

theorem w4_h : mat2 (n := 100000) (a := 512) (W4 m ρ c (Proc.devRef .tc main_v17_0)) = h1K (X m ρ c) (P m ρ c) := by
  rw [show W4 m ρ c = Host.A2 (W3 m ρ c) from rfl, Host.kept2 (W3 m ρ c) main_v17_0 (List.mem_cons_self), w3_h]

/-! ## Region 2: the second hidden layer -/

theorem h2_eq : Region2.h2 (V4 m ρ) c = h2K (X m ρ c) (P m ρ c) := by
  unfold Region2.h2 h2K
  rw [show Region2.hIn (V4 m ρ) c = _ from w4_h m ρ c, show Region2.muIn (V4 m ρ) c = _ from main_v21_eq m ρ c,
    show Region2.vaIn (V4 m ρ) c = _ from main_v27_eq m ρ c, show Region2.gIn (V4 m ρ) c = _ from main_v28_eq m ρ c,
    show Region2.bIn (V4 m ρ) c = _ from main_v29_eq m ρ c, show Region2.wIn (V4 m ρ) c = _ from main_v30_eq m ρ c,
    show Region2.biasIn (V4 m ρ) c = _ from main_v31_eq m ρ c]

theorem w5_h : mat2 (n := 100000) (a := 512) (W5 m ρ c (Proc.devRef .tc main_v32_0)) = h2K (X m ρ c) (P m ρ c) := by
  have e : W5 m ρ c (Proc.devRef .tc main_v32_0) = (dat2 (V4 m ρ) c).arrAt 7 cfg2.N := W5_arr m ρ c 7
  rw [e, Region2.out_h, h2_eq]

theorem w5_sum (t : Fin 25) (d : Fin 512) :
    part3 (T := 25) (a := 512) (W5 m ρ c (Proc.devRef .tc main_v32_1)) t d = ∑ r : Fin 4000, h2K (X m ρ c) (P m ρ c) ⟨t.val * 4000 + r.val, by have := t.isLt; have := r.isLt; omega⟩ d := by
  have e : W5 m ρ c (Proc.devRef .tc main_v32_1) = (dat2 (V4 m ρ) c).arrAt 8 cfg2.N := W5_arr m ρ c 8
  rw [e, Region2.out_sum, h2_eq]

theorem w5_sumsq (t : Fin 25) (d : Fin 512) :
    part3 (T := 25) (a := 512) (W5 m ρ c (Proc.devRef .tc main_v32_2)) t d
      = ∑ r : Fin 4000, h2K (X m ρ c) (P m ρ c) ⟨t.val * 4000 + r.val, by have := t.isLt; have := r.isLt; omega⟩ d * h2K (X m ρ c) (P m ρ c) ⟨t.val * 4000 + r.val, by have := t.isLt; have := r.isLt; omega⟩ d := by
  have e : W5 m ρ c (Proc.devRef .tc main_v32_2) = (dat2 (V4 m ρ) c).arrAt 9 cfg2.N := W5_arr m ρ c 9
  rw [e, Region2.out_sumsq, h2_eq]

/-- BatchNorm's re-laid scale and shift are staged by region 2 and written by nothing after. -/
theorem w5_g : row2 (a := 512) (W5 m ρ c (Proc.devRef .tc main_v28)) = (P m ρ c).g3 := by
  have e : W5 m ρ c (Proc.devRef .tc main_v28) = W4 m ρ c (Proc.devRef .tc main_v28) :=
    (W5_arr m ρ c 3).trans (((dat2 (V4 m ρ) c).arrAt_in 3 rfl _).trans (A_eq2 (V4 m ρ) c 3))
  rw [e, main_v28_eq]
theorem w5_b : row2 (a := 512) (W5 m ρ c (Proc.devRef .tc main_v29)) = (P m ρ c).b3 := by
  have e : W5 m ρ c (Proc.devRef .tc main_v29) = W4 m ρ c (Proc.devRef .tc main_v29) :=
    (W5_arr m ρ c 4).trans (((dat2 (V4 m ρ) c).arrAt_in 4 rfl _).trans (A_eq2 (V4 m ρ) c 4))
  rw [e, main_v29_eq]

/-! ## Before region 3 -/

theorem main_v36_eq : row2 (a := 512) (W6 m ρ c (Proc.devRef .tc main_v36)) = mean (h2K (X m ρ c) (P m ρ c)) := by
  funext d
  rw [show W6 m ρ c = Host.A3 (W5 m ρ c) from rfl, Host.mean3]
  simp only [w5_sum m ρ c]
  rw [sum25 (fun i => h2K (X m ρ c) (P m ρ c) i d)]
  rfl

theorem main_v42_eq : row2 (a := 512) (W6 m ρ c (Proc.devRef .tc main_v42)) = varK (h2K (X m ρ c) (P m ρ c)) := by
  funext d
  rw [show W6 m ρ c = Host.A3 (W5 m ρ c) from rfl, Host.var3, Host.mean3]
  simp only [w5_sum m ρ c, w5_sumsq m ρ c]
  rw [sum25 (fun i => h2K (X m ρ c) (P m ρ c) i d), sum25 (fun i => h2K (X m ρ c) (P m ρ c) i d * h2K (X m ρ c) (P m ρ c) i d)]
  rfl

theorem main_v43_eq : mat2 (n := 512) (a := 512) (W6 m ρ c (Proc.devRef .tc main_v43)) = (P m ρ c).w3 := by
  rw [show W6 m ρ c = Host.A3 (W5 m ρ c) from rfl, Host.w3, W5_host m ρ c main_arg11 (by decide)]
  rfl

theorem main_v44_eq : row2 (a := 512) (W6 m ρ c (Proc.devRef .tc main_v44)) = (P m ρ c).bb3 := by
  rw [show W6 m ρ c = Host.A3 (W5 m ρ c) from rfl, Host.bb3, W5_host m ρ c main_arg12 (by decide)]
  rfl

theorem w6_h : mat2 (n := 100000) (a := 512) (W6 m ρ c (Proc.devRef .tc main_v32_0)) = h2K (X m ρ c) (P m ρ c) := by
  rw [show W6 m ρ c = Host.A3 (W5 m ρ c) from rfl, Host.kept3 (W5 m ρ c) main_v32_0 (List.mem_cons_self), w5_h]
theorem w6_g : row2 (a := 512) (W6 m ρ c (Proc.devRef .tc main_v28)) = (P m ρ c).g3 := by
  rw [show W6 m ρ c = Host.A3 (W5 m ρ c) from rfl, Host.kept3 (W5 m ρ c) main_v28 (by decide), w5_g]
theorem w6_b : row2 (a := 512) (W6 m ρ c (Proc.devRef .tc main_v29)) = (P m ρ c).b3 := by
  rw [show W6 m ρ c = Host.A3 (W5 m ρ c) from rfl, Host.kept3 (W5 m ρ c) main_v29 (by decide), w5_b]
theorem seg5 : segOf (W5 m ρ c) = sg m ρ c := by
  funext i
  show ((W5 m ρ c (Proc.devRef .tc main_arg2) : S100000.Idx → BitVec 32) (ix1 i)).toInt = _
  rw [W5_host m ρ c main_arg2 (by decide)]
  rfl
/-- The membership matrix: one where the row's segment id is the segment, zero elsewhere. -/
theorem w6_oh (i : Fin 100000) (g : Fin 64) :
    mat2 (n := 100000) (a := 64) (W6 m ρ c (Proc.devRef .tc main_v51)) i g = if sg m ρ c i = (g.val : ℤ) then (1 : EReal) else 0 := by
  rw [show W6 m ρ c = Host.A3 (W5 m ρ c) from rfl, Host.onehot, seg5]

/-! ## Region 3: the third hidden layer's statistics and the per-segment sums -/

theorem h3_eq : Region3.h3 (V6 m ρ) c = h3K (X m ρ c) (P m ρ c) := by
  unfold Region3.h3 h3K
  rw [show Region3.hIn (V6 m ρ) c = _ from w6_h m ρ c, show Region3.muIn (V6 m ρ) c = _ from main_v36_eq m ρ c,
    show Region3.vaIn (V6 m ρ) c = _ from main_v42_eq m ρ c, show Region3.gIn (V6 m ρ) c = _ from w6_g m ρ c,
    show Region3.bIn (V6 m ρ) c = _ from w6_b m ρ c, show Region3.wIn (V6 m ρ) c = _ from main_v43_eq m ρ c,
    show Region3.biasIn (V6 m ρ) c = _ from main_v44_eq m ρ c]

theorem w7_sum (t : Fin 25) (d : Fin 512) :
    part3 (T := 25) (a := 512) (W7 m ρ c (Proc.devRef .tc main_v52_0)) t d = ∑ r : Fin 4000, h3K (X m ρ c) (P m ρ c) ⟨t.val * 4000 + r.val, by have := t.isLt; have := r.isLt; omega⟩ d := by
  have e : W7 m ρ c (Proc.devRef .tc main_v52_0) = (dat3 (V6 m ρ) c).arrAt 8 cfg3.N := W7_arr m ρ c 8
  rw [e, Region3.out_sum, h3_eq]

theorem w7_sumsq (t : Fin 25) (d : Fin 512) :
    part3 (T := 25) (a := 512) (W7 m ρ c (Proc.devRef .tc main_v52_1)) t d
      = ∑ r : Fin 4000, h3K (X m ρ c) (P m ρ c) ⟨t.val * 4000 + r.val, by have := t.isLt; have := r.isLt; omega⟩ d * h3K (X m ρ c) (P m ρ c) ⟨t.val * 4000 + r.val, by have := t.isLt; have := r.isLt; omega⟩ d := by
  have e : W7 m ρ c (Proc.devRef .tc main_v52_1) = (dat3 (V6 m ρ) c).arrAt 9 cfg3.N := W7_arr m ρ c 9
  rw [e, Region3.out_sumsq, h3_eq]

theorem w7_pool (t : Fin 25) (g : Fin 64) (d : Fin 512) :
    part3m (T := 25) (G := 64) (a := 512) (W7 m ρ c (Proc.devRef .tc main_v52_2)) t g d
      = ∑ r : Fin 4000, (if sg m ρ c ⟨t.val * 4000 + r.val, by have := t.isLt; have := r.isLt; omega⟩ = (g.val : ℤ) then (1 : EReal) else 0) * h3K (X m ρ c) (P m ρ c) ⟨t.val * 4000 + r.val, by have := t.isLt; have := r.isLt; omega⟩ d := by
  have e : W7 m ρ c (Proc.devRef .tc main_v52_2) = (dat3 (V6 m ρ) c).arrAt 10 cfg3.N := W7_arr m ρ c 10
  rw [e, Region3.out_pool, h3_eq]
  refine Finset.sum_congr rfl fun r _ => ?_
  rw [show Region3.ohIn (V6 m ρ) c ⟨t.val * 4000 + r.val, by have := t.isLt; have := r.isLt; omega⟩ g = _ from w6_oh m ρ c _ g]

theorem w7_g : row2 (a := 512) (W7 m ρ c (Proc.devRef .tc main_v28)) = (P m ρ c).g3 := by
  have e : W7 m ρ c (Proc.devRef .tc main_v28) = W6 m ρ c (Proc.devRef .tc main_v28) :=
    (W7_arr m ρ c 3).trans (((dat3 (V6 m ρ) c).arrAt_in 3 rfl _).trans (A_eq3 (V6 m ρ) c 3))
  rw [e, w6_g]
theorem w7_b : row2 (a := 512) (W7 m ρ c (Proc.devRef .tc main_v29)) = (P m ρ c).b3 := by
  have e : W7 m ρ c (Proc.devRef .tc main_v29) = W6 m ρ c (Proc.devRef .tc main_v29) :=
    (W7_arr m ρ c 4).trans (((dat3 (V6 m ρ) c).arrAt_in 4 rfl _).trans (A_eq3 (V6 m ρ) c 4))
  rw [e, w6_b]
theorem seg7 : segOf (W7 m ρ c) = sg m ρ c := by
  funext i
  show ((W7 m ρ c (Proc.devRef .tc main_arg2) : S100000.Idx → BitVec 32) (ix1 i)).toInt = _
  rw [W7_host m ρ c main_arg2 (by decide)]
  rfl

/-! ## The pooled value and the result -/

theorem mu_eq : Tail.mu (W7 m ρ c) = mean (h3K (X m ρ c) (P m ρ c)) := by
  funext d
  unfold Tail.mu
  simp only [w7_sum m ρ c]
  rw [sum25 (fun i => h3K (X m ρ c) (P m ρ c) i d)]
  rfl

theorem va_eq : Tail.va (W7 m ρ c) = varK (h3K (X m ρ c) (P m ρ c)) := by
  funext d
  unfold Tail.va
  rw [mu_eq]
  simp only [w7_sumsq m ρ c]
  rw [sum25 (fun i => h3K (X m ρ c) (P m ρ c) i d * h3K (X m ρ c) (P m ρ c) i d)]
  rfl

/-- The per-block shares add up to the per-segment sums: a row counts once where its segment id is the segment. -/
theorem raw_eq : Tail.raw (W7 m ρ c) = segSum (G := 64) (sg m ρ c) (h3K (X m ρ c) (P m ρ c)) := by
  funext g d
  unfold Tail.raw
  simp only [w7_pool m ρ c]
  rw [sum25 (fun i => (if sg m ρ c i = (g.val : ℤ) then (1 : EReal) else 0) * h3K (X m ρ c) (P m ρ c) i d)]
  unfold segSum
  refine Finset.sum_congr rfl fun i _ => ?_
  by_cases h : sg m ρ c i = (g.val : ℤ)
  · rw [if_pos h, if_pos h, one_mul]
  · rw [if_neg h, if_neg h, zero_mul]

theorem pooled_eq : Tail.pooled (W7 m ρ c) = netK (X m ρ c) (P m ρ c) (sg m ρ c) := by
  funext g d
  unfold Tail.pooled netK pooledK
  rw [raw_eq, mu_eq, va_eq, seg7, w7_g, w7_b]

/-- The program's result buffer at the last boundary: the head of the specification's pooled value. -/
theorem result :
    W10 m ρ c (Proc.devRef .tc main_v106)
      = Tail.head (fun j => netK (X m ρ c) (P m ρ c) (sg m ρ c) (j 0) (j 1)) (W0 m ρ c (Proc.devRef .tc main_arg15)) (W0 m ρ c (Proc.devRef .tc main_arg16))
          (W0 m ρ c (Proc.devRef .tc main_arg17)) (W0 m ρ c (Proc.devRef .tc main_arg18)) (W0 m ρ c (Proc.devRef .tc main_arg19)) (W0 m ρ c (Proc.devRef .tc main_arg20))
          (W0 m ρ c (Proc.devRef .tc main_arg21)) := by
  rw [show W10 m ρ c = Tail.A4 (W7 m ρ c) from rfl, Tail.result_eq, pooled_eq, W7_host m ρ c main_arg15 (by decide),
    W7_host m ρ c main_arg16 (by decide), W7_host m ρ c main_arg17 (by decide), W7_host m ρ c main_arg18 (by decide),
    W7_host m ρ c main_arg19 (by decide), W7_host m ρ c main_arg20 (by decide), W7_host m ρ c main_arg21 (by decide)]

end Cert.KernelIdeal.Chain

end
-- ==== Proof.RefOps.lean ====
import proofs.«412217_j43164421324860_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 44 host operations of @main (main_part0), in order. -/
abbrev ops0 : List (HloOp τ sig (Elt F)) :=
  [ StableHlo.nullary main_cst (constant S_ .f32 0x00000000#32),
    StableHlo.binary main_arg0 main_cst main_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_arg0 : StableHlo.TRef sig ⟨S100000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v5 main_v6 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v11 main_v12 (mulf : (⟨S100000x128, .f32⟩ : BufTy).Contents (Elt F) → (⟨S100000x128, .f32⟩ : BufTy).Contents (Elt F) → (⟨S100000x128, .f32⟩ : BufTy).Contents (Elt F)),
    StableHlo.unary main_arg3 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v14 main_v15 (mulf : (⟨S100000x128, .f32⟩ : BufTy).Contents (Elt F) → (⟨S100000x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)) ]

/-- 7 host operations of @main (main_part0), in order. -/
abbrev ops1 : List (HloOp τ sig (Elt F)) :=
  [ StableHlo.binary main_v18 main_arg5 main_v19 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    StableHlo.unary main_arg6 main_v20 (broadcastInDim S1x512 ![1] bcast_S512_S1x512_1 : (⟨S512, .f32⟩ : BufTy).Contents (Elt F) → (⟨S1x512, .f32⟩ : BufTy).Contents (Elt F)),
    StableHlo.unary main_v20 main_v21 (broadcastInDim S100000x512 ![0, 1] bcast_S1x512_S100000x512_0_1 : (⟨S1x512, .f32⟩ : BufTy).Contents (Elt F) → (⟨S100000x512, .f32⟩ : BufTy).Contents (Elt F)),
    StableHlo.binary main_v19 main_v21 main_v22 (addf : (⟨S100000x512, .f32⟩ : BufTy).Contents (Elt F) → (⟨S100000x512, .f32⟩ : BufTy).Contents (Elt F) → (⟨S100000x512, .f32⟩ : BufTy).Contents (Elt F)),
    StableHlo.TRef.nullary main_call1.cst (constant S_ .f32 0x00000000#32),
    StableHlo.TRef.unary main_call1.cst main_call1.v0 (broadcastInDim S100000x512 ![] bcast_S_S100000x512),
    StableHlo.TRef.binary (.of main_v22 : StableHlo.TRef sig ⟨S100000x512, .f32⟩) main_call1.v0 main_call1.v1 maximumf ]

/-- 7 host operations of @main (main_part0), in order. -/
abbrev ops2 : List (HloOp τ sig (Elt F)) :=
  [ StableHlo.binary main_v23 main_arg7 main_v24 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg8 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S100000x512 ![0, 1] bcast_S1x512_S100000x512_0_1 : (⟨S1x512, .f32⟩ : BufTy).Contents (Elt F) → (⟨S100000x512, .f32⟩ : BufTy).Contents (Elt F)),
    StableHlo.binary main_v24 main_v26 main_v27 (addf : (⟨S100000x512, .f32⟩ : BufTy).Contents (Elt F) → (⟨S100000x512, .f32⟩ : BufTy).Contents (Elt F) → (⟨S100000x512, .f32⟩ : BufTy).Contents (Elt F)),
    StableHlo.TRef.nullary main_call2.cst (constant S_ .f32 0x00000000#32),
    StableHlo.TRef.unary main_call2.cst main_call2.v0 (broadcastInDim S100000x512 ![] bcast_S_S100000x512),
    StableHlo.TRef.binary (.of main_v27 : StableHlo.TRef sig ⟨S100000x512, .f32⟩) main_call2.v0 main_call2.v1 maximumf ]

/-- 44 host operations of @main (main_part0), in order. -/
abbrev ops3 : List (HloOp τ sig (Elt F)) :=
  [ StableHlo.nullary main_cst_2 (constant S_ .f32 0x00000000#32),
    StableHlo.binary main_v28 main_cst_2 main_v29 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_3 (constant S_ .f32 0x47C35000#32),
    StableHlo.unary main_cst_3 main_v30 (broadcastInDim S512 ![] bcast_S_S512 : (⟨S_, .f32⟩ : BufTy).Contents (Elt F) → (⟨S512, .f32⟩ : BufTy).Contents (Elt F)),
    StableHlo.binary main_v29 main_v30 main_v31 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call3.cst (constant S_ .f32 0x00000000#32),
    StableHlo.TRef.binary (.of main_v28 : StableHlo.TRef sig ⟨S100000x512, .f32⟩) main_call3.cst main_call3.v0 (fun x v => Host.reduceAdd x v reducesTo_S100000x512_S512_d0 h_S_),
    StableHlo.TRef.unary main_call3.v0 main_call3.v1 (broadcastInDim S1x512 ![1] bcast_S512_S1x512_1),
    StableHlo.TRef.nullary main_call3.cst_0 (constant S_ .f32 0x47C35000#32),
    StableHlo.TRef.unary main_call3.cst_0 main_call3.v2 (broadcastInDim S1x512 ![] bcast_S_S1x512),
    StableHlo.TRef.binary main_call3.v1 main_call3.v2 main_call3.v3 Host.divf,
    StableHlo.TRef.unary main_call3.v3 main_call3.v4 (broadcastInDim S100000x512 ![0, 1] bcast_S1x512_S100000x512_0_1),
    StableHlo.TRef.binary (.of main_v28 : StableHlo.TRef sig ⟨S100000x512, .f32⟩) main_call3.v4 main_call3.v5 subf,
    StableHlo.TRef.binary main_call3.v5 main_call3.v5 main_call3.v6 mulf,
    StableHlo.TRef.unary (.of main_c_4 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x512_S512_d0 h_S_),
    StableHlo.TRef.unary main_call3.v8 main_call3.v10 (broadcastInDim S512 ![] bcast_S_S512),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S512 ![] bcast_S_S512),
    StableHlo.TRef.ternary main_call3.v12 main_call3.v11 main_call3.call0.v1 main_call3.call0.v2 (fun p a b => select (broadcastInDim S512 ![] bcast_S_S512 p) a b),
    StableHlo.unary main_v31 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S100000x512 ![0, 1] bcast_S1x512_S100000x512_0_1 : (⟨S1x512, .f32⟩ : BufTy).Contents (Elt F) → (⟨S100000x512, .f32⟩ : BufTy).Contents (Elt F)),
    StableHlo.binary main_v28 main_v34 main_v35 (subf : (⟨S100000x512, .f32⟩ : BufTy).Contents (Elt F) → (⟨S100000x512, .f32⟩ : BufTy).Contents (Elt F) → (⟨S100000x512, .f32⟩ : BufTy).Contents (Elt F)),
    StableHlo.nullary main_cst_5 (constant S_ .f32 0x3727C5AC#32),
    StableHlo.unary main_cst_5 main_v36 (broadcastInDim S512 ![] bcast_S_S512 : (⟨S_, .f32⟩ : BufTy).Contents (Elt F) → (⟨S512, .f32⟩ : BufTy).Contents (Elt F)),
    StableHlo.binary main_v32 main_v36 main_v37 (addf : (⟨S512, .f32⟩ : BufTy).Contents (Elt F) → (⟨S512, .f32⟩ : BufTy).Contents (Elt F) → (⟨S512, .f32⟩ : BufTy).Contents (Elt F)),
    StableHlo.unary main_v37 main_v38 (Host.rsqrt : (⟨S512, .f32⟩ : BufTy).Contents (Elt F) → (⟨S512, .f32⟩ : BufTy).Contents (Elt F)),
    StableHlo.unary main_v38 main_v39 (broadcastInDim S1x512 ![1] bcast_S512_S1x512_1 : (⟨S512, .f32⟩ : BufTy).Contents (Elt F) → (⟨S1x512, .f32⟩ : BufTy).Contents (Elt F)),
    StableHlo.unary main_v39 main_v40 (broadcastInDim S100000x512 ![0, 1] bcast_S1x512_S100000x512_0_1 : (⟨S1x512, .f32⟩ : BufTy).Contents (Elt F) → (⟨S100000x512, .f32⟩ : BufTy).Contents (Elt F)),
    StableHlo.binary main_v35 main_v40 main_v41 (mulf : (⟨S100000x512, .f32⟩ : BufTy).Contents (Elt F) → (⟨S100000x512, .f32⟩ : BufTy).Contents (Elt F) → (⟨S100000x512, .f32⟩ : BufTy).Contents (Elt F)),
    StableHlo.unary main_arg13 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S100000x512 ![0, 1] bcast_S1x512_S100000x512_0_1 : (⟨S1x512, .f32⟩ : BufTy).Contents (Elt F) → (⟨S100000x512, .f32⟩ : BufTy).Contents (Elt F)),
    StableHlo.binary main_v41 main_v43 main_v44 (mulf : (⟨S100000x512, .f32⟩ : BufTy).Contents (Elt F) → (⟨S100000x512, .f32⟩ : BufTy).Contents (Elt F) → (⟨S100000x512, .f32⟩ : BufTy).Contents (Elt F)),
    StableHlo.unary main_arg14 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S100000x512 ![0, 1] bcast_S1x512_S100000x512_0_1 : (⟨S1x512, .f32⟩ : BufTy).Contents (Elt F) → (⟨S100000x512, .f32⟩ : BufTy).Contents (Elt F)),
    StableHlo.binary main_v44 main_v46 main_v47 (addf : (⟨S100000x512, .f32⟩ : BufTy).Contents (Elt F) → (⟨S100000x512, .f32⟩ : BufTy).Contents (Elt F) → (⟨S100000x512, .f32⟩ : BufTy).Contents (Elt F)) ]

/-- 4 host operations of @main (main_part0), in order. -/
abbrev ops4 : List (HloOp τ sig (Elt F)) :=
  [ StableHlo.binary main_v47 main_arg9 main_v48 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg10 main_v49 (broadcastInDim S1x512 ![1] bcast_S512_S1x512_1 : (⟨S512, .f32⟩ : BufTy).Contents (Elt F) → (⟨S1x512, .f32⟩ : BufTy).Contents (Elt F)),
    StableHlo.unary main_v49 main_v50 (broadcastInDim S100000x512 ![0, 1] bcast_S1x512_S100000x512_0_1 : (⟨S1x512, .f32⟩ : BufTy).Contents (Elt F) → (⟨S100000x512, .f32⟩ : BufTy).Contents (Elt F)),
    StableHlo.binary main_v48 main_v50 main_v51 (addf : (⟨S100000x512, .f32⟩ : BufTy).Contents (Elt F) → (⟨S100000x512, .f32⟩ : BufTy).Contents (Elt F) → (⟨S100000x512, .f32⟩ : BufTy).Contents (Elt F)) ]

/-- 3 host operations of @main (main_part1), in order. -/
abbrev ops5 : List (HloOp τ sig (Elt F)) :=
  [ StableHlo.TRef.nullary main_call4.cst (constant S_ .f32 0x00000000#32),
    StableHlo.TRef.unary main_call4.cst main_call4.v0 (broadcastInDim S100000x512 ![] bcast_S_S100000x512),
    StableHlo.TRef.binary (.of main_v51 : StableHlo.TRef sig ⟨S100000x512, .f32⟩) main_call4.v0 main_call4.v1 maximumf ]

/-- 44 host operations of @main (main_part1), in order. -/
abbrev ops6 : List (HloOp τ sig (Elt F)) :=
  [ StableHlo.nullary main_cst_6 (constant S_ .f32 0x00000000#32),
    StableHlo.binary main_v52 main_cst_6 main_v53 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_7 (constant S_ .f32 0x47C35000#32),
    StableHlo.unary main_cst_7 main_v54 (broadcastInDim S512 ![] bcast_S_S512 : (⟨S_, .f32⟩ : BufTy).Contents (Elt F) → (⟨S512, .f32⟩ : BufTy).Contents (Elt F)),
    StableHlo.binary main_v53 main_v54 main_v55 (Host.divf : (⟨S512, .f32⟩ : BufTy).Contents (Elt F) → (⟨S512, .f32⟩ : BufTy).Contents (Elt F) → (⟨S512, .f32⟩ : BufTy).Contents (Elt F)),
    StableHlo.nullary main_c_8 (constantI S_ 32 0#32),
    StableHlo.TRef.nullary main_call5.cst (constant S_ .f32 0x00000000#32),
    StableHlo.TRef.binary (.of main_v52 : StableHlo.TRef sig ⟨S100000x512, .f32⟩) main_call5.cst main_call5.v0 (fun x v => Host.reduceAdd x v reducesTo_S100000x512_S512_d0 h_S_),
    StableHlo.TRef.unary main_call5.v0 main_call5.v1 (broadcastInDim S1x512 ![1] bcast_S512_S1x512_1),
    StableHlo.TRef.nullary main_call5.cst_0 (constant S_ .f32 0x47C35000#32),
    StableHlo.TRef.unary main_call5.cst_0 main_call5.v2 (broadcastInDim S1x512 ![] bcast_S_S1x512),
    StableHlo.TRef.binary main_call5.v1 main_call5.v2 main_call5.v3 Host.divf,
    StableHlo.TRef.unary main_call5.v3 main_call5.v4 (broadcastInDim S100000x512 ![0, 1] bcast_S1x512_S100000x512_0_1),
    StableHlo.TRef.binary (.of main_v52 : StableHlo.TRef sig ⟨S100000x512, .f32⟩) main_call5.v4 main_call5.v5 subf,
    StableHlo.TRef.binary main_call5.v5 main_call5.v5 main_call5.v6 mulf,
    StableHlo.TRef.unary (.of main_c_8 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x512_S512_d0 h_S_),
    StableHlo.TRef.unary main_call5.v8 main_call5.v10 (broadcastInDim S512 ![] bcast_S_S512),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S512 ![] bcast_S_S512),
    StableHlo.TRef.ternary main_call5.v12 main_call5.v11 main_call5.call0.v1 main_call5.call0.v2 (fun p a b => select (broadcastInDim S512 ![] bcast_S_S512 p) a b),
    StableHlo.unary main_v55 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S100000x512 ![0, 1] bcast_S1x512_S100000x512_0_1 : (⟨S1x512, .f32⟩ : BufTy).Contents (Elt F) → (⟨S100000x512, .f32⟩ : BufTy).Contents (Elt F)),
    StableHlo.binary main_v52 main_v58 main_v59 (subf : (⟨S100000x512, .f32⟩ : BufTy).Contents (Elt F) → (⟨S100000x512, .f32⟩ : BufTy).Contents (Elt F) → (⟨S100000x512, .f32⟩ : BufTy).Contents (Elt F)),
    StableHlo.nullary main_cst_9 (constant S_ .f32 0x3727C5AC#32),
    StableHlo.unary main_cst_9 main_v60 (broadcastInDim S512 ![] bcast_S_S512 : (⟨S_, .f32⟩ : BufTy).Contents (Elt F) → (⟨S512, .f32⟩ : BufTy).Contents (Elt F)),
    StableHlo.binary main_v56 main_v60 main_v61 (addf : (⟨S512, .f32⟩ : BufTy).Contents (Elt F) → (⟨S512, .f32⟩ : BufTy).Contents (Elt F) → (⟨S512, .f32⟩ : BufTy).Contents (Elt F)),
    StableHlo.unary main_v61 main_v62 (Host.rsqrt : (⟨S512, .f32⟩ : BufTy).Contents (Elt F) → (⟨S512, .f32⟩ : BufTy).Contents (Elt F)),
    StableHlo.unary main_v62 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S100000x512 ![0, 1] bcast_S1x512_S100000x512_0_1 : (⟨S1x512, .f32⟩ : BufTy).Contents (Elt F) → (⟨S100000x512, .f32⟩ : BufTy).Contents (Elt F)),
    StableHlo.binary main_v59 main_v64 main_v65 (mulf : (⟨S100000x512, .f32⟩ : BufTy).Contents (Elt F) → (⟨S100000x512, .f32⟩ : BufTy).Contents (Elt F) → (⟨S100000x512, .f32⟩ : BufTy).Contents (Elt F)),
    StableHlo.unary main_arg13 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S100000x512 ![0, 1] bcast_S1x512_S100000x512_0_1 : (⟨S1x512, .f32⟩ : BufTy).Contents (Elt F) → (⟨S100000x512, .f32⟩ : BufTy).Contents (Elt F)),
    StableHlo.binary main_v65 main_v67 main_v68 (mulf : (⟨S100000x512, .f32⟩ : BufTy).Contents (Elt F) → (⟨S100000x512, .f32⟩ : BufTy).Contents (Elt F) → (⟨S100000x512, .f32⟩ : BufTy).Contents (Elt F)),
    StableHlo.unary main_arg14 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S100000x512 ![0, 1] bcast_S1x512_S100000x512_0_1 : (⟨S1x512, .f32⟩ : BufTy).Contents (Elt F) → (⟨S100000x512, .f32⟩ : BufTy).Contents (Elt F)),
    StableHlo.binary main_v68 main_v70 main_v71 (addf : (⟨S100000x512, .f32⟩ : BufTy).Contents (Elt F) → (⟨S100000x512, .f32⟩ : BufTy).Contents (Elt F) → (⟨S100000x512, .f32⟩ : BufTy).Contents (Elt F)) ]

/-- 7 host operations of @main (main_part1), in order. -/
abbrev ops7 : List (HloOp τ sig (Elt F)) :=
  [ StableHlo.binary main_v71 main_arg11 main_v72 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg12 main_v73 (broadcastInDim S1x512 ![1] bcast_S512_S1x512_1 : (⟨S512, .f32⟩ : BufTy).Contents (Elt F) → (⟨S1x512, .f32⟩ : BufTy).Contents (Elt F)),
    StableHlo.unary main_v73 main_v74 (broadcastInDim S100000x512 ![0, 1] bcast_S1x512_S100000x512_0_1 : (⟨S1x512, .f32⟩ : BufTy).Contents (Elt F) → (⟨S100000x512, .f32⟩ : BufTy).Contents (Elt F)),
    StableHlo.binary main_v72 main_v74 main_v75 (addf : (⟨S100000x512, .f32⟩ : BufTy).Contents (Elt F) → (⟨S100000x512, .f32⟩ : BufTy).Contents (Elt F) → (⟨S100000x512, .f32⟩ : BufTy).Contents (Elt F)),
    StableHlo.TRef.nullary main_call6.cst (constant S_ .f32 0x00000000#32),
    StableHlo.TRef.unary main_call6.cst main_call6.v0 (broadcastInDim S100000x512 ![] bcast_S_S100000x512),
    StableHlo.TRef.binary (.of main_v75 : StableHlo.TRef sig ⟨S100000x512, .f32⟩) main_call6.v0 main_call6.v1 maximumf ]

/-- 44 host operations of @main (main_part1), in order. -/
abbrev ops8 : List (HloOp τ sig (Elt F)) :=
  [ StableHlo.nullary main_cst_10 (constant S_ .f32 0x00000000#32),
    StableHlo.binary main_v76 main_cst_10 main_v77 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_11 (constant S_ .f32 0x47C35000#32),
    StableHlo.unary main_cst_11 main_v78 (broadcastInDim S512 ![] bcast_S_S512 : (⟨S_, .f32⟩ : BufTy).Contents (Elt F) → (⟨S512, .f32⟩ : BufTy).Contents (Elt F)),
    StableHlo.binary main_v77 main_v78 main_v79 (Host.divf : (⟨S512, .f32⟩ : BufTy).Contents (Elt F) → (⟨S512, .f32⟩ : BufTy).Contents (Elt F) → (⟨S512, .f32⟩ : BufTy).Contents (Elt F)),
    StableHlo.nullary main_c_12 (constantI S_ 32 0#32),
    StableHlo.TRef.nullary main_call7.cst (constant S_ .f32 0x00000000#32),
    StableHlo.TRef.binary (.of main_v76 : StableHlo.TRef sig ⟨S100000x512, .f32⟩) main_call7.cst main_call7.v0 (fun x v => Host.reduceAdd x v reducesTo_S100000x512_S512_d0 h_S_),
    StableHlo.TRef.unary main_call7.v0 main_call7.v1 (broadcastInDim S1x512 ![1] bcast_S512_S1x512_1),
    StableHlo.TRef.nullary main_call7.cst_0 (constant S_ .f32 0x47C35000#32),
    StableHlo.TRef.unary main_call7.cst_0 main_call7.v2 (broadcastInDim S1x512 ![] bcast_S_S1x512),
    StableHlo.TRef.binary main_call7.v1 main_call7.v2 main_call7.v3 Host.divf,
    StableHlo.TRef.unary main_call7.v3 main_call7.v4 (broadcastInDim S100000x512 ![0, 1] bcast_S1x512_S100000x512_0_1),
    StableHlo.TRef.binary (.of main_v76 : StableHlo.TRef sig ⟨S100000x512, .f32⟩) main_call7.v4 main_call7.v5 subf,
    StableHlo.TRef.binary main_call7.v5 main_call7.v5 main_call7.v6 mulf,
    StableHlo.TRef.unary (.of main_c_12 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x512_S512_d0 h_S_),
    StableHlo.TRef.unary main_call7.v8 main_call7.v10 (broadcastInDim S512 ![] bcast_S_S512),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S512 ![] bcast_S_S512),
    StableHlo.TRef.ternary main_call7.v12 main_call7.v11 main_call7.call0.v1 main_call7.call0.v2 (fun p a b => select (broadcastInDim S512 ![] bcast_S_S512 p) a b),
    StableHlo.unary main_v79 main_v81 (broadcastInDim S1x512 ![1] bcast_S512_S1x512_1 : (⟨S512, .f32⟩ : BufTy).Contents (Elt F) → (⟨S1x512, .f32⟩ : BufTy).Contents (Elt F)),
    StableHlo.unary main_v81 main_v82 (broadcastInDim S100000x512 ![0, 1] bcast_S1x512_S100000x512_0_1 : (⟨S1x512, .f32⟩ : BufTy).Contents (Elt F) → (⟨S100000x512, .f32⟩ : BufTy).Contents (Elt F)),
    StableHlo.binary main_v76 main_v82 main_v83 (subf : (⟨S100000x512, .f32⟩ : BufTy).Contents (Elt F) → (⟨S100000x512, .f32⟩ : BufTy).Contents (Elt F) → (⟨S100000x512, .f32⟩ : BufTy).Contents (Elt F)),
    StableHlo.nullary main_cst_13 (constant S_ .f32 0x3727C5AC#32),
    StableHlo.unary main_cst_13 main_v84 (broadcastInDim S512 ![] bcast_S_S512 : (⟨S_, .f32⟩ : BufTy).Contents (Elt F) → (⟨S512, .f32⟩ : BufTy).Contents (Elt F)),
    StableHlo.binary main_v80 main_v84 main_v85 (addf : (⟨S512, .f32⟩ : BufTy).Contents (Elt F) → (⟨S512, .f32⟩ : BufTy).Contents (Elt F) → (⟨S512, .f32⟩ : BufTy).Contents (Elt F)),
    StableHlo.unary main_v85 main_v86 (Host.rsqrt : (⟨S512, .f32⟩ : BufTy).Contents (Elt F) → (⟨S512, .f32⟩ : BufTy).Contents (Elt F)),
    StableHlo.unary main_v86 main_v87 (broadcastInDim S1x512 ![1] bcast_S512_S1x512_1 : (⟨S512, .f32⟩ : BufTy).Contents (Elt F) → (⟨S1x512, .f32⟩ : BufTy).Contents (Elt F)),
    StableHlo.unary main_v87 main_v88 (broadcastInDim S100000x512 ![0, 1] bcast_S1x512_S100000x512_0_1 : (⟨S1x512, .f32⟩ : BufTy).Contents (Elt F) → (⟨S100000x512, .f32⟩ : BufTy).Contents (Elt F)),
    StableHlo.binary main_v83 main_v88 main_v89 (mulf : (⟨S100000x512, .f32⟩ : BufTy).Contents (Elt F) → (⟨S100000x512, .f32⟩ : BufTy).Contents (Elt F) → (⟨S100000x512, .f32⟩ : BufTy).Contents (Elt F)),
    StableHlo.unary main_arg13 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S100000x512 ![0, 1] bcast_S1x512_S100000x512_0_1 : (⟨S1x512, .f32⟩ : BufTy).Contents (Elt F) → (⟨S100000x512, .f32⟩ : BufTy).Contents (Elt F)),
    StableHlo.binary main_v89 main_v91 main_v92 (mulf : (⟨S100000x512, .f32⟩ : BufTy).Contents (Elt F) → (⟨S100000x512, .f32⟩ : BufTy).Contents (Elt F) → (⟨S100000x512, .f32⟩ : BufTy).Contents (Elt F)),
    StableHlo.unary main_arg14 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S100000x512 ![0, 1] bcast_S1x512_S100000x512_0_1 : (⟨S1x512, .f32⟩ : BufTy).Contents (Elt F) → (⟨S100000x512, .f32⟩ : BufTy).Contents (Elt F)),
    StableHlo.binary main_v92 main_v94 main_v95 (addf : (⟨S100000x512, .f32⟩ : BufTy).Contents (Elt F) → (⟨S100000x512, .f32⟩ : BufTy).Contents (Elt F) → (⟨S100000x512, .f32⟩ : BufTy).Contents (Elt F)) ]

/-- 4 host operations of @main (main_part1), in order. -/
abbrev ops9 : List (HloOp τ sig (Elt F)) :=
  [ StableHlo.nullary main_cst_14 (constant S_ .f32 0x00000000#32),
    StableHlo.unary main_cst_14 main_v96 (broadcastInDim S64x512 ![] bcast_S_S64x512 : (⟨S_, .f32⟩ : BufTy).Contents (Elt F) → (⟨S64x512, .f32⟩ : BufTy).Contents (Elt F)),
    StableHlo.unary main_arg2 main_v97 (broadcastInDim S100000x1 ![0] bcast_S100000_S100000x1_0 : (⟨S100000, .i32⟩ : BufTy).Contents (Elt F) → (⟨S100000x1, .i32⟩ : BufTy).Contents (Elt F)),
    StableHlo.ternary main_v96 main_v97 main_v95 main_v98 ((fun x i u => Host.scatterAdd scatter_S64x512_S100000x1_S100000x512_1_0_0_1 x i u) : (⟨S64x512, .f32⟩ : BufTy).Contents (Elt F) → (⟨S100000x1, .i32⟩ : BufTy).Contents (Elt F) → (⟨S100000x512, .f32⟩ : BufTy).Contents (Elt F) → (⟨S64x512, .f32⟩ : BufTy).Contents (Elt F)) ]

/-- 4 host operations of @main (main_part1), in order. -/
abbrev ops10 : List (HloOp τ sig (Elt F)) :=
  [ StableHlo.binary main_v98 main_arg16 main_v99 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    StableHlo.unary main_arg17 main_v100 (broadcastInDim S1x512 ![1] bcast_S512_S1x512_1 : (⟨S512, .f32⟩ : BufTy).Contents (Elt F) → (⟨S1x512, .f32⟩ : BufTy).Contents (Elt F)),
    StableHlo.unary main_v100 main_v101 (broadcastInDim S64x512 ![0, 1] bcast_S1x512_S64x512_0_1 : (⟨S1x512, .f32⟩ : BufTy).Contents (Elt F) → (⟨S64x512, .f32⟩ : BufTy).Contents (Elt F)),
    StableHlo.binary main_v99 main_v101 main_v102 (addf : (⟨S64x512, .f32⟩ : BufTy).Contents (Elt F) → (⟨S64x512, .f32⟩ : BufTy).Contents (Elt F) → (⟨S64x512, .f32⟩ : BufTy).Contents (Elt F)) ]

/-- 7 host operations of @main (main_part2), in order. -/
abbrev ops11 : List (HloOp τ sig (Elt F)) :=
  [ StableHlo.nullary main_cst_15 (constant S_ .f32 0x00000000#32),
    StableHlo.unary main_cst_15 main_v103 (broadcastInDim S64x512 ![] bcast_S_S64x512 : (⟨S_, .f32⟩ : BufTy).Contents (Elt F) → (⟨S64x512, .f32⟩ : BufTy).Contents (Elt F)),
    StableHlo.binary main_v102 main_v103 main_v104 (cmpf .oge : (⟨S64x512, .f32⟩ : BufTy).Contents (Elt F) → (⟨S64x512, .f32⟩ : BufTy).Contents (Elt F) → (⟨S64x512, .i1⟩ : BufTy).Contents (Elt F)),
    StableHlo.unary main_arg15 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S64x512 ![0, 1] bcast_S1x1_S64x512_0_1 : (⟨S1x1, .f32⟩ : BufTy).Contents (Elt F) → (⟨S64x512, .f32⟩ : BufTy).Contents (Elt F)),
    StableHlo.binary main_v106 main_v102 main_v107 (mulf : (⟨S64x512, .f32⟩ : BufTy).Contents (Elt F) → (⟨S64x512, .f32⟩ : BufTy).Contents (Elt F) → (⟨S64x512, .f32⟩ : BufTy).Contents (Elt F)),
    StableHlo.TRef.ternary (.of main_v104 : StableHlo.TRef sig ⟨S64x512, .i1⟩) (.of main_v102 : StableHlo.TRef sig ⟨S64x512, .f32⟩) (.of main_v107 : StableHlo.TRef sig ⟨S64x512, .f32⟩) main_call8.v0 select ]

/-- 16 host operations of @main (main_part2), in order. -/
abbrev ops12 : List (HloOp τ sig (Elt F)) :=
  [ StableHlo.binary main_v108 main_arg18 main_v109 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    StableHlo.unary main_arg19 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S64x256 ![0, 1] bcast_S1x256_S64x256_0_1 : (⟨S1x256, .f32⟩ : BufTy).Contents (Elt F) → (⟨S64x256, .f32⟩ : BufTy).Contents (Elt F)),
    StableHlo.binary main_v109 main_v111 main_v112 (addf : (⟨S64x256, .f32⟩ : BufTy).Contents (Elt F) → (⟨S64x256, .f32⟩ : BufTy).Contents (Elt F) → (⟨S64x256, .f32⟩ : BufTy).Contents (Elt F)),
    StableHlo.unary main_v112 main_v113 (Host.negf : (⟨S64x256, .f32⟩ : BufTy).Contents (Elt F) → (⟨S64x256, .f32⟩ : BufTy).Contents (Elt F)),
    StableHlo.unary main_v113 main_v114 (Host.exp : (⟨S64x256, .f32⟩ : BufTy).Contents (Elt F) → (⟨S64x256, .f32⟩ : BufTy).Contents (Elt F)),
    StableHlo.nullary main_cst_16 (constant S_ .f32 0x3F800000#32),
    StableHlo.unary main_cst_16 main_v115 (broadcastInDim S64x256 ![] bcast_S_S64x256 : (⟨S_, .f32⟩ : BufTy).Contents (Elt F) → (⟨S64x256, .f32⟩ : BufTy).Contents (Elt F)),
    StableHlo.binary main_v115 main_v114 main_v116 (addf : (⟨S64x256, .f32⟩ : BufTy).Contents (Elt F) → (⟨S64x256, .f32⟩ : BufTy).Contents (Elt F) → (⟨S64x256, .f32⟩ : BufTy).Contents (Elt F)),
    StableHlo.nullary main_cst_17 (constant S_ .f32 0x3F800000#32),
    StableHlo.unary main_cst_17 main_v117 (broadcastInDim S64x256 ![] bcast_S_S64x256 : (⟨S_, .f32⟩ : BufTy).Contents (Elt F) → (⟨S64x256, .f32⟩ : BufTy).Contents (Elt F)),
    StableHlo.binary main_v117 main_v116 main_v118 (Host.divf : (⟨S64x256, .f32⟩ : BufTy).Contents (Elt F) → (⟨S64x256, .f32⟩ : BufTy).Contents (Elt F) → (⟨S64x256, .f32⟩ : BufTy).Contents (Elt F)),
    StableHlo.binary main_v118 main_arg20 main_v119 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    StableHlo.unary main_arg21 main_v120 (broadcastInDim S1x10 ![1] bcast_S10_S1x10_1 : (⟨S10, .f32⟩ : BufTy).Contents (Elt F) → (⟨S1x10, .f32⟩ : BufTy).Contents (Elt F)),
    StableHlo.unary main_v120 main_v121 (broadcastInDim S64x10 ![0, 1] bcast_S1x10_S64x10_0_1 : (⟨S1x10, .f32⟩ : BufTy).Contents (Elt F) → (⟨S64x10, .f32⟩ : BufTy).Contents (Elt F)),
    StableHlo.binary main_v119 main_v121 main_v122 (addf : (⟨S64x10, .f32⟩ : BufTy).Contents (Elt F) → (⟨S64x10, .f32⟩ : BufTy).Contents (Elt F) → (⟨S64x10, .f32⟩ : BufTy).Contents (Elt F)) ]

/-- The stretches of each printed part of @main, in order. -/
abbrev main_part0_ops : List (HloOp τ sig (Elt F)) := ops0 (F := F) ++ ops1 (F := F) ++ ops2 (F := F) ++ ops3 (F := F) ++ ops4 (F := F)
abbrev main_part1_ops : List (HloOp τ sig (Elt F)) := ops5 (F := F) ++ ops6 (F := F) ++ ops7 (F := F) ++ ops8 (F := F) ++ ops9 (F := F) ++ ops10 (F := F)
abbrev main_part2_ops : List (HloOp τ sig (Elt F)) := ops11 (F := F) ++ ops12 (F := F)

end Cert.ReferenceIdeal.Ops

end
-- ==== Proof.RefRun.lean ====
/-
  The reference's @main IS the straight line of its host operations: each printed part of @main, its calls unfolded at
  their buffer records, is the run of its list; so every weakly fair execution ends with every buffer at the fold of
  the operations over the launch contents.
-/
import proofs.«412217_j43164421324860_3_alg».proof.Proof.RefOps

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
set_option maxHeartbeats 4000000 in
/-- The first printed part is its line: the functions unfolded at their calls, sequencing reassociated. -/
theorem part0_eq (c : Dev nD) : main_part0 (F := F) c = seq (main_part0_ops (F := F)) := by
  simp only [main_part0, fn_var.body, fn_where.body, fn_relu.body, fn_var_0.body, fn_where_1.body, seq, bind_assoc, pure_bind]
  rfl

set_option maxRecDepth 16384 in
set_option maxHeartbeats 4000000 in
/-- The second printed part is its line. -/
theorem part1_eq (c : Dev nD) : main_part1 (F := F) c = seq (main_part1_ops (F := F)) := by
  simp only [main_part1, fn_relu.body, fn_var_0.body, fn_where_1.body, seq, bind_assoc, pure_bind]
  rfl

set_option maxRecDepth 16384 in
/-- The third printed part is its line. -/
theorem part2_eq (c : Dev nD) : main_part2 (F := F) c = seq (main_part2_ops (F := F)) := by
  simp only [main_part2, fn_where_2.body, seq, bind_assoc, pure_bind]
  rfl

/-- All of @main's host operations, in order. -/
abbrev ops : List (HloOp τ sig (Elt F)) := main_part0_ops (F := F) ++ (main_part1_ops (F := F) ++ main_part2_ops (F := F))

/-- @main runs its three parts in order, so it is the run of their concatenation. -/
theorem main_eq (c : Dev nD) : main (F := F) c = seq (ops (F := F)) := by
  have h1 := seq_append (nD := nD) (Λ := Pipeline.Sig Λ₀ (Fin 0) fun p => (pcfgs (F := F) p).Adm) (main_part0_ops (F := F)) (main_part1_ops (F := F) ++ main_part2_ops (F := F))
  have h2 := seq_append (nD := nD) (Λ := Pipeline.Sig Λ₀ (Fin 0) fun p => (pcfgs (F := F) p).Adm) (main_part1_ops (F := F)) (main_part2_ops (F := F))
  calc main (F := F) c = (main_part0 (F := F) c >>= fun _ => main_part1 (F := F) c >>= fun _ => main_part2 (F := F) c) := rfl
    _ = (seq main_part0_ops >>= fun _ => seq main_part1_ops >>= fun _ => seq main_part2_ops) := by
        rw [part0_eq, part1_eq, part2_eq]
    _ = seq (main_part0_ops ++ (main_part1_ops ++ main_part2_ops)) := by rw [h1, h2]

theorem scopedRefs_eq : (Finset.univ.filter fun b : Ref sig .tc => b.isScoped) = ∅ := by decide
theorem scopedSems_eq : (Finset.univ.filter fun sm : SemLoc sig => sm.isScoped .tc) = ∅ := by decide

/-- A line's fact holds of a concatenation when it holds of each piece. -/
theorem forall_append' {p : HloOp τ sig (Elt F) → Prop} {l₁ l₂ : List (HloOp τ sig (Elt F))} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

/-! Stretch by stretch: every operation touches TensorCore references only, and none allocates a buffer. -/

theorem ops0_sub : (ops0 : List (HloOp τ sig (Elt F))).Forall fun op => op.bufs ⊆ tcRefs τ sig := by
  simp only [ops0, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops0_fresh : (ops0 : List (HloOp τ sig (Elt F))).Forall fun op => op.fresh = ∅ := by
  simp only [ops0, List.Forall]; repeat' constructor

theorem ops1_sub : (ops1 : List (HloOp τ sig (Elt F))).Forall fun op => op.bufs ⊆ tcRefs τ sig := by
  simp only [ops1, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops1_fresh : (ops1 : List (HloOp τ sig (Elt F))).Forall fun op => op.fresh = ∅ := by
  simp only [ops1, List.Forall]; repeat' constructor

theorem ops2_sub : (ops2 : List (HloOp τ sig (Elt F))).Forall fun op => op.bufs ⊆ tcRefs τ sig := by
  simp only [ops2, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops2_fresh : (ops2 : List (HloOp τ sig (Elt F))).Forall fun op => op.fresh = ∅ := by
  simp only [ops2, List.Forall]; repeat' constructor

theorem ops3_sub : (ops3 : List (HloOp τ sig (Elt F))).Forall fun op => op.bufs ⊆ tcRefs τ sig := by
  simp only [ops3, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops3_fresh : (ops3 : List (HloOp τ sig (Elt F))).Forall fun op => op.fresh = ∅ := by
  simp only [ops3, List.Forall]; repeat' constructor

theorem ops4_sub : (ops4 : List (HloOp τ sig (Elt F))).Forall fun op => op.bufs ⊆ tcRefs τ sig := by
  simp only [ops4, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops4_fresh : (ops4 : List (HloOp τ sig (Elt F))).Forall fun op => op.fresh = ∅ := by
  simp only [ops4, List.Forall]; repeat' constructor

theorem ops5_sub : (ops5 : List (HloOp τ sig (Elt F))).Forall fun op => op.bufs ⊆ tcRefs τ sig := by
  simp only [ops5, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops5_fresh : (ops5 : List (HloOp τ sig (Elt F))).Forall fun op => op.fresh = ∅ := by
  simp only [ops5, List.Forall]; repeat' constructor

theorem ops6_sub : (ops6 : List (HloOp τ sig (Elt F))).Forall fun op => op.bufs ⊆ tcRefs τ sig := by
  simp only [ops6, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops6_fresh : (ops6 : List (HloOp τ sig (Elt F))).Forall fun op => op.fresh = ∅ := by
  simp only [ops6, List.Forall]; repeat' constructor

theorem ops7_sub : (ops7 : List (HloOp τ sig (Elt F))).Forall fun op => op.bufs ⊆ tcRefs τ sig := by
  simp only [ops7, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops7_fresh : (ops7 : List (HloOp τ sig (Elt F))).Forall fun op => op.fresh = ∅ := by
  simp only [ops7, List.Forall]; repeat' constructor

theorem ops8_sub : (ops8 : List (HloOp τ sig (Elt F))).Forall fun op => op.bufs ⊆ tcRefs τ sig := by
  simp only [ops8, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops8_fresh : (ops8 : List (HloOp τ sig (Elt F))).Forall fun op => op.fresh = ∅ := by
  simp only [ops8, List.Forall]; repeat' constructor

theorem ops9_sub : (ops9 : List (HloOp τ sig (Elt F))).Forall fun op => op.bufs ⊆ tcRefs τ sig := by
  simp only [ops9, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops9_fresh : (ops9 : List (HloOp τ sig (Elt F))).Forall fun op => op.fresh = ∅ := by
  simp only [ops9, List.Forall]; repeat' constructor

theorem ops10_sub : (ops10 : List (HloOp τ sig (Elt F))).Forall fun op => op.bufs ⊆ tcRefs τ sig := by
  simp only [ops10, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops10_fresh : (ops10 : List (HloOp τ sig (Elt F))).Forall fun op => op.fresh = ∅ := by
  simp only [ops10, List.Forall]; repeat' constructor

theorem ops11_sub : (ops11 : List (HloOp τ sig (Elt F))).Forall fun op => op.bufs ⊆ tcRefs τ sig := by
  simp only [ops11, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops11_fresh : (ops11 : List (HloOp τ sig (Elt F))).Forall fun op => op.fresh = ∅ := by
  simp only [ops11, List.Forall]; repeat' constructor

theorem ops12_sub : (ops12 : List (HloOp τ sig (Elt F))).Forall fun op => op.bufs ⊆ tcRefs τ sig := by
  simp only [ops12, List.Forall, StableHlo.TRef.nullary, StableHlo.TRef.unary, StableHlo.TRef.binary, StableHlo.TRef.ternary,
    nullary_bufs_sub, unary_bufs_sub, binary_bufs_sub, ternary_bufs_sub, reshape_bufs_sub, and_self]
theorem ops12_fresh : (ops12 : List (HloOp τ sig (Elt F))).Forall fun op => op.fresh = ∅ := by
  simp only [ops12, List.Forall]; repeat' constructor

/-- Every operation of @main touches TensorCore references only. -/
theorem ops_sub : (ops : List (HloOp τ sig (Elt F))).Forall fun op => op.bufs ⊆ tcRefs τ sig :=
  forall_append' (forall_append' (forall_append' (forall_append' (forall_append' (ops0_sub) ops1_sub) ops2_sub) ops3_sub) ops4_sub) (forall_append' (forall_append' (forall_append' (forall_append' (forall_append' (forall_append' (ops5_sub) ops6_sub) ops7_sub) ops8_sub) ops9_sub) ops10_sub) (forall_append' (ops11_sub) ops12_sub))

/-- No operation of @main allocates a buffer. -/
theorem ops_fresh : (ops : List (HloOp τ sig (Elt F))).Forall fun op => op.fresh = ∅ :=
  forall_append' (forall_append' (forall_append' (forall_append' (forall_append' (ops0_fresh) ops1_fresh) ops2_fresh) ops3_fresh) ops4_fresh) (forall_append' (forall_append' (forall_append' (forall_append' (forall_append' (forall_append' (ops5_fresh) ops6_fresh) ops7_fresh) ops8_fresh) ops9_fresh) ops10_fresh) (forall_append' (ops11_fresh) ops12_fresh))

/-- From any memory with zero counters, every weakly fair execution of @main terminates, nothing faulting, and every
    buffer ends at the fold of @main's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Run

end
-- ==== Proof.RAcc.lean ====
/-
  Reading the reference program's buffers as the matrices and rows of the specification: the input, the segment ids, and
  the parameters, out of a valuation of the TensorCore's buffers; and a [T, 1, a] array of per-block partial results
  as T rows.
-/
import proofs.«412217_j43164421324860_3_alg».proof.ReferenceIdeal
import proofs.«412217_j43164421324860_3_alg».proof.Proof.Spec

noncomputable section

namespace Cert.ReferenceIdeal.Acc

open Cert.ReferenceIdeal Cert.Spec Idealize.ShloMosaic Idealize.ShloMosaic.ValueIdx

/-- The TensorCore's buffer contents at a boundary of @main, at the exact instance. -/
abbrev Val := Valuation τ sig (Elt Ideal)

/-- A [T, 1, a] array of per-block rows, block by block. -/
def part3 {T a : ℕ} (f : (⟨3, ![T, 1, a]⟩ : Shape).Idx → EReal) : Fin T → Row a := fun t d => f (ix3 t 0 d)
/-- A [T, G, a] array of per-block matrices, block by block. -/
def part3m {T G a : ℕ} (f : (⟨3, ![T, G, a]⟩ : Shape).Idx → EReal) : Fin T → Mat G a := fun t g d => f (ix3 t g d)

def xOf (W : Val) : Mat 100000 128 := mat2 (n := 100000) (a := 128) (W (Proc.devRef .tc main_arg0))
def segOf (W : Val) : Fin 100000 → ℤ := fun i => ((W (Proc.devRef .tc main_arg2) : S100000.Idx → BitVec 32) (ix1 i)).toInt

def paramsOf (W : Val) : Params where
  g1 := row1 (a := 128) (W (Proc.devRef .tc main_arg3))
  b1 := row1 (a := 128) (W (Proc.devRef .tc main_arg4))
  w0 := mat2 (n := 128) (a := 512) (W (Proc.devRef .tc main_arg5))
  b0 := row1 (a := 512) (W (Proc.devRef .tc main_arg6))
  w1 := mat2 (n := 512) (a := 512) (W (Proc.devRef .tc main_arg7))
  bb1 := row1 (a := 512) (W (Proc.devRef .tc main_arg8))
  w2 := mat2 (n := 512) (a := 512) (W (Proc.devRef .tc main_arg9))
  bb2 := row1 (a := 512) (W (Proc.devRef .tc main_arg10))
  w3 := mat2 (n := 512) (a := 512) (W (Proc.devRef .tc main_arg11))
  bb3 := row1 (a := 512) (W (Proc.devRef .tc main_arg12))
  g3 := row1 (a := 512) (W (Proc.devRef .tc main_arg13))
  b3 := row1 (a := 512) (W (Proc.devRef .tc main_arg14))

/-- The program's argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

end Cert.ReferenceIdeal.Acc

end
-- ==== Proof.RBn.lean ====
/-
  The reference program's four BatchNorm stretches, read at an arbitrary valuation V of the buffers.

  Each stretch is the same computation on a matrix of n rows and a columns: every column's mean is its sum over the rows
  divided by the row count; its variance is the mean of the squared deviations from that mean, kept because the divisor
  (the row count minus zero) is positive; the normalised entry is (x - mean) * rsqrt(var + eps) * gamma + beta, with the
  per-column rows laid along the matrix. The computation is stated once as a term over n and a, read once at an index as
  the specification's entry, and each stretch's result buffer is that term at the stretch's input buffers.
-/
import proofs.«412217_j43164421324860_3_alg».proof.Proof.RefOps
import proofs.«412217_j43164421324860_3_alg».proof.Proof.RAcc
import Idealize.ShloMosaic.Lib.IdealHost
import Idealize.ShloMosaic.Lib.KernelVsHost

noncomputable section

open scoped BigOperators

namespace Cert.ReferenceIdeal.Bn

open Cert.ReferenceIdeal Cert.ReferenceIdeal.Gen Cert.ReferenceIdeal.Ops Cert.ReferenceIdeal.Acc Cert.Spec
open Idealize.ShloMosaic Idealize.ShloMosaic.TcCoe Idealize.ShloMosaic.ValueIdx Idealize.SL.Sem Idealize.ShloMosaic.StableHlo

/-! ## The normalisation as one term over a matrix of n rows and a columns -/

/-- The shape relations the normalisation's operations ask of an [n, a] matrix, its [a] rows and [1, a] one-row matrices. -/
structure Side (n a : ℕ) : Prop where
  red : (⟨2, ![n, a]⟩ : Shape).ReducesTo [0] ⟨1, ![a]⟩
  red' : (⟨2, ![n, a]⟩ : Shape).Reduces [0] ⟨1, ![a]⟩
  pos : 0 < (⟨0, ![]⟩ : Shape).numel
  b0 : (⟨0, ![]⟩ : Shape).BroadcastsInDim ⟨1, ![a]⟩ (![] : Fin 0 → Fin 1)
  b1 : (⟨1, ![a]⟩ : Shape).BroadcastsInDim ⟨2, ![1, a]⟩ (![1] : Fin 1 → Fin 2)
  b01 : (⟨0, ![]⟩ : Shape).BroadcastsInDim ⟨2, ![1, a]⟩ (![] : Fin 0 → Fin 2)
  b2 : (⟨2, ![1, a]⟩ : Shape).BroadcastsInDim ⟨2, ![n, a]⟩ (![0, 1] : Fin 2 → Fin 2)

section Term
variable {n a : ℕ} (h : Side n a)

/-- A row laid along each of the n rows: [a] → [1, a] → [n, a]. -/
def spread (v : FVec Ideal ⟨1, ![a]⟩ .f32) : FVec Ideal ⟨2, ![n, a]⟩ .f32 :=
  broadcastInDim ⟨2, ![n, a]⟩ ![0, 1] h.b2 (broadcastInDim ⟨2, ![1, a]⟩ ![1] h.b1 v)

/-- Each column's sum over the rows (from zero), divided by the row count. -/
def meanV (x : FVec Ideal ⟨2, ![n, a]⟩ .f32) : FVec Ideal ⟨1, ![a]⟩ .f32 :=
  Host.divf (F := Ideal) (Host.reduceAdd (F := Ideal) x (constant (F := Ideal) ⟨0, ![]⟩ .f32 0x00000000#32) h.red h.pos)
    (broadcastInDim ⟨1, ![a]⟩ ![] h.b0 (constant (F := Ideal) ⟨0, ![]⟩ .f32 0x47C35000#32))

/-- The same mean as a one-row matrix: the column sums laid as [1, a], divided by the row count. -/
def meanRow (x : FVec Ideal ⟨2, ![n, a]⟩ .f32) : FVec Ideal ⟨2, ![1, a]⟩ .f32 :=
  Host.divf (F := Ideal)
    (broadcastInDim ⟨2, ![1, a]⟩ ![1] h.b1 (Host.reduceAdd (F := Ideal) x (constant (F := Ideal) ⟨0, ![]⟩ .f32 0x00000000#32) h.red h.pos))
    (broadcastInDim ⟨2, ![1, a]⟩ ![] h.b01 (constant (F := Ideal) ⟨0, ![]⟩ .f32 0x47C35000#32))

/-- The divisor of the variance: the row count minus the integer zero (no degrees of freedom removed). -/
def cnt : FVec Ideal ⟨0, ![]⟩ .f32 :=
  subf (constant (F := Ideal) ⟨0, ![]⟩ .f32 0x47C35000#32) (sitofp .f32 (constantI ⟨0, ![]⟩ 32 0#32))

/-- Each column's mean squared deviation from its mean, kept where the divisor is positive. -/
def varV (x : FVec Ideal ⟨2, ![n, a]⟩ .f32) : FVec Ideal ⟨1, ![a]⟩ .f32 :=
  select (broadcastInDim ⟨1, ![a]⟩ ![] h.b0 (cmpf .ogt cnt (constant (F := Ideal) ⟨0, ![]⟩ .f32 0x00000000#32)))
    (Host.divf (F := Ideal)
      (Host.reduceAdd (F := Ideal)
        (mulf (subf x (broadcastInDim ⟨2, ![n, a]⟩ ![0, 1] h.b2 (meanRow h x))) (subf x (broadcastInDim ⟨2, ![n, a]⟩ ![0, 1] h.b2 (meanRow h x))))
        (constant (F := Ideal) ⟨0, ![]⟩ .f32 0x00000000#32) h.red h.pos)
      (broadcastInDim ⟨1, ![a]⟩ ![] h.b0 cnt))
    (broadcastInDim ⟨1, ![a]⟩ ![] h.b0 (id (constant (F := Ideal) ⟨0, ![]⟩ .f32 0x7FC00000#32)))

/-- The normalised matrix: (x - mean) * rsqrt(var + eps) * gamma + beta, the rows laid along the matrix. -/
def bnTerm (x : FVec Ideal ⟨2, ![n, a]⟩ .f32) (g b : FVec Ideal ⟨1, ![a]⟩ .f32) : FVec Ideal ⟨2, ![n, a]⟩ .f32 :=
  addf
    (mulf
      (mulf (subf x (spread h (meanV h x)))
        (spread h (Host.rsqrt (F := Ideal) (addf (varV h x) (broadcastInDim ⟨1, ![a]⟩ ![] h.b0 (constant (F := Ideal) ⟨0, ![]⟩ .f32 0x3727C5AC#32))))))
      (spread h g))
    (spread h b)

end Term

theorem side128 : Side 100000 128 :=
  ⟨reducesTo_S100000x128_S128_d0, by decide, h_S_, bcast_S_S128, bcast_S128_S1x128_1, bcast_S_S1x128, bcast_S1x128_S100000x128_0_1⟩

/-! ## The term read at an index -/

section Read
variable {n a : ℕ} (h : Side n a)

/-- A row laid as a one-row matrix reads the row. -/
theorem bcast1_apply {α : Type} (v : (⟨1, ![a]⟩ : Shape).Idx → α) (d : Fin a) :
    broadcastInDim ⟨2, ![1, a]⟩ ![1] h.b1 v (ix2 (0 : Fin 1) d) = v (ix1 d) := by
  refine broadcastInDim_apply ![1] h.b1 v (ix2 (0 : Fin 1) d) (ix1 d) ?_
  intro c
  match c with
  | ⟨0, _⟩ =>
    show d.val = if a = 1 then 0 else d.val
    split
    · have := d.isLt; omega
    · rfl

/-- A row laid along every row of the matrix reads, at (i, d), the row at d. -/
theorem spread_apply (v : FVec Ideal ⟨1, ![a]⟩ .f32) (i : Fin n) (d : Fin a) :
    spread h v (ix2 i d) = v (ix1 d) := by
  unfold spread
  rw [broadcastInDim_oneRow_apply, bcast1_apply h]

/-- The host's reciprocal square root at an index. -/
theorem hostRsqrt_apply {s : Shape} (v : FVec Ideal s .f32) (j : s.Idx) : Host.rsqrt (F := Ideal) v j = Ideal.rsqrt (v j) := rfl

/-- The column sum from zero, read at column d: the sum over the rows. -/
theorem colsum_apply (x : FVec Ideal ⟨2, ![n, a]⟩ .f32) (d : Fin a) :
    Host.reduceAdd (F := Ideal) x (constant (F := Ideal) ⟨0, ![]⟩ .f32 0x00000000#32) h.red h.pos (ix1 d)
      = ∑ i : Fin n, x (ix2 i d) := by
  rw [hostReduceAdd_apply, Ideal.hostReduceAdd_single h.red h.red', constant_apply, Cert.Consts.ofBits_zero, zero_add]
  refine Finset.sum_congr rfl fun k _ => congrArg x ?_
  funext c
  apply Fin.ext
  match c with
  | ⟨0, _⟩ => rfl
  | ⟨1, _⟩ => rfl

theorem meanV_apply (x : FVec Ideal ⟨2, ![n, a]⟩ .f32) (d : Fin a) : meanV h x (ix1 d) = mean (mat2 x) d := by
  unfold meanV
  rw [hostDivf_apply, colsum_apply h, broadcastInDim_scalar_apply, constant_apply]
  rfl

theorem meanRow_apply (x : FVec Ideal ⟨2, ![n, a]⟩ .f32) (d : Fin a) : meanRow h x (ix2 (0 : Fin 1) d) = mean (mat2 x) d := by
  unfold meanRow
  rw [hostDivf_apply, bcast1_apply h, colsum_apply h, broadcastInDim_scalar_apply, constant_apply]
  rfl

/-- The divisor is the row count: the integer zero converts to the real zero. -/
theorem cnt_apply : (cnt : FVec Ideal ⟨0, ![]⟩ .f32) ix0 = rows := by
  unfold cnt
  rw [subf_apply, constant_apply, sitofp_apply]
  have e : FloatOps.sitofp (F := Ideal) .f32 (constantI ⟨0, ![]⟩ 32 0#32 ix0) = (0 : EReal) := by
    show (((0#32 : BitVec 32).toInt : ℝ) : EReal) = 0
    simp
  rw [e, sub_zero]
  rfl

theorem rows_pos : (0 : EReal) < rows := by
  rw [rows_eq]; exact EReal.coe_pos.mpr (by norm_num)

/-- The row count is above zero, so the selection keeps the mean squared deviation. -/
theorem varV_apply (x : FVec Ideal ⟨2, ![n, a]⟩ .f32) (d : Fin a) : varV h x (ix1 d) = varR (mat2 x) d := by
  unfold varV
  rw [select_apply, broadcastInDim_scalar_apply, cmpf_apply, Ideal.cmpf_def, cnt_apply, constant_apply, Cert.Consts.ofBits_zero]
  have hp : Ideal.cmp .ogt rows 0 = 1#1 := by
    unfold Ideal.cmp
    simp [rows_pos]
  rw [hp, select_one, hostDivf_apply, colsum_apply h, broadcastInDim_scalar_apply, cnt_apply]
  unfold varR
  congr 1
  refine Finset.sum_congr rfl fun i _ => ?_
  rw [mulf_apply, subf_apply, broadcastInDim_oneRow_apply, meanRow_apply h]
  rfl

/-- The normalised matrix at (i, d) is the specification's entry. -/
theorem bnTerm_apply (x : FVec Ideal ⟨2, ![n, a]⟩ .f32) (g b : FVec Ideal ⟨1, ![a]⟩ .f32) (i : Fin n) (d : Fin a) :
    bnTerm h x g b (ix2 i d) = bn (mat2 x) (mean (mat2 x)) (varR (mat2 x)) (row1 g) (row1 b) i d := by
  unfold bnTerm
  rw [addf_apply, mulf_apply, mulf_apply, subf_apply]
  simp only [spread_apply]
  rw [meanV_apply, hostRsqrt_apply, addf_apply, varV_apply, broadcastInDim_scalar_apply, constant_apply]
  rfl

end Read

/-- A buffer that is no argument differs from every argument. -/
theorem ne_of_arg {r y : Ref sig .tc} (hr : r ∈ argRefs) (hy : y ∉ argRefs) :
    (Proc.devRef (τ := τ) .tc r : DevRef τ sig) ≠ Proc.devRef .tc y :=
  devRef_ne_of_ne (fun e => hy (e ▸ hr))

theorem side512 : Side 100000 512 :=
  ⟨reducesTo_S100000x512_S512_d0, by decide, h_S_, bcast_S_S512, bcast_S512_S1x512_1, bcast_S_S1x512, bcast_S1x512_S100000x512_0_1⟩

/-! ## The four stretches -/

variable (V : Val)

/-- The stretch's result buffer is the normalisation term at its input buffers. -/
theorem run1 :
    after (ops0 (F := Ideal)) V (Proc.devRef .tc main_v18)
      = bnTerm side128 (V (Proc.devRef .tc main_arg0)) (V (Proc.devRef .tc main_arg3)) (V (Proc.devRef .tc main_arg4)) := by
  after_results_simp
  rfl

/-- The stretch normalises the columns of `main_arg0`: mean, mean squared deviation, scale and shift. -/
theorem bn1 :
    mat2 (n := 100000) (a := 128) (after (ops0 (F := Ideal)) V (Proc.devRef .tc main_v18))
      = bn (mat2 (n := 100000) (a := 128) (V (Proc.devRef .tc main_arg0))) (mean (mat2 (n := 100000) (a := 128) (V (Proc.devRef .tc main_arg0))))
          (varR (mat2 (n := 100000) (a := 128) (V (Proc.devRef .tc main_arg0)))) (row1 (a := 128) (V (Proc.devRef .tc main_arg3))) (row1 (a := 128) (V (Proc.devRef .tc main_arg4))) := by
  rw [run1]
  funext i d
  exact bnTerm_apply side128 _ _ _ i d
/-- The stretch writes no argument. -/
theorem bn1_kept (r : Ref sig .tc) (hr : r ∈ argRefs) :
    after (ops0 (F := Ideal)) V (Proc.devRef .tc r) = V (Proc.devRef .tc r) := by
  refine after_of_forall_not_mem _ _ (List.forall_iff_forall_mem.mp ?_)
  simp only [ops0, List.Forall, nullary_writes, unary_writes, binary_writes, ternary_writes, Finset.mem_singleton]
  repeat' apply And.intro
  all_goals exact ne_of_arg hr (by decide)

/-- The stretch's result buffer is the normalisation term at its input buffers. -/
theorem run3a :
    after (ops3 (F := Ideal)) V (Proc.devRef .tc main_v47)
      = bnTerm side512 (V (Proc.devRef .tc main_v28)) (V (Proc.devRef .tc main_arg13)) (V (Proc.devRef .tc main_arg14)) := by
  after_results_simp
  rfl

/-- The stretch normalises the columns of `main_v28`: mean, mean squared deviation, scale and shift. -/
theorem bn3a :
    mat2 (n := 100000) (a := 512) (after (ops3 (F := Ideal)) V (Proc.devRef .tc main_v47))
      = bn (mat2 (n := 100000) (a := 512) (V (Proc.devRef .tc main_v28))) (mean (mat2 (n := 100000) (a := 512) (V (Proc.devRef .tc main_v28))))
          (varR (mat2 (n := 100000) (a := 512) (V (Proc.devRef .tc main_v28)))) (row1 (a := 512) (V (Proc.devRef .tc main_arg13))) (row1 (a := 512) (V (Proc.devRef .tc main_arg14))) := by
  rw [run3a]
  funext i d
  exact bnTerm_apply side512 _ _ _ i d
/-- The stretch writes no argument. -/
theorem bn3a_kept (r : Ref sig .tc) (hr : r ∈ argRefs) :
    after (ops3 (F := Ideal)) V (Proc.devRef .tc r) = V (Proc.devRef .tc r) := by
  refine after_of_forall_not_mem _ _ (List.forall_iff_forall_mem.mp ?_)
  simp only [ops3, List.Forall, nullary_writes, unary_writes, binary_writes, ternary_writes, Finset.mem_singleton]
  repeat' apply And.intro
  all_goals exact ne_of_arg hr (by decide)

/-- The stretch's result buffer is the normalisation term at its input buffers. -/
theorem run3b :
    after (ops6 (F := Ideal)) V (Proc.devRef .tc main_v71)
      = bnTerm side512 (V (Proc.devRef .tc main_v52)) (V (Proc.devRef .tc main_arg13)) (V (Proc.devRef .tc main_arg14)) := by
  after_results_simp
  rfl

/-- The stretch normalises the columns of `main_v52`: mean, mean squared deviation, scale and shift. -/
theorem bn3b :
    mat2 (n := 100000) (a := 512) (after (ops6 (F := Ideal)) V (Proc.devRef .tc main_v71))
      = bn (mat2 (n := 100000) (a := 512) (V (Proc.devRef .tc main_v52))) (mean (mat2 (n := 100000) (a := 512) (V (Proc.devRef .tc main_v52))))
          (varR (mat2 (n := 100000) (a := 512) (V (Proc.devRef .tc main_v52)))) (row1 (a := 512) (V (Proc.devRef .tc main_arg13))) (row1 (a := 512) (V (Proc.devRef .tc main_arg14))) := by
  rw [run3b]
  funext i d
  exact bnTerm_apply side512 _ _ _ i d
/-- The stretch writes no argument. -/
theorem bn3b_kept (r : Ref sig .tc) (hr : r ∈ argRefs) :
    after (ops6 (F := Ideal)) V (Proc.devRef .tc r) = V (Proc.devRef .tc r) := by
  refine after_of_forall_not_mem _ _ (List.forall_iff_forall_mem.mp ?_)
  simp only [ops6, List.Forall, nullary_writes, unary_writes, binary_writes, ternary_writes, Finset.mem_singleton]
  repeat' apply And.intro
  all_goals exact ne_of_arg hr (by decide)

/-- The stretch's result buffer is the normalisation term at its input buffers. -/
theorem run3c :
    after (ops8 (F := Ideal)) V (Proc.devRef .tc main_v95)
      = bnTerm side512 (V (Proc.devRef .tc main_v76)) (V (Proc.devRef .tc main_arg13)) (V (Proc.devRef .tc main_arg14)) := by
  after_results_simp
  rfl

/-- The stretch normalises the columns of `main_v76`: mean, mean squared deviation, scale and shift. -/
theorem bn3c :
    mat2 (n := 100000) (a := 512) (after (ops8 (F := Ideal)) V (Proc.devRef .tc main_v95))
      = bn (mat2 (n := 100000) (a := 512) (V (Proc.devRef .tc main_v76))) (mean (mat2 (n := 100000) (a := 512) (V (Proc.devRef .tc main_v76))))
          (varR (mat2 (n := 100000) (a := 512) (V (Proc.devRef .tc main_v76)))) (row1 (a := 512) (V (Proc.devRef .tc main_arg13))) (row1 (a := 512) (V (Proc.devRef .tc main_arg14))) := by
  rw [run3c]
  funext i d
  exact bnTerm_apply side512 _ _ _ i d
/-- The stretch writes no argument. -/
theorem bn3c_kept (r : Ref sig .tc) (hr : r ∈ argRefs) :
    after (ops8 (F := Ideal)) V (Proc.devRef .tc r) = V (Proc.devRef .tc r) := by
  refine after_of_forall_not_mem _ _ (List.forall_iff_forall_mem.mp ?_)
  simp only [ops8, List.Forall, nullary_writes, unary_writes, binary_writes, ternary_writes, Finset.mem_singleton]
  repeat' apply And.intro
  all_goals exact ne_of_arg hr (by decide)

end Cert.ReferenceIdeal.Bn

end
-- ==== Proof.RHead.lean ====
/-
  The head of the network as the reference program's host operations spell it.
-/
import proofs.«412217_j43164421324860_3_alg».proof.Proof.Gen.ReferenceIdeal
import Idealize.ShloMosaic.PureOps.Ideal

noncomputable section

namespace Cert.ReferenceIdeal.Tail

open Cert.ReferenceIdeal Cert.ReferenceIdeal.Gen Idealize.ShloMosaic

/-- The head of the network: three dense layers with a leaky rectifier and a logistic between them, applied to the pooled
    value; the same host operations in both programs. -/
def head (p : FVec Ideal S64x512 .f32) (a15 : FVec Ideal S1 .f32) (a16 : FVec Ideal S512x512 .f32) (a17 : FVec Ideal S512 .f32)
    (a18 : FVec Ideal S512x256 .f32) (a19 : FVec Ideal S256 .f32) (a20 : FVec Ideal S256x10 .f32) (a21 : FVec Ideal S10 .f32) :
    FVec Ideal S64x10 .f32 :=
  have h1 : FVec Ideal S64x512 .f32 := addf (Host.dotGeneral dot_S64x512_S512x512_S64x512_1_0_0_1_n_n none p a16)
    (broadcastInDim S64x512 ![0, 1] bcast_S1x512_S64x512_0_1 (broadcastInDim S1x512 ![1] bcast_S512_S1x512_1 a17))
  have z : FVec Ideal S64x512 .f32 := broadcastInDim S64x512 ![] bcast_S_S64x512 (constant (F := Ideal) S_ .f32 0x00000000#32)
  have al : FVec Ideal S64x512 .f32 := broadcastInDim S64x512 ![0, 1] bcast_S1x1_S64x512_0_1 (broadcastInDim S1x1 ![1] bcast_S1_S1x1_1 a15)
  have pr : FVec Ideal S64x512 .f32 := select (cmpf .oge h1 z) h1 (mulf al h1)
  have h2 : FVec Ideal S64x256 .f32 := addf (Host.dotGeneral dot_S64x512_S512x256_S64x256_1_0_0_1_n_n none pr a18)
    (broadcastInDim S64x256 ![0, 1] bcast_S1x256_S64x256_0_1 (broadcastInDim S1x256 ![1] bcast_S256_S1x256_1 a19))
  have one : FVec Ideal S64x256 .f32 := broadcastInDim S64x256 ![] bcast_S_S64x256 (constant (F := Ideal) S_ .f32 0x3F800000#32)
  have sg : FVec Ideal S64x256 .f32 := Host.divf one (addf one (Host.exp (Host.negf h2)))
  addf (Host.dotGeneral dot_S64x256_S256x10_S64x10_1_0_0_1_n_n none sg a20)
    (broadcastInDim S64x10 ![0, 1] bcast_S1x10_S64x10_0_1 (broadcastInDim S1x10 ![1] bcast_S10_S1x10_1 a21))

end Cert.ReferenceIdeal.Tail

end
-- ==== Proof.RLin.lean ====
/-
  The reference program's four layers, its segment sum and its head, read at an arbitrary valuation V of the buffers.
-/
import proofs.«412217_j43164421324860_3_alg».proof.Proof.RefOps
import proofs.«412217_j43164421324860_3_alg».proof.Proof.RAcc
import proofs.«412217_j43164421324860_3_alg».proof.Proof.RHead
import proofs.«412217_j43164421324860_3_alg».proof.Proof.LibMatProd
import proofs.«412217_j43164421324860_3_alg».proof.Proof.LibSegment
import Idealize.ShloMosaic.Lib.KernelVsHost
import Idealize.ShloMosaic.Lib.IdealHost

noncomputable section

open scoped BigOperators

namespace Cert.ReferenceIdeal.Lin

open Cert.ReferenceIdeal Cert.ReferenceIdeal.Gen Cert.ReferenceIdeal.Ops Cert.ReferenceIdeal.Acc Cert.Spec
open Idealize.ShloMosaic Idealize.ShloMosaic.TcCoe Idealize.ShloMosaic.ValueIdx Idealize.SL.Sem Idealize.ShloMosaic.StableHlo

/-! ## Reading a broadcast at an index -/

section Broadcasts
variable {α : Type}

/-- A vector laid as a one-row matrix reads, at column `t` of its row, the vector's entry `t`. -/
theorem bcast_row_apply {n : ℕ} (hb : (⟨1, ![n]⟩ : Shape).BroadcastsInDim ⟨2, ![1, n]⟩ ![1])
    (x : (⟨1, ![n]⟩ : Shape).Idx → α) (t : Fin n) :
    broadcastInDim ⟨2, ![1, n]⟩ ![1] hb x (ix2 (0 : Fin 1) t) = x (ix1 t) := by
  refine broadcastInDim_apply ![1] hb x (ix2 (0 : Fin 1) t) (ix1 t) ?_
  intro a
  match a with
  | ⟨0, _⟩ =>
    show t.val = if n = 1 then 0 else t.val
    split_ifs with hn
    · have := t.isLt; omega
    · rfl

/-- A vector laid as a one-column matrix reads, at row `e` of its column, the vector's entry `e`. -/
theorem bcast_col_apply {n : ℕ} (hb : (⟨1, ![n]⟩ : Shape).BroadcastsInDim ⟨2, ![n, 1]⟩ ![0])
    (x : (⟨1, ![n]⟩ : Shape).Idx → α) (e : Fin n) :
    broadcastInDim ⟨2, ![n, 1]⟩ ![0] hb x (Predicate.ixP e) = x (ix1 e) := by
  refine broadcastInDim_apply ![0] hb x (Predicate.ixP e) (ix1 e) ?_
  intro a
  match a with
  | ⟨0, _⟩ =>
    show e.val = if n = 1 then 0 else e.val
    split_ifs with hn
    · have := e.isLt; omega
    · rfl

end Broadcasts

/-! ## One layer as a pure term -/

/-- One layer: the product with the weights, the bias laid along every row and added, the maximum with zero. -/
def layerT {K : ℕ} (d : DotDims ⟨2, ![100000, K]⟩ ⟨2, ![K, 512]⟩ S100000x512)
    (h : FVec Ideal ⟨2, ![100000, K]⟩ .f32) (w : FVec Ideal ⟨2, ![K, 512]⟩ .f32) (b : FVec Ideal S512 .f32) :
    FVec Ideal S100000x512 .f32 :=
  maximumf
    (addf (Host.dotGeneral d none h w)
      (broadcastInDim S100000x512 ![0, 1] bcast_S1x512_S100000x512_0_1 (broadcastInDim S1x512 ![1] bcast_S512_S1x512_1 b)))
    (broadcastInDim S100000x512 ![] bcast_S_S100000x512 (constant (F := Ideal) S_ .f32 0x00000000#32))

/-- Entry `(i, j)` of a layer: row `i` of the input against column `j` of the weights, plus entry `j` of the bias,
    clamped below at zero. -/
theorem layerT_apply {K : ℕ} (d : DotDims ⟨2, ![100000, K]⟩ ⟨2, ![K, 512]⟩ S100000x512) (hd : d = DotDims.plain 100000 K 512)
    (h : FVec Ideal ⟨2, ![100000, K]⟩ .f32) (w : FVec Ideal ⟨2, ![K, 512]⟩ .f32) (b : FVec Ideal S512 .f32)
    (i : Fin 100000) (j : Fin 512) :
    layerT d h w b (ix2 i j) = max ((∑ k : Fin K, h (ix2 i k) * w (ix2 k j)) + b (ix1 j)) 0 := by
  unfold layerT
  rw [maximumf_apply, addf_apply, Cert.LibMatProd.dotGeneral_apply d hd, broadcastInDim_oneRow_apply, bcast_row_apply,
    broadcastInDim_scalar_apply, constant_apply, Cert.Consts.ofBits_zero]

/-- Two stretches run one after the other are their concatenation run as one. -/
theorem after_append (l₁ l₂ : List (HloOp τ sig (Elt Ideal))) (V : Val) : after (l₁ ++ l₂) V = after l₂ (after l₁ V) := by
  induction l₁ generalizing V with
  | nil => rfl
  | cons op l ih => rw [List.cons_append, after_cons, after_cons, ih]

/-- A stretch whose written buffers, listed, hold no argument leaves every argument as it was. -/
theorem kept_of {ops : List (HloOp τ sig (Elt Ideal))} (W : List (Ref sig .tc))
    (hW : ops.Forall fun op => op.writes ⊆ (W.map (Proc.devRef (τ := τ) .tc)).toFinset)
    (hd : ∀ r ∈ argRefs, r ∉ W) (V : Val) (r : Ref sig .tc) (hr : r ∈ argRefs) :
    after ops V (Proc.devRef .tc r) = V (Proc.devRef .tc r) :=
  after_of_writes_sub ops V hW (hd r hr)

variable (V : Val)

/-! ## The first layer -/

/-- The first layer's stretch leaves, at its result, the layer of `main_v18` with the weights `main_arg5` and the bias `main_arg6`. -/
theorem run0 :
    after (ops1 (F := Ideal)) V (Proc.devRef .tc main_v23)
      = layerT dot_S100000x128_S128x512_S100000x512_1_0_0_1_n_n (V (Proc.devRef .tc main_v18)) (V (Proc.devRef .tc main_arg5))
          (V (Proc.devRef .tc main_arg6)) := by
  after_results
  rfl

/-- The stretch is one layer on `main_v18`: the product with the weights, the bias, the rectifier. -/
theorem lin0 :
    mat2 (n := 100000) (a := 512) (after (ops1 (F := Ideal)) V (Proc.devRef .tc main_v23))
      = lin (mat2 (n := 100000) (a := 128) (V (Proc.devRef .tc main_v18))) (mat2 (n := 128) (a := 512) (V (Proc.devRef .tc main_arg5))) (row1 (a := 512) (V (Proc.devRef .tc main_arg6))) := by
  funext i d
  show after (ops1 (F := Ideal)) V (Proc.devRef .tc main_v23) (ix2 i d) = _
  rw [run0 V]
  exact layerT_apply _ rfl _ _ _ i d

/-- Every buffer the stretch writes is among these. -/
theorem ops1_writes : (ops1 (F := Ideal)).Forall fun op => op.writes ⊆
    (([main_v19, main_v20, main_v21, main_v22, main_call1_cst, main_call1_v0, main_v23] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretch writes no argument. -/
theorem lin0_kept (r : Ref sig .tc) (hr : r ∈ argRefs) :
    after (ops1 (F := Ideal)) V (Proc.devRef .tc r) = V (Proc.devRef .tc r) :=
  kept_of _ ops1_writes (by decide) V r hr

/-! ## The second layer -/

/-- The second layer's stretch leaves, at its result, the layer of `main_v23` with the weights `main_arg7` and the bias `main_arg8`. -/
theorem run1 :
    after (ops2 (F := Ideal)) V (Proc.devRef .tc main_v28)
      = layerT dot_S100000x512_S512x512_S100000x512_1_0_0_1_n_n (V (Proc.devRef .tc main_v23)) (V (Proc.devRef .tc main_arg7))
          (V (Proc.devRef .tc main_arg8)) := by
  after_results
  rfl

/-- The stretch is one layer on `main_v23`: the product with the weights, the bias, the rectifier. -/
theorem lin1 :
    mat2 (n := 100000) (a := 512) (after (ops2 (F := Ideal)) V (Proc.devRef .tc main_v28))
      = lin (mat2 (n := 100000) (a := 512) (V (Proc.devRef .tc main_v23))) (mat2 (n := 512) (a := 512) (V (Proc.devRef .tc main_arg7))) (row1 (a := 512) (V (Proc.devRef .tc main_arg8))) := by
  funext i d
  show after (ops2 (F := Ideal)) V (Proc.devRef .tc main_v28) (ix2 i d) = _
  rw [run1 V]
  exact layerT_apply _ rfl _ _ _ i d

/-- Every buffer the stretch writes is among these. -/
theorem ops2_writes : (ops2 (F := Ideal)).Forall fun op => op.writes ⊆
    (([main_v24, main_v25, main_v26, main_v27, main_call2_cst, main_call2_v0, main_v28] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretch writes no argument. -/
theorem lin1_kept (r : Ref sig .tc) (hr : r ∈ argRefs) :
    after (ops2 (F := Ideal)) V (Proc.devRef .tc r) = V (Proc.devRef .tc r) :=
  kept_of _ ops2_writes (by decide) V r hr

/-! ## The third layer, cut in two stretches -/

/-- The third layer's two stretches leave, at the result, the layer of `main_v47` with the weights `main_arg9` and the bias `main_arg10`. -/
theorem run2 :
    after (ops4 (F := Ideal) ++ ops5 (F := Ideal)) V (Proc.devRef .tc main_v52)
      = layerT dot_S100000x512_S512x512_S100000x512_1_0_0_1_n_n (V (Proc.devRef .tc main_v47)) (V (Proc.devRef .tc main_arg9))
          (V (Proc.devRef .tc main_arg10)) := by
  rw [after_append]
  after_results
  rfl

/-- The stretch is one layer on `main_v47`: the product with the weights, the bias, the rectifier. -/
theorem lin2 :
    mat2 (n := 100000) (a := 512) (after (ops4 (F := Ideal) ++ ops5 (F := Ideal)) V (Proc.devRef .tc main_v52))
      = lin (mat2 (n := 100000) (a := 512) (V (Proc.devRef .tc main_v47))) (mat2 (n := 512) (a := 512) (V (Proc.devRef .tc main_arg9))) (row1 (a := 512) (V (Proc.devRef .tc main_arg10))) := by
  funext i d
  show after (ops4 (F := Ideal) ++ ops5 (F := Ideal)) V (Proc.devRef .tc main_v52) (ix2 i d) = _
  rw [run2 V]
  exact layerT_apply _ rfl _ _ _ i d

/-- Every buffer the stretch writes is among these. -/
theorem ops4_writes : (ops4 (F := Ideal)).Forall fun op => op.writes ⊆
    (([main_v48, main_v49, main_v50, main_v51] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- Every buffer the stretch writes is among these. -/
theorem ops5_writes : (ops5 (F := Ideal)).Forall fun op => op.writes ⊆
    (([main_call4_cst, main_call4_v0, main_v52] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretch writes no argument. -/
theorem lin2_kept (r : Ref sig .tc) (hr : r ∈ argRefs) :
    after (ops4 (F := Ideal) ++ ops5 (F := Ideal)) V (Proc.devRef .tc r) = V (Proc.devRef .tc r) := by
  rw [after_append, kept_of _ ops5_writes (by decide) _ r hr, kept_of _ ops4_writes (by decide) V r hr]

/-! ## The fourth layer -/

/-- The fourth layer's stretch leaves, at its result, the layer of `main_v71` with the weights `main_arg11` and the bias `main_arg12`. -/
theorem run3 :
    after (ops7 (F := Ideal)) V (Proc.devRef .tc main_v76)
      = layerT dot_S100000x512_S512x512_S100000x512_1_0_0_1_n_n (V (Proc.devRef .tc main_v71)) (V (Proc.devRef .tc main_arg11))
          (V (Proc.devRef .tc main_arg12)) := by
  after_results
  rfl

/-- The stretch is one layer on `main_v71`: the product with the weights, the bias, the rectifier. -/
theorem lin3 :
    mat2 (n := 100000) (a := 512) (after (ops7 (F := Ideal)) V (Proc.devRef .tc main_v76))
      = lin (mat2 (n := 100000) (a := 512) (V (Proc.devRef .tc main_v71))) (mat2 (n := 512) (a := 512) (V (Proc.devRef .tc main_arg11))) (row1 (a := 512) (V (Proc.devRef .tc main_arg12))) := by
  funext i d
  show after (ops7 (F := Ideal)) V (Proc.devRef .tc main_v76) (ix2 i d) = _
  rw [run3 V]
  exact layerT_apply _ rfl _ _ _ i d

/-- Every buffer the stretch writes is among these. -/
theorem ops7_writes : (ops7 (F := Ideal)).Forall fun op => op.writes ⊆
    (([main_v72, main_v73, main_v74, main_v75, main_call6_cst, main_call6_v0, main_v76] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretch writes no argument. -/
theorem lin3_kept (r : Ref sig .tc) (hr : r ∈ argRefs) :
    after (ops7 (F := Ideal)) V (Proc.devRef .tc r) = V (Proc.devRef .tc r) :=
  kept_of _ ops7_writes (by decide) V r hr

/-! ## The segment sum -/

/-- The segment sum as a pure term: the updates' rows added into a zero matrix at the rows the id column names. -/
def segT (ids : IVec S100000 32) (u : FVec Ideal S100000x512 .f32) : FVec Ideal S64x512 .f32 :=
  Host.scatterAdd scatter_S64x512_S100000x1_S100000x512_1_0_0_1
    (broadcastInDim S64x512 ![] bcast_S_S64x512 (constant (F := Ideal) S_ .f32 0x00000000#32))
    (broadcastInDim S100000x1 ![0] bcast_S100000_S100000x1_0 ids) u

/-- Entry `(g, d)` of the segment sum: column `d` of the rows whose id, read signed, is `g`, summed. -/
theorem segT_apply (ids : IVec S100000 32) (u : FVec Ideal S100000x512 .f32) (g : Fin 64) (d : Fin 512) :
    segT ids u (ix2 g d) = ∑ e : Fin 100000, if (ids (ix1 e)).toInt = (g.val : ℤ) then u (ix2 e d) else 0 := by
  have hd : scatter_S64x512_S100000x1_S100000x512_1_0_0_1
      = Cert.LibSegment.segDims2 64 100000 512 scatter_S64x512_S100000x1_S100000x512_1_0_0_1_wf := rfl
  show Ideal.hostScatterAdd scatter_S64x512_S100000x1_S100000x512_1_0_0_1 _ _ u (ix2 g d) = _
  rw [hd, Cert.LibSegment.scatterAdd_seg2_apply, broadcastInDim_scalar_apply, constant_apply, Cert.Consts.ofBits_zero, zero_add]
  refine Finset.sum_congr rfl fun e _ => ?_
  rw [bcast_col_apply]

/-- The pooling stretch leaves, at its result, the segment sum of `main_v95` by the ids `main_arg2`. -/
theorem runSeg :
    after (ops9 (F := Ideal)) V (Proc.devRef .tc main_v98)
      = segT (V (Proc.devRef .tc main_arg2)) (V (Proc.devRef .tc main_v95)) := by
  after_results
  rfl

/-- The segment sum: per segment, the rows whose id, read signed, is that segment, summed. -/
theorem seg :
    mat2 (n := 64) (a := 512) (after (ops9 (F := Ideal)) V (Proc.devRef .tc main_v98))
      = segSum (segOf V) (mat2 (n := 100000) (a := 512) (V (Proc.devRef .tc main_v95))) := by
  funext g d
  show after (ops9 (F := Ideal)) V (Proc.devRef .tc main_v98) (ix2 g d) = _
  rw [runSeg V]
  exact segT_apply _ _ g d

/-- Every buffer the stretch writes is among these. -/
theorem ops9_writes : (ops9 (F := Ideal)).Forall fun op => op.writes ⊆
    (([main_cst_14, main_v96, main_v97, main_v98] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretch writes no argument. -/
theorem seg_kept (r : Ref sig .tc) (hr : r ∈ argRefs) :
    after (ops9 (F := Ideal)) V (Proc.devRef .tc r) = V (Proc.devRef .tc r) :=
  kept_of _ ops9_writes (by decide) V r hr

/-! ## The head -/

/-- The closing stretches are the head applied to the pooled value. -/
theorem tail :
    after (ops10 (F := Ideal) ++ (ops11 (F := Ideal) ++ ops12 (F := Ideal))) V (Proc.devRef .tc main_v122)
      = Tail.head (V (Proc.devRef .tc main_v98)) (V (Proc.devRef .tc main_arg15)) (V (Proc.devRef .tc main_arg16)) (V (Proc.devRef .tc main_arg17))
          (V (Proc.devRef .tc main_arg18)) (V (Proc.devRef .tc main_arg19)) (V (Proc.devRef .tc main_arg20)) (V (Proc.devRef .tc main_arg21)) := by
  rw [after_append, after_append]
  after_results_simp
  rfl

/-- Every buffer the stretch writes is among these. -/
theorem ops10_writes : (ops10 (F := Ideal)).Forall fun op => op.writes ⊆
    (([main_v99, main_v100, main_v101, main_v102] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- Every buffer the stretch writes is among these. -/
theorem ops11_writes : (ops11 (F := Ideal)).Forall fun op => op.writes ⊆
    (([main_cst_15, main_v103, main_v104, main_v105, main_v106, main_v107, main_v108] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- Every buffer the stretch writes is among these. -/
theorem ops12_writes : (ops12 (F := Ideal)).Forall fun op => op.writes ⊆
    (([main_v109, main_v110, main_v111, main_v112, main_v113, main_v114, main_cst_16, main_v115, main_v116, main_cst_17, main_v117,
        main_v118, main_v119, main_v120, main_v121, main_v122] : List (Ref sig .tc)).map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- The stretches write no argument. -/
theorem tail_kept (r : Ref sig .tc) (hr : r ∈ argRefs) :
    after (ops10 (F := Ideal) ++ (ops11 (F := Ideal) ++ ops12 (F := Ideal))) V (Proc.devRef .tc r) = V (Proc.devRef .tc r) := by
  rw [after_append, after_append, kept_of _ ops12_writes (by decide) _ r hr, kept_of _ ops11_writes (by decide) _ r hr,
    kept_of _ ops10_writes (by decide) V r hr]

end Cert.ReferenceIdeal.Lin

end
-- ==== Proof.RChain.lean ====
/-
  The reference program's buffers after each stretch of @main, in terms of what was launched: stretch by stretch the
  statements of the BatchNorm and layer modules compose into the specification's hidden layers, the segment sum into
  its pooled value, and the closing stretches into the head of it.
-/
import proofs.«412217_j43164421324860_3_alg».proof.Proof.RefRun
import proofs.«412217_j43164421324860_3_alg».proof.Proof.RBn
import proofs.«412217_j43164421324860_3_alg».proof.Proof.RLin

noncomputable section

open scoped BigOperators

namespace Cert.ReferenceIdeal.Chain

open Cert.ReferenceIdeal Cert.ReferenceIdeal.Gen Cert.ReferenceIdeal.Ops Cert.ReferenceIdeal.Acc Cert.ReferenceIdeal.Run Cert.Spec
open Idealize.ShloMosaic Idealize.ShloMosaic.TcCoe Idealize.ShloMosaic.ValueIdx Idealize.SL.Sem Idealize.ShloMosaic.StableHlo

variable (V : Val)

/-- The launched input, parameters and segment ids. -/
abbrev X : Mat 100000 128 := xOf V
abbrev P : Params := paramsOf V
abbrev sg : Fin 100000 → ℤ := segOf V

/-- The buffers after each stretch. -/
abbrev S0 : Val := after (ops0 (F := Ideal)) V
abbrev S1 : Val := after (ops1 (F := Ideal)) (S0 V)
abbrev S2 : Val := after (ops2 (F := Ideal)) (S1 V)
abbrev S3 : Val := after (ops3 (F := Ideal)) (S2 V)
abbrev S5 : Val := after (ops4 (F := Ideal) ++ ops5 (F := Ideal)) (S3 V)
abbrev S6 : Val := after (ops6 (F := Ideal)) (S5 V)
abbrev S7 : Val := after (ops7 (F := Ideal)) (S6 V)
abbrev S8 : Val := after (ops8 (F := Ideal)) (S7 V)
abbrev S9 : Val := after (ops9 (F := Ideal)) (S8 V)
abbrev S12 : Val := after (ops10 (F := Ideal) ++ (ops11 (F := Ideal) ++ ops12 (F := Ideal))) (S9 V)

/-- The fold over all of @main is the stretches' folds in order. -/
theorem after_ops : after (ops (F := Ideal)) V = S12 V := by
  simp only [ops, main_part0_ops, main_part1_ops, main_part2_ops, S12, S9, S8, S7, S6, S5, S3, S2, S1, S0, after_append]

/-! ## The arguments through the stretches -/

theorem S0_arg (r : Ref sig .tc) (hr : r ∈ argRefs) : S0 V (Proc.devRef .tc r) = V (Proc.devRef .tc r) := Bn.bn1_kept V r hr
theorem S1_arg (r : Ref sig .tc) (hr : r ∈ argRefs) : S1 V (Proc.devRef .tc r) = V (Proc.devRef .tc r) :=
  (Lin.lin0_kept (S0 V) r hr).trans (S0_arg V r hr)
theorem S2_arg (r : Ref sig .tc) (hr : r ∈ argRefs) : S2 V (Proc.devRef .tc r) = V (Proc.devRef .tc r) :=
  (Lin.lin1_kept (S1 V) r hr).trans (S1_arg V r hr)
theorem S3_arg (r : Ref sig .tc) (hr : r ∈ argRefs) : S3 V (Proc.devRef .tc r) = V (Proc.devRef .tc r) :=
  (Bn.bn3a_kept (S2 V) r hr).trans (S2_arg V r hr)
theorem S5_arg (r : Ref sig .tc) (hr : r ∈ argRefs) : S5 V (Proc.devRef .tc r) = V (Proc.devRef .tc r) :=
  (Lin.lin2_kept (S3 V) r hr).trans (S3_arg V r hr)
theorem S6_arg (r : Ref sig .tc) (hr : r ∈ argRefs) : S6 V (Proc.devRef .tc r) = V (Proc.devRef .tc r) :=
  (Bn.bn3b_kept (S5 V) r hr).trans (S5_arg V r hr)
theorem S7_arg (r : Ref sig .tc) (hr : r ∈ argRefs) : S7 V (Proc.devRef .tc r) = V (Proc.devRef .tc r) :=
  (Lin.lin3_kept (S6 V) r hr).trans (S6_arg V r hr)
theorem S8_arg (r : Ref sig .tc) (hr : r ∈ argRefs) : S8 V (Proc.devRef .tc r) = V (Proc.devRef .tc r) :=
  (Bn.bn3c_kept (S7 V) r hr).trans (S7_arg V r hr)
theorem S9_arg (r : Ref sig .tc) (hr : r ∈ argRefs) : S9 V (Proc.devRef .tc r) = V (Proc.devRef .tc r) :=
  (Lin.seg_kept (S8 V) r hr).trans (S8_arg V r hr)
theorem S12_arg (r : Ref sig .tc) (hr : r ∈ argRefs) : S12 V (Proc.devRef .tc r) = V (Proc.devRef .tc r) :=
  (Lin.tail_kept (S9 V) r hr).trans (S9_arg V r hr)

/-- @main writes no argument. -/
theorem arg_kept (r : Ref sig .tc) (hr : r ∈ argRefs) :
    after (ops (F := Ideal)) V (Proc.devRef .tc r) = V (Proc.devRef .tc r) := by
  rw [after_ops]; exact S12_arg V r hr

/-! ## The hidden layers -/

theorem v18 : mat2 (n := 100000) (a := 128) (S0 V (Proc.devRef .tc main_v18))
    = bn (X V) (mean (X V)) (varR (X V)) (P V).g1 (P V).b1 := Bn.bn1 V

theorem v23 : mat2 (n := 100000) (a := 512) (S1 V (Proc.devRef .tc main_v23))
    = lin (bn (X V) (mean (X V)) (varR (X V)) (P V).g1 (P V).b1) (P V).w0 (P V).b0 := by
  rw [show S1 V = after (ops1 (F := Ideal)) (S0 V) from rfl, Lin.lin0 (S0 V), v18 V, S0_arg V main_arg5 (by decide), S0_arg V main_arg6 (by decide)]
  rfl

theorem v28 : mat2 (n := 100000) (a := 512) (S2 V (Proc.devRef .tc main_v28)) = h1R (X V) (P V) := by
  rw [show S2 V = after (ops2 (F := Ideal)) (S1 V) from rfl, Lin.lin1 (S1 V), v23 V, S1_arg V main_arg7 (by decide), S1_arg V main_arg8 (by decide)]
  rfl

theorem v47 : mat2 (n := 100000) (a := 512) (S3 V (Proc.devRef .tc main_v47))
    = bn (h1R (X V) (P V)) (mean (h1R (X V) (P V))) (varR (h1R (X V) (P V))) (P V).g3 (P V).b3 := by
  rw [show S3 V = after (ops3 (F := Ideal)) (S2 V) from rfl, Bn.bn3a (S2 V), v28 V, S2_arg V main_arg13 (by decide), S2_arg V main_arg14 (by decide)]
  rfl

theorem v52 : mat2 (n := 100000) (a := 512) (S5 V (Proc.devRef .tc main_v52)) = h2R (X V) (P V) := by
  rw [show S5 V = after (ops4 (F := Ideal) ++ ops5 (F := Ideal)) (S3 V) from rfl, Lin.lin2 (S3 V), v47 V, S3_arg V main_arg9 (by decide), S3_arg V main_arg10 (by decide)]
  rfl

theorem v71 : mat2 (n := 100000) (a := 512) (S6 V (Proc.devRef .tc main_v71))
    = bn (h2R (X V) (P V)) (mean (h2R (X V) (P V))) (varR (h2R (X V) (P V))) (P V).g3 (P V).b3 := by
  rw [show S6 V = after (ops6 (F := Ideal)) (S5 V) from rfl, Bn.bn3b (S5 V), v52 V, S5_arg V main_arg13 (by decide), S5_arg V main_arg14 (by decide)]
  rfl

theorem v76 : mat2 (n := 100000) (a := 512) (S7 V (Proc.devRef .tc main_v76)) = h3R (X V) (P V) := by
  rw [show S7 V = after (ops7 (F := Ideal)) (S6 V) from rfl, Lin.lin3 (S6 V), v71 V, S6_arg V main_arg11 (by decide), S6_arg V main_arg12 (by decide)]
  rfl

theorem v95 : mat2 (n := 100000) (a := 512) (S8 V (Proc.devRef .tc main_v95))
    = bn (h3R (X V) (P V)) (mean (h3R (X V) (P V))) (varR (h3R (X V) (P V))) (P V).g3 (P V).b3 := by
  rw [show S8 V = after (ops8 (F := Ideal)) (S7 V) from rfl, Bn.bn3c (S7 V), v76 V, S7_arg V main_arg13 (by decide), S7_arg V main_arg14 (by decide)]
  rfl

/-- The pooled value is the specification's. -/
theorem v98 : mat2 (n := 64) (a := 512) (S9 V (Proc.devRef .tc main_v98)) = netR (X V) (P V) (sg V) := by
  rw [show S9 V = after (ops9 (F := Ideal)) (S8 V) from rfl, Lin.seg (S8 V), v95 V]
  have hs : segOf (S8 V) = sg V := by
    funext i; show ((S8 V (Proc.devRef .tc main_arg2) : S100000.Idx → BitVec 32) (ix1 i)).toInt = _
    rw [S8_arg V main_arg2 (by decide)]
    rfl
  rw [hs]
  rfl

/-- The result is the head of the specification's pooled value. -/
theorem result_eq :
    after (ops (F := Ideal)) V (Proc.devRef .tc main_v122)
      = Tail.head (fun j => netR (X V) (P V) (sg V) (j 0) (j 1)) (V (Proc.devRef .tc main_arg15)) (V (Proc.devRef .tc main_arg16))
          (V (Proc.devRef .tc main_arg17)) (V (Proc.devRef .tc main_arg18)) (V (Proc.devRef .tc main_arg19))
          (V (Proc.devRef .tc main_arg20)) (V (Proc.devRef .tc main_arg21)) := by
  rw [after_ops, show S12 V = after (ops10 (F := Ideal) ++ (ops11 (F := Ideal) ++ ops12 (F := Ideal))) (S9 V) from rfl, Lin.tail (S9 V),
    S9_arg V main_arg15 (by decide), S9_arg V main_arg16 (by decide), S9_arg V main_arg17 (by decide), S9_arg V main_arg18 (by decide),
    S9_arg V main_arg19 (by decide), S9_arg V main_arg20 (by decide), S9_arg V main_arg21 (by decide)]
  have hp : (S9 V (Proc.devRef .tc main_v98) : S64x512.Idx → EReal) = fun j => netR (X V) (P V) (sg V) (j 0) (j 1) := by
    funext j
    have h := congrFun (congrFun (v98 V) (j 0)) (j 1)
    exact (congrArg (S9 V (Proc.devRef .tc main_v98) : S64x512.Idx → EReal) (eq_ix2 (n0 := 64) (n1 := 512) j)).trans h
  rw [hp]
  rfl

end Cert.ReferenceIdeal.Chain

end
-- ==== Proof.SpecHidden.lean ====
/-
  The two ways of taking a column's variance agree on real entries when there are 100000 rows, and every hidden
  layer of either network is then real; so the two networks have the same hidden layers.
-/
import proofs.«412217_j43164421324860_3_alg».proof.Proof.Spec

noncomputable section

open scoped BigOperators

namespace Cert.Spec

open Idealize.ShloMosaic

/-! ## Real numbers inside the extended reals

The reals sit inside the extended reals as a subring closed under finite sums, under the maximum with zero, under the
division by the row count, and under the reciprocal square root of a positive number. -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum with zero commutes with the coercion. -/
theorem coe_max_zero (a : ℝ) : max (a : EReal) 0 = ((max a 0 : ℝ) : EReal) := by
  rcases le_total a 0 with h | h
  · rw [max_eq_right h, max_eq_right (by exact_mod_cast h), EReal.coe_zero]
  · rw [max_eq_left h, max_eq_left (by exact_mod_cast h)]

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max_zero {x : EReal} (hx : ∃ r : ℝ, x = r) : ∃ r : ℝ, max x 0 = r := by
  obtain ⟨a, rfl⟩ := hx; exact ⟨max a 0, coe_max_zero a⟩

theorem real_sum {ι : Type*} [Fintype ι] {f : ι → EReal} (hf : ∀ i, ∃ r : ℝ, f i = r) :
    ∃ r : ℝ, ∑ i, f i = r := by
  choose g hg using hf
  exact ⟨∑ i, g i, by rw [coe_sum]; exact Finset.sum_congr rfl (fun i _ => hg i)⟩

/-- Dividing a real by the row count is multiplying it by the reciprocal of 100000. -/
theorem real_div_rows {x : EReal} (hx : ∃ r : ℝ, x = r) : ∃ r : ℝ, Ideal.div x rows = r := by
  obtain ⟨a, rfl⟩ := hx
  exact ⟨a * (1 / 100000), by rw [rows_eq, Ideal.div_coe (by norm_num), EReal.coe_mul]⟩

/-- A real that is not negative, plus epsilon, is positive; its reciprocal square root is a real. -/
theorem real_rsqrt {v : ℝ} (hv : 0 ≤ v) : ∃ r : ℝ, Ideal.rsqrt ((v : EReal) + eps) = r := by
  have hpos : 0 < v + 2748779 / 274877906944 := add_pos_of_nonneg_of_pos hv (by norm_num)
  refine ⟨(Real.sqrt (v + 2748779 / 274877906944))⁻¹, ?_⟩
  rw [eps_eq, ← EReal.coe_add, Ideal.rsqrt_coe, if_neg (not_lt.2 hpos.le), if_neg hpos.ne']

/-! ## Each stage keeps the entries real -/

section Layers
variable {n a b : ℕ}

theorem mean_real {h : Mat n a} (hh : Mat.Real h) : Row.Real (mean h) :=
  fun d => real_div_rows (real_sum (fun i => hh i d))

theorem lin_real {h : Mat n a} {w : Mat a b} {bias : Row b} (hh : Mat.Real h) (hw : Mat.Real w)
    (hb : Row.Real bias) : Mat.Real (lin h w bias) :=
  fun i d => real_max_zero (real_add (real_sum (fun k => real_mul (hh i k) (hw k d))) (hb d))

/-- The normalised entry (h - mean) * rsqrt(var + eps) * gamma + beta is real when the variance is a real that is not
    negative. -/
theorem bn_real {h : Mat n a} {mu va gam bet : Row a} (hh : Mat.Real h) (hmu : Row.Real mu)
    (hva : ∀ d, ∃ r : ℝ, 0 ≤ r ∧ va d = r) (hg : Row.Real gam) (hb : Row.Real bet) :
    Mat.Real (bn h mu va gam bet) := by
  intro i d
  obtain ⟨v, hv0, hv⟩ := hva d
  have hr : ∃ r : ℝ, Ideal.rsqrt (va d + eps) = r := by rw [hv]; exact real_rsqrt hv0
  exact real_add (real_mul (real_mul (real_sub (hh i d) (hmu d)) hr) (hg d)) (hb d)

end Layers

/-! ## The variance identity over the reals -/

/-- With `N` the number of terms, `S` their sum and `m = S / N`: the sum of the squared deviations from `m` is
    `Σ x² - 2 m S + N m²`, so the mean of squares minus the squared mean is the mean squared deviation. -/
theorem var_identity {n : ℕ} (x : Fin n → ℝ) (N : ℝ) (hN : (n : ℝ) = N) (hpos : 0 < N) :
    (∑ i, x i * x i) * (1 / N) - (∑ i, x i) * (1 / N) * ((∑ i, x i) * (1 / N))
      = (∑ i, (x i - (∑ j, x j) * (1 / N)) * (x i - (∑ j, x j) * (1 / N))) * (1 / N) := by
  have e : ∀ m : ℝ, ∑ i, (x i - m) * (x i - m) = (∑ i, x i * x i) - 2 * m * (∑ i, x i) + N * (m * m) := by
    intro m
    have : ∀ i, (x i - m) * (x i - m) = x i * x i - 2 * m * x i + m * m := fun i => by ring
    rw [Finset.sum_congr rfl (fun i _ => this i), Finset.sum_add_distrib, Finset.sum_sub_distrib, ← Finset.mul_sum,
      Finset.sum_const, Finset.card_univ, Fintype.card_fin, nsmul_eq_mul, hN]
  rw [e]
  have hne : N ≠ 0 := hpos.ne'
  field_simp
  ring

/-- Mean of squares minus squared mean is the mean squared deviation, and is not negative: over real entries, with the
    sums taken over exactly as many rows as the divisor counts. -/
theorem varK_eq_varR {a : ℕ} (h : Mat 100000 a) (hh : Mat.Real h) : varK h = varR h := by
  choose h' hh' using hh
  funext d
  have hN : (100000 : ℝ) ≠ 0 := by norm_num
  simp only [varK, varR, mean, colSum, colSumSq, hh', rows_eq, Ideal.div_coe hN, ← EReal.coe_mul, ← coe_sum,
    ← EReal.coe_sub]
  rw [coe_max_zero, var_identity (fun i => h' i d) 100000 (by norm_num) (by norm_num)]
  exact congrArg _ (max_eq_left (mul_nonneg (Finset.sum_nonneg (fun i _ => mul_self_nonneg _)) (by norm_num)))

/-- Over real entries the variance is a real number that is not negative. -/
theorem varR_real {a : ℕ} (h : Mat 100000 a) (hh : Mat.Real h) : ∀ d, ∃ r : ℝ, 0 ≤ r ∧ varR h d = r := by
  choose h' hh' using hh
  intro d
  have hN : (100000 : ℝ) ≠ 0 := by norm_num
  refine ⟨(∑ i, (h' i d - (∑ j, h' j d) * (1 / 100000)) * (h' i d - (∑ j, h' j d) * (1 / 100000))) * (1 / 100000),
    mul_nonneg (Finset.sum_nonneg (fun i _ => mul_self_nonneg _)) (by norm_num), ?_⟩
  simp only [varR, mean, colSum, hh', rows_eq, Ideal.div_coe hN, ← EReal.coe_mul, ← coe_sum, ← EReal.coe_sub]

/-- Over real inputs and parameters the two networks have the same third hidden layer, and it is real. -/
theorem hidden_eq (x : Mat 100000 128) (p : Params) (hx : Mat.Real x) (hp : p.Real) :
    h3K x p = h3R x p ∧ Mat.Real (h3R x p) := by
  obtain ⟨hg1, hb1, hw0, hb0, hw1, hbb1, hw2, hbb2, hw3, hbb3, hg3, hb3⟩ := hp
  -- the first hidden layer: BatchNorm of the input, then two linear layers
  have e1 : h1K x p = h1R x p := by unfold h1K h1R; rw [varK_eq_varR x hx]
  have r1 : Mat.Real (h1R x p) :=
    lin_real (lin_real (bn_real hx (mean_real hx) (varR_real x hx) hg1 hb1) hw0 hb0) hw1 hbb1
  -- the second: BatchNorm of the first, then one linear layer
  have e2 : h2K x p = h2R x p := by unfold h2K h2R; rw [e1, varK_eq_varR _ r1]
  have r2 : Mat.Real (h2R x p) :=
    lin_real (bn_real r1 (mean_real r1) (varR_real _ r1) hg3 hb3) hw2 hbb2
  -- the third: BatchNorm of the second, then one linear layer
  have e3 : h3K x p = h3R x p := by unfold h3K h3R; rw [e2, varK_eq_varR _ r2]
  have r3 : Mat.Real (h3R x p) :=
    lin_real (bn_real r2 (mean_real r2) (varR_real _ r2) hg3 hb3) hw3 hbb3
  exact ⟨e3, r3⟩

end Cert.Spec

end
-- ==== Proof.SpecNet.lean ====
/-
  The two networks agree on real inputs and parameters.
-/
import proofs.«412217_j43164421324860_3_alg».proof.Proof.SpecHidden
import proofs.«412217_j43164421324860_3_alg».proof.Proof.SpecPool

noncomputable section

namespace Cert.Spec

theorem net_eq (x : Mat 100000 128) (p : Params) (seg : Fin 100000 → ℤ) (hx : Mat.Real x) (hp : p.Real) :
    netK x p seg = netR x p seg := by
  obtain ⟨he, hr⟩ := hidden_eq x p hx hp
  unfold netK netR
  rw [he]
  exact pooled_eq seg (h3R x p) p.g3 p.b3 hr hp.2.2.2.2.2.2.2.2.2.2.1 hp.2.2.2.2.2.2.2.2.2.2.2
    (varK_eq_varR _ hr) (varR_real _ hr)

end Cert.Spec

end
-- ==== Proof.Finite.lean ====
/-
  From the precondition to the reals: under it every entry of every float argument is a real number.

  The precondition tests each float argument entry by entry, |entry| < +inf, takes the conjunction of the tests over
  all of the argument's axes, and then the conjunction over the arguments. The result being one therefore gives the test
  at every entry of every float argument; over the extended reals |x| = max x (-x), and max x (-x) < +inf fails at both
  infinities and holds at every real.
-/
import proofs.«412217_j43164421324860_3_alg».proof.Defs
import proofs.«412217_j43164421324860_3_alg».proof.Proof.Gen.KernelIdeal
import proofs.«412217_j43164421324860_3_alg».proof.Proof.Gen.Pre_finite_inputs
import proofs.«412217_j43164421324860_3_alg».proof.Proof.KAcc
import Idealize.ShloMosaic.Lib.ReduceAll
import Idealize.ShloMosaic.Lib.StableHlo.Run

noncomputable section

namespace Cert.Finite

open Cert.KernelIdeal Cert.KernelIdeal.Acc Cert.Spec
open Idealize.ShloMosaic Idealize.ShloMosaic.TcCoe Idealize.ShloMosaic.ValueIdx Idealize.SL.Sem

/-- The single-precision word 0x7F800000 (exponent all ones, fraction zero, sign clear) is plus infinity. -/
theorem inf_word : Ideal.ofBits .f32 0x7F800000#32 = (⊤ : EReal) := by simp [Ideal.ofBits, Ideal.ieee]

/-- An extended real whose absolute value max x (-x) is strictly below plus infinity is a real: at the bottom element
    the maximum is -⊥ = ⊤, at the top element it is ⊤, and ⊤ < ⊤ is false. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = r := by
  change Ideal.cmp .olt (max x (-x)) (Ideal.ofBits .f32 0x7F800000#32) = 1#1 at h
  rw [inf_word] at h
  unfold Ideal.cmp at h
  induction x using EReal.rec with
  | bot => simp at h
  | coe r => exact ⟨r, rfl⟩
  | top => simp at h

/-- The rank-0 shape has one index. -/
local instance : Subsingleton Cert.Pre_finite_inputs.S_.Idx := ⟨fun a b => funext fun d => d.elim0⟩

/-- For an array v of any shape: if the conjunction over all axes of the entrywise test |v| < +inf is one, every entry
    of v is a real. The conjunction over all axes has a single index, so it being one gives the test at every entry. -/
theorem all_real {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf v) (broadcastInDim s ![] hb (constant Cert.Pre_finite_inputs.S_ .f32 0x7F800000#32)))
          (constantI Cert.Pre_finite_inputs.S_ 1 1#1) hr h0 ix0 = 1#1) :
    ∀ i, ∃ r : ℝ, v i = r := fun i =>
  real_of_abs_lt_inf (v i) (Host.reduce_andi_all _ _ hr h0 ix0 e i)

/-- Under the precondition the input matrix and every parameter up to the pooling are real, on every device. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Mat.Real (xOf (StableHlo.launchContents m c)) ∧ (paramsOf (StableHlo.launchContents m c)).Real := by
  -- the predicate's one-bit result on this device, at its one index
  have e := congrFun (h c) ix0
  -- the predicate unfolded: one conjunction over all axes per float argument, the twenty joined by and
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at e
  -- an and of one-bit words is one exactly when both are
  simp only [IntOp.andi_eq_one] at e
  -- the conjuncts in argument order: 0, then 3 to 21; the last seven are the parameters after the pooling
  obtain ⟨⟨⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, -⟩, -⟩, -⟩, -⟩, -⟩, -⟩, -⟩ := e
  have r0 := all_real _ _ _ _ e0
  have r3 := all_real _ _ _ _ e3
  have r4 := all_real _ _ _ _ e4
  have r5 := all_real _ _ _ _ e5
  have r6 := all_real _ _ _ _ e6
  have r7 := all_real _ _ _ _ e7
  have r8 := all_real _ _ _ _ e8
  have r9 := all_real _ _ _ _ e9
  have r10 := all_real _ _ _ _ e10
  have r11 := all_real _ _ _ _ e11
  have r12 := all_real _ _ _ _ e12
  have r13 := all_real _ _ _ _ e13
  have r14 := all_real _ _ _ _ e14
  -- a matrix entry (i, d) is the array's entry at the rank-2 index of i and d, a row entry d at the rank-1 index of d
  exact ⟨fun i d => r0 (ix2 i d), fun d => r3 (ix1 d), fun d => r4 (ix1 d), fun k d => r5 (ix2 k d),
    fun d => r6 (ix1 d), fun k d => r7 (ix2 k d), fun d => r8 (ix1 d), fun k d => r9 (ix2 k d),
    fun d => r10 (ix1 d), fun k d => r11 (ix2 k d), fun d => r12 (ix1 d), fun d => r13 (ix1 d),
    fun d => r14 (ix1 d)⟩

end Cert.Finite

end
-- ==== Proof.lean ====
/-
  The certificate. Both programs compute, on the extended reals, a graph network's forward pass: BatchNorm of the
  input over its 100000 rows, four dense layers with a rectifier, BatchNorm of each of the last three, the per-segment
  sums of the normalised rows, and a small head. The kernel program takes every column's mean and variance from
  per-block partial sums, the variance as mean of squares minus squared mean clamped at zero, and carries the last
  BatchNorm's affine map through the segment sum; the reference takes the variance as the mean squared deviation and
  sums the normalised rows. Under the precondition every float input is real, and on reals the two variances agree and
  the affine map distributes over the sums, so both programs hand the same pooled value to the same head.
  The three frames: the two kernel programs' are the generated frame certificates; the reference's is its run with the
  result dropped. The kernel's idealization removed three bf16 round trips, each the rule's own statement.
-/
import proofs.«412217_j43164421324860_3_alg».proof.Defs
import proofs.«412217_j43164421324860_3_alg».proof.Proof.Gen.Kernel
import proofs.«412217_j43164421324860_3_alg».proof.Proof.Gen.Kernel.Skeleton
import proofs.«412217_j43164421324860_3_alg».proof.Proof.Gen.Kernel.Launch
import proofs.«412217_j43164421324860_3_alg».proof.Proof.Gen.Kernel.Points
import proofs.«412217_j43164421324860_3_alg».proof.Proof.Gen.Kernel.Frame
import proofs.«412217_j43164421324860_3_alg».proof.Proof.Gen.KernelIdeal
import proofs.«412217_j43164421324860_3_alg».proof.Proof.Gen.KernelIdeal.Skeleton
import proofs.«412217_j43164421324860_3_alg».proof.Proof.Gen.KernelIdeal.Launch
import proofs.«412217_j43164421324860_3_alg».proof.Proof.Gen.KernelIdeal.Points
import proofs.«412217_j43164421324860_3_alg».proof.Proof.Gen.KernelIdeal.Frame
import proofs.«412217_j43164421324860_3_alg».proof.Proof.Gen.ReferenceIdeal
import proofs.«412217_j43164421324860_3_alg».proof.Proof.Gen.Pre_finite_inputs
import proofs.«412217_j43164421324860_3_alg».proof.Proof.KChain
import proofs.«412217_j43164421324860_3_alg».proof.Proof.RChain
import proofs.«412217_j43164421324860_3_alg».proof.Proof.SpecNet
import proofs.«412217_j43164421324860_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run ends with every argument at its launch contents. -/
theorem frame_ri : Cert.frame_ReferenceIdeal := fun m ρ _ =>
  (θ_run Cert.ReferenceIdeal.defs _ _).mono (fun r h c =>
    ⟨(h c Cert.ReferenceIdeal.main_arg0).trans (Cert.ReferenceIdeal.Chain.arg_kept (launchContents m c) Cert.ReferenceIdeal.main_arg0 (by decide)),
     (h c Cert.ReferenceIdeal.main_arg1).trans (Cert.ReferenceIdeal.Chain.arg_kept (launchContents m c) Cert.ReferenceIdeal.main_arg1 (by decide)),
     (h c Cert.ReferenceIdeal.main_arg2).trans (Cert.ReferenceIdeal.Chain.arg_kept (launchContents m c) Cert.ReferenceIdeal.main_arg2 (by decide)),
     (h c Cert.ReferenceIdeal.main_arg3).trans (Cert.ReferenceIdeal.Chain.arg_kept (launchContents m c) Cert.ReferenceIdeal.main_arg3 (by decide)),
     (h c Cert.ReferenceIdeal.main_arg4).trans (Cert.ReferenceIdeal.Chain.arg_kept (launchContents m c) Cert.ReferenceIdeal.main_arg4 (by decide)),
     (h c Cert.ReferenceIdeal.main_arg5).trans (Cert.ReferenceIdeal.Chain.arg_kept (launchContents m c) Cert.ReferenceIdeal.main_arg5 (by decide)),
     (h c Cert.ReferenceIdeal.main_arg6).trans (Cert.ReferenceIdeal.Chain.arg_kept (launchContents m c) Cert.ReferenceIdeal.main_arg6 (by decide)),
     (h c Cert.ReferenceIdeal.main_arg7).trans (Cert.ReferenceIdeal.Chain.arg_kept (launchContents m c) Cert.ReferenceIdeal.main_arg7 (by decide)),
     (h c Cert.ReferenceIdeal.main_arg8).trans (Cert.ReferenceIdeal.Chain.arg_kept (launchContents m c) Cert.ReferenceIdeal.main_arg8 (by decide)),
     (h c Cert.ReferenceIdeal.main_arg9).trans (Cert.ReferenceIdeal.Chain.arg_kept (launchContents m c) Cert.ReferenceIdeal.main_arg9 (by decide)),
     (h c Cert.ReferenceIdeal.main_arg10).trans (Cert.ReferenceIdeal.Chain.arg_kept (launchContents m c) Cert.ReferenceIdeal.main_arg10 (by decide)),
     (h c Cert.ReferenceIdeal.main_arg11).trans (Cert.ReferenceIdeal.Chain.arg_kept (launchContents m c) Cert.ReferenceIdeal.main_arg11 (by decide)),
     (h c Cert.ReferenceIdeal.main_arg12).trans (Cert.ReferenceIdeal.Chain.arg_kept (launchContents m c) Cert.ReferenceIdeal.main_arg12 (by decide)),
     (h c Cert.ReferenceIdeal.main_arg13).trans (Cert.ReferenceIdeal.Chain.arg_kept (launchContents m c) Cert.ReferenceIdeal.main_arg13 (by decide)),
     (h c Cert.ReferenceIdeal.main_arg14).trans (Cert.ReferenceIdeal.Chain.arg_kept (launchContents m c) Cert.ReferenceIdeal.main_arg14 (by decide)),
     (h c Cert.ReferenceIdeal.main_arg15).trans (Cert.ReferenceIdeal.Chain.arg_kept (launchContents m c) Cert.ReferenceIdeal.main_arg15 (by decide)),
     (h c Cert.ReferenceIdeal.main_arg16).trans (Cert.ReferenceIdeal.Chain.arg_kept (launchContents m c) Cert.ReferenceIdeal.main_arg16 (by decide)),
     (h c Cert.ReferenceIdeal.main_arg17).trans (Cert.ReferenceIdeal.Chain.arg_kept (launchContents m c) Cert.ReferenceIdeal.main_arg17 (by decide)),
     (h c Cert.ReferenceIdeal.main_arg18).trans (Cert.ReferenceIdeal.Chain.arg_kept (launchContents m c) Cert.ReferenceIdeal.main_arg18 (by decide)),
     (h c Cert.ReferenceIdeal.main_arg19).trans (Cert.ReferenceIdeal.Chain.arg_kept (launchContents m c) Cert.ReferenceIdeal.main_arg19 (by decide)),
     (h c Cert.ReferenceIdeal.main_arg20).trans (Cert.ReferenceIdeal.Chain.arg_kept (launchContents m c) Cert.ReferenceIdeal.main_arg20 (by decide)),
     (h c Cert.ReferenceIdeal.main_arg21).trans (Cert.ReferenceIdeal.Chain.arg_kept (launchContents m c) Cert.ReferenceIdeal.main_arg21 (by decide))⟩)
    (Cert.ReferenceIdeal.Run.run (F := Ideal) m ρ)

/-- The three bf16 round trips the idealization removed. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- From memories agreeing on the arguments both programs end with the same result: the head of the same pooled value. -/
theorem algebraic : Cert.algebraic_KernelIdeal_ReferenceIdeal := by
  intro m g m' g' hpre hagree
  refine ⟨fun c => Cert.KernelIdeal.Gen.W10 m g c (Proc.devRef .tc Cert.KernelIdeal.main_v106), Cert.KernelIdeal.RunResult.run_result m g, ?_⟩
  refine (θ_run Cert.ReferenceIdeal.defs _ _).mono (fun r h c => ?_) (Cert.ReferenceIdeal.Run.run (F := Ideal) m' g')
  obtain ⟨a0, a1, a2, a3, a4, a5, a6, a7, a8, a9, a10, a11, a12, a13, a14, a15, a16, a17, a18, a19, a20, a21⟩ := hagree c
  refine ⟨?_, (h c Cert.ReferenceIdeal.main_arg0).trans (Cert.ReferenceIdeal.Chain.arg_kept (launchContents m' c) Cert.ReferenceIdeal.main_arg0 (by decide)),
    (h c Cert.ReferenceIdeal.main_arg1).trans (Cert.ReferenceIdeal.Chain.arg_kept (launchContents m' c) Cert.ReferenceIdeal.main_arg1 (by decide)),
    (h c Cert.ReferenceIdeal.main_arg2).trans (Cert.ReferenceIdeal.Chain.arg_kept (launchContents m' c) Cert.ReferenceIdeal.main_arg2 (by decide)),
    (h c Cert.ReferenceIdeal.main_arg3).trans (Cert.ReferenceIdeal.Chain.arg_kept (launchContents m' c) Cert.ReferenceIdeal.main_arg3 (by decide)),
    (h c Cert.ReferenceIdeal.main_arg4).trans (Cert.ReferenceIdeal.Chain.arg_kept (launchContents m' c) Cert.ReferenceIdeal.main_arg4 (by decide)),
    (h c Cert.ReferenceIdeal.main_arg5).trans (Cert.ReferenceIdeal.Chain.arg_kept (launchContents m' c) Cert.ReferenceIdeal.main_arg5 (by decide)),
    (h c Cert.ReferenceIdeal.main_arg6).trans (Cert.ReferenceIdeal.Chain.arg_kept (launchContents m' c) Cert.ReferenceIdeal.main_arg6 (by decide)),
    (h c Cert.ReferenceIdeal.main_arg7).trans (Cert.ReferenceIdeal.Chain.arg_kept (launchContents m' c) Cert.ReferenceIdeal.main_arg7 (by decide)),
    (h c Cert.ReferenceIdeal.main_arg8).trans (Cert.ReferenceIdeal.Chain.arg_kept (launchContents m' c) Cert.ReferenceIdeal.main_arg8 (by decide)),
    (h c Cert.ReferenceIdeal.main_arg9).trans (Cert.ReferenceIdeal.Chain.arg_kept (launchContents m' c) Cert.ReferenceIdeal.main_arg9 (by decide)),
    (h c Cert.ReferenceIdeal.main_arg10).trans (Cert.ReferenceIdeal.Chain.arg_kept (launchContents m' c) Cert.ReferenceIdeal.main_arg10 (by decide)),
    (h c Cert.ReferenceIdeal.main_arg11).trans (Cert.ReferenceIdeal.Chain.arg_kept (launchContents m' c) Cert.ReferenceIdeal.main_arg11 (by decide)),
    (h c Cert.ReferenceIdeal.main_arg12).trans (Cert.ReferenceIdeal.Chain.arg_kept (launchContents m' c) Cert.ReferenceIdeal.main_arg12 (by decide)),
    (h c Cert.ReferenceIdeal.main_arg13).trans (Cert.ReferenceIdeal.Chain.arg_kept (launchContents m' c) Cert.ReferenceIdeal.main_arg13 (by decide)),
    (h c Cert.ReferenceIdeal.main_arg14).trans (Cert.ReferenceIdeal.Chain.arg_kept (launchContents m' c) Cert.ReferenceIdeal.main_arg14 (by decide)),
    (h c Cert.ReferenceIdeal.main_arg15).trans (Cert.ReferenceIdeal.Chain.arg_kept (launchContents m' c) Cert.ReferenceIdeal.main_arg15 (by decide)),
    (h c Cert.ReferenceIdeal.main_arg16).trans (Cert.ReferenceIdeal.Chain.arg_kept (launchContents m' c) Cert.ReferenceIdeal.main_arg16 (by decide)),
    (h c Cert.ReferenceIdeal.main_arg17).trans (Cert.ReferenceIdeal.Chain.arg_kept (launchContents m' c) Cert.ReferenceIdeal.main_arg17 (by decide)),
    (h c Cert.ReferenceIdeal.main_arg18).trans (Cert.ReferenceIdeal.Chain.arg_kept (launchContents m' c) Cert.ReferenceIdeal.main_arg18 (by decide)),
    (h c Cert.ReferenceIdeal.main_arg19).trans (Cert.ReferenceIdeal.Chain.arg_kept (launchContents m' c) Cert.ReferenceIdeal.main_arg19 (by decide)),
    (h c Cert.ReferenceIdeal.main_arg20).trans (Cert.ReferenceIdeal.Chain.arg_kept (launchContents m' c) Cert.ReferenceIdeal.main_arg20 (by decide)),
    (h c Cert.ReferenceIdeal.main_arg21).trans (Cert.ReferenceIdeal.Chain.arg_kept (launchContents m' c) Cert.ReferenceIdeal.main_arg21 (by decide))⟩
  -- the launched arguments of the two programs, as the two chains read them
  have b0 : launchContents m' c (Proc.devRef .tc Cert.ReferenceIdeal.main_arg0) = Cert.KernelIdeal.Gen.W0 m g c (Proc.devRef .tc Cert.KernelIdeal.main_arg0) := a0
  have b2 : launchContents m' c (Proc.devRef .tc Cert.ReferenceIdeal.main_arg2) = Cert.KernelIdeal.Gen.W0 m g c (Proc.devRef .tc Cert.KernelIdeal.main_arg2) := a2
  have b3 : launchContents m' c (Proc.devRef .tc Cert.ReferenceIdeal.main_arg3) = Cert.KernelIdeal.Gen.W0 m g c (Proc.devRef .tc Cert.KernelIdeal.main_arg3) := a3
  have b4 : launchContents m' c (Proc.devRef .tc Cert.ReferenceIdeal.main_arg4) = Cert.KernelIdeal.Gen.W0 m g c (Proc.devRef .tc Cert.KernelIdeal.main_arg4) := a4
  have b5 : launchContents m' c (Proc.devRef .tc Cert.ReferenceIdeal.main_arg5) = Cert.KernelIdeal.Gen.W0 m g c (Proc.devRef .tc Cert.KernelIdeal.main_arg5) := a5
  have b6 : launchContents m' c (Proc.devRef .tc Cert.ReferenceIdeal.main_arg6) = Cert.KernelIdeal.Gen.W0 m g c (Proc.devRef .tc Cert.KernelIdeal.main_arg6) := a6
  have b7 : launchContents m' c (Proc.devRef .tc Cert.ReferenceIdeal.main_arg7) = Cert.KernelIdeal.Gen.W0 m g c (Proc.devRef .tc Cert.KernelIdeal.main_arg7) := a7
  have b8 : launchContents m' c (Proc.devRef .tc Cert.ReferenceIdeal.main_arg8) = Cert.KernelIdeal.Gen.W0 m g c (Proc.devRef .tc Cert.KernelIdeal.main_arg8) := a8
  have b9 : launchContents m' c (Proc.devRef .tc Cert.ReferenceIdeal.main_arg9) = Cert.KernelIdeal.Gen.W0 m g c (Proc.devRef .tc Cert.KernelIdeal.main_arg9) := a9
  have b10 : launchContents m' c (Proc.devRef .tc Cert.ReferenceIdeal.main_arg10) = Cert.KernelIdeal.Gen.W0 m g c (Proc.devRef .tc Cert.KernelIdeal.main_arg10) := a10
  have b11 : launchContents m' c (Proc.devRef .tc Cert.ReferenceIdeal.main_arg11) = Cert.KernelIdeal.Gen.W0 m g c (Proc.devRef .tc Cert.KernelIdeal.main_arg11) := a11
  have b12 : launchContents m' c (Proc.devRef .tc Cert.ReferenceIdeal.main_arg12) = Cert.KernelIdeal.Gen.W0 m g c (Proc.devRef .tc Cert.KernelIdeal.main_arg12) := a12
  have b13 : launchContents m' c (Proc.devRef .tc Cert.ReferenceIdeal.main_arg13) = Cert.KernelIdeal.Gen.W0 m g c (Proc.devRef .tc Cert.KernelIdeal.main_arg13) := a13
  have b14 : launchContents m' c (Proc.devRef .tc Cert.ReferenceIdeal.main_arg14) = Cert.KernelIdeal.Gen.W0 m g c (Proc.devRef .tc Cert.KernelIdeal.main_arg14) := a14
  have b15 : launchContents m' c (Proc.devRef .tc Cert.ReferenceIdeal.main_arg15) = Cert.KernelIdeal.Gen.W0 m g c (Proc.devRef .tc Cert.KernelIdeal.main_arg15) := a15
  have b16 : launchContents m' c (Proc.devRef .tc Cert.ReferenceIdeal.main_arg16) = Cert.KernelIdeal.Gen.W0 m g c (Proc.devRef .tc Cert.KernelIdeal.main_arg16) := a16
  have b17 : launchContents m' c (Proc.devRef .tc Cert.ReferenceIdeal.main_arg17) = Cert.KernelIdeal.Gen.W0 m g c (Proc.devRef .tc Cert.KernelIdeal.main_arg17) := a17
  have b18 : launchContents m' c (Proc.devRef .tc Cert.ReferenceIdeal.main_arg18) = Cert.KernelIdeal.Gen.W0 m g c (Proc.devRef .tc Cert.KernelIdeal.main_arg18) := a18
  have b19 : launchContents m' c (Proc.devRef .tc Cert.ReferenceIdeal.main_arg19) = Cert.KernelIdeal.Gen.W0 m g c (Proc.devRef .tc Cert.KernelIdeal.main_arg19) := a19
  have b20 : launchContents m' c (Proc.devRef .tc Cert.ReferenceIdeal.main_arg20) = Cert.KernelIdeal.Gen.W0 m g c (Proc.devRef .tc Cert.KernelIdeal.main_arg20) := a20
  have b21 : launchContents m' c (Proc.devRef .tc Cert.ReferenceIdeal.main_arg21) = Cert.KernelIdeal.Gen.W0 m g c (Proc.devRef .tc Cert.KernelIdeal.main_arg21) := a21
  have hX : Cert.ReferenceIdeal.Chain.X (launchContents m' c) = Cert.KernelIdeal.Chain.X m g c := by
    show Cert.Spec.mat2 (n := 100000) (a := 128) (launchContents m' c (Proc.devRef .tc Cert.ReferenceIdeal.main_arg0)) = _
    rw [b0]; rfl
  have hs : Cert.ReferenceIdeal.Chain.sg (launchContents m' c) = Cert.KernelIdeal.Chain.sg m g c := by
    funext i
    show ((launchContents m' c (Proc.devRef .tc Cert.ReferenceIdeal.main_arg2) : Cert.ReferenceIdeal.S100000.Idx → BitVec 32) (ValueIdx.ix1 i)).toInt = _
    rw [b2]; rfl
  have hP : Cert.ReferenceIdeal.Chain.P (launchContents m' c) = Cert.KernelIdeal.Chain.P m g c := by
    show Cert.ReferenceIdeal.Acc.paramsOf (launchContents m' c) = Cert.KernelIdeal.Acc.paramsOf (Cert.KernelIdeal.Gen.W0 m g c)
    unfold Cert.ReferenceIdeal.Acc.paramsOf Cert.KernelIdeal.Acc.paramsOf
    rw [b3, b4, b5, b6, b7, b8, b9, b10, b11, b12, b13, b14]
  -- under the precondition the launched input and parameters are real
  obtain ⟨hxr, hpr⟩ := Cert.Finite.real_of_pre m hpre c
  have hnet := Cert.Spec.net_eq (Cert.KernelIdeal.Chain.X m g c) (Cert.KernelIdeal.Chain.P m g c) (Cert.KernelIdeal.Chain.sg m g c) hxr hpr
  beta_reduce
  rw [h c Cert.ReferenceIdeal.main_v122, Cert.ReferenceIdeal.Chain.result_eq, Cert.KernelIdeal.Chain.result, hX, hP, hs, ← hnet, b15, b16, b17, b18, b19, b20, b21]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
